-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S128x128 .f32) (main_arg6 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S2000x64 : Shape := ⟨2, ![2000, 64]⟩
abbrev S2000x1 : Shape := ⟨2, ![2000, 1]⟩
abbrev S1600000x1 : Shape := ⟨2, ![1600000, 1]⟩
abbrev S1600000x64 : Shape := ⟨2, ![1600000, 64]⟩
abbrev S1x128 : Shape := ⟨2, ![1, 128]⟩
abbrev S100000x128 : Shape := ⟨2, ![100000, 128]⟩
abbrev S2000x128 : Shape := ⟨2, ![2000, 128]⟩
abbrev S1600000x128 : Shape := ⟨2, ![1600000, 128]⟩
abbrev S512x128 : Shape := ⟨2, ![512, 128]⟩
abbrev S1000x128 : Shape := ⟨2, ![1000, 128]⟩
abbrev S1000x1 : Shape := ⟨2, ![1000, 1]⟩
abbrev S1x512 : Shape := ⟨2, ![1, 512]⟩
abbrev S1000x512 : Shape := ⟨2, ![1000, 512]⟩
abbrev S512 : Shape := ⟨1, ![512]⟩
abbrev S512x1 : Shape := ⟨2, ![512, 1]⟩

abbrev nBuf : Space → Nat
  | .hbm => 76
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S100000x1, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x1, .f32⟩
  | .hbm, ⟨60, _⟩ => ⟨S1x128, .f32⟩
  | .hbm, ⟨61, _⟩ => ⟨S100000x1, .i32⟩
  | .hbm, ⟨62, _⟩ => ⟨S512x128, .f32⟩
  | .hbm, ⟨63, _⟩ => ⟨S_, .f32⟩
  | .hbm, ⟨64, _⟩ => ⟨S100000, .f32⟩
  | .hbm, ⟨65, _⟩ => ⟨S_, .f32⟩
  | .hbm, ⟨66, _⟩ => ⟨S512, .f32⟩
  | .hbm, ⟨67, _⟩ => ⟨S100000x1, .i32⟩
  | .hbm, ⟨68, _⟩ => ⟨S512, .f32⟩
  | .hbm, ⟨69, _⟩ => ⟨S_, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S512x1, .f32⟩
  | .hbm, ⟨74, _⟩ => ⟨S512x128, .f32⟩
  | .hbm, ⟨75, _⟩ => ⟨S512x128, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x1, .f32⟩
  | .local _ .vmem, ⟨11, _⟩ => ⟨S2000x1, .f32⟩
  | .local _ .vmem, ⟨12, _⟩ => ⟨S1x128, .f32⟩
  | .local _ .vmem, ⟨13, _⟩ => ⟨S64x128, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x1, .f32⟩
  | .local _ .vmem, ⟨22, _⟩ => ⟨S1000x1, .f32⟩
  | .local _ .vmem, ⟨23, _⟩ => ⟨S1x128, .f32⟩
  | .local _ .vmem, ⟨24, _⟩ => ⟨S1000x1, .i32⟩
  | .local _ .vmem, ⟨25, _⟩ => ⟨S1000x1, .i32⟩
  | .local _ .vmem, ⟨26, _⟩ => ⟨S512x128, .f32⟩
  | .local _ .vmem, ⟨27, _⟩ => ⟨S512x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_call1_v0 : Ref sig .tc := ⟨.hbm, 70, rfl⟩
abbrev main_call1_v1 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25
abbrev cc2_sem5_0 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def k2_cond2 (i : grid2.Coords) : BitVec 1 :=
  let arg0 : BitVec 32 := BitVec.ofNat 32 (i 0).val
  let c99_i32 : BitVec 32 := 99#32
  let v32 : BitVec 1 := Scalar.cmpi .eq arg0 c99_i32
  let v33 : BitVec 32 := Scalar.extui v32
  let c0_i32_15 : BitVec 32 := 0#32
  let v34 : BitVec 1 := Scalar.cmpi .ne v33 c0_i32_15
  v34

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S512x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S2000x64_S2000x64_0_0 : ∀ a, (![0, 0] : Fin 2 → Nat) a + S2000x64.size a ≤ S2000x64.size a
  h_S2000x64 : 0 < S2000x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S128_S1x128 : S128.ShapeCasts S1x128
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  broadcasts_S1x128_S1000x128 : S1x128.Broadcasts S1000x128
  iota_S1x512_d1_w32 : S1x512.Iotas .tc 32 [1]
  broadcasts_S1000x1_S1000x512 : S1000x1.Broadcasts S1000x512
  broadcasts_S1x512_S1000x512 : S1x512.Broadcasts S1000x512
  natLt_1_32 : 1 < 32
  bcast_S_S512 : S_.BroadcastsInDim S512 (![] : Fin 0 → Fin S512.rank)
  bcast_S100000_S100000x1_0 : S100000.BroadcastsInDim S100000x1 (![0] : Fin 1 → Fin S100000x1.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  scatter_S100000_S1700000x1_S1700000_n_0_0_1_wf : ScatterDims.WF S100000 S1700000x1 S1700000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x128_S2000x128_1_0_0_1_n_n_wf : DotDims.WF S2000x64 S64x128 S2000x128 [1] [0] [0] [1] [] []
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1000x512_S1000x128_S512x128_0_0_1_1_n_n_wf : DotDims.WF S1000x512 S1000x128 S512x128 [0] [0] [1] [1] [] []
  scatter_S512_S100000x1_S100000_n_0_0_1_wf : ScatterDims.WF S512 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S100000x128.size a
  hwx2_0 : ∀ i : grid2.Coords, EltTy.bits .f32 = 32 ∨ (Rect.block (s := S100000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S100000x128.size a
  hwx2_1 : ∀ i : grid2.Coords, EltTy.bits .f32 = 32 ∨ (Rect.block (s := S100000x128) S1000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S100000x1.size a
  hwx2_2 : ∀ i : grid2.Coords, EltTy.bits .f32 = 32 ∨ (Rect.block (s := S100000x1) S1000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x1.size a ≤ S100000x1.size a
  hwx2_4 : ∀ i : grid2.Coords, EltTy.bits .i32 = 32 ∨ (Rect.block (s := S100000x1) S1000x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S512x128.size a
  hwx2_5 : ∀ i : grid2.Coords, EltTy.bits .f32 = 32 ∨ (Rect.block (s := S512x128) S512x128.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1000x512_S1000x128_S512x128_0_0_1_1_n_n : DotDims S1000x512 S1000x128 S512x128 where
  lhsContracting := [0]
  rhsContracting := [0]
  lhsNonContracting := [1]
  rhsNonContracting := [1]
  lhsBatch := []
  rhsBatch := []
  wf := dot_S1000x512_S1000x128_S512x128_0_0_1_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v43) S512x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S100000x128 : Shape := ⟨2, ![100000, 128]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩

abbrev nBuf : Space → Nat
  | .hbm => 146
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S128x128, .f32⟩
  | 6 => ⟨S128, .f32⟩
  | 7 => ⟨S1x1600000, .i32⟩
  | 8 => ⟨S1600000, .i32⟩
  | 9 => ⟨S1x1600000, .i32⟩
  | 10 => ⟨S1600000, .i32⟩
  | 11 => ⟨S100000x128, .f32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S100000, .i32⟩
  | 72 => ⟨S1700000, .i32⟩
  | 73 => ⟨S1700000, .i32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x1, .f32⟩
  | 117 => ⟨S1700000x128, .f32⟩
  | 118 => ⟨S1700000x128, .f32⟩
  | 119 => ⟨S_, .f32⟩
  | 120 => ⟨S100000x128, .f32⟩
  | 121 => ⟨S1700000x1, .i32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x64, .f32⟩

abbrev hbmTy0_1 (i : Nat) : BufTy := match i % 128 with
  | 0 => ⟨S100000x128, .f32⟩
  | 1 => ⟨S_, .f32⟩
  | 2 => ⟨S512x128, .f32⟩
  | 3 => ⟨S100000x1, .i32⟩
  | 4 => ⟨S512x128, .f32⟩
  | 5 => ⟨S_, .f32⟩
  | 6 => ⟨S100000, .f32⟩
  | 7 => ⟨S_, .f32⟩
  | 8 => ⟨S512, .f32⟩
  | 9 => ⟨S100000x1, .i32⟩
  | 10 => ⟨S512, .f32⟩
  | 11 => ⟨S_, .f32⟩
  | 12 => ⟨S_, .f32⟩
  | 13 => ⟨S512, .f32⟩
  | 14 => ⟨S512, .f32⟩
  | 15 => ⟨S512x1, .f32⟩
  | 16 => ⟨S512x128, .f32⟩
  | 17 => ⟨S512x128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_call3_cst : Ref sig .tc := ⟨.hbm, 126, rfl⟩
abbrev main_call3_v0 : Ref sig .tc := ⟨.hbm, 127, rfl⟩
abbrev main_v91 : Ref sig .tc := ⟨.hbm, 128, rfl⟩
abbrev main_cst_20 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_21 : Ref sig .tc := ⟨.hbm, 133, rfl⟩
abbrev main_v95 : Ref sig .tc := ⟨.hbm, 134, rfl⟩
abbrev main_cst_22 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_23 : Ref sig .tc := ⟨.hbm, 139, rfl⟩
abbrev main_call4_v0 : Ref sig .tc := ⟨.hbm, 140, rfl⟩
abbrev main_call4_v1 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  dot_S100000x64_S64x128_S100000x128_1_0_0_1_n_n_wf : DotDims.WF S100000x64 S64x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.K.Reg0.lean ====
import proofs.«411983_j75668733821211_3_alg».proof.Proof.Gen.Kernel.Launch
import proofs.«411983_j75668733821211_3_alg».proof.Proof.Gen.Kernel.Skeleton
import proofs.«411983_j75668733821211_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first launch: every row of the features scaled by that row's normalisation factor

The grid has 50 points; point `t` sees rows `2000 t … 2000 t + 1999` of the feature array (window 0) and of the
one-column factor array (window 1), and writes the same rows of the result (window 2). The body stores, over the whole
result block, the product of the feature block with the factor column spread along the 64 feature lanes.
Stated at a parameter `V`: what the TensorCore's buffers hold when the launch is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or kept it. -/
theorem held0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rx0 : Rect S2000x64 := Rect.unit (s := S2000x64) ![0, 0] S2000x64.size inb_S2000x64_S2000x64_0_0
abbrev rd0 : Rect S2000x1 := Rect.unit (s := S2000x1) ![0, 0] S2000x1.size inb_S2000x1_S2000x1_0_0

/-- What the body leaves in the result block: its one store, of the scaled feature block. -/
def scaled (x : Vec F S2000x64 .f32) (dcol : Vec F S2000x1 .f32) : Vec F S2000x64 .f32 :=
  View.canon [⟨rx0, k0_pay1 (View.ld x rx0) (View.ld dcol rd0)⟩]

/-- The one store covers the result block. -/
theorem scaled_cover (p0 : Vec F S2000x64 .f32) (y : S2000x64.Idx) :
    ∃ pc ∈ ([⟨rx0, p0⟩] : List (View.Piece (Elt F) S2000x64 .f32)), y ∈ pc.1.set :=
  View.cover_of_tiled [⟨rx0, p0⟩] S2000x64.size (by rfl) y

set_option maxHeartbeats 1000000 in
/-- The body run on whole staging buffers: the two inputs are read and kept, the result block ends at `scaled`. -/
theorem run_scale (c : Dev nD) (E : Set ℕ) (i : grid0.Coords) (arg1 : Memref sig .tc .vmem S2000x64 .f32) (harg1 : arg1.IsWhole)
    (arg2 : Memref sig .tc .vmem S2000x1 .f32) (harg2 : arg2.IsWhole) (arg3 : Memref sig .tc .vmem S2000x64 .f32) (harg3 : arg3.IsWhole)
    (x : Vec F S2000x64 .f32) (dcol : Vec F S2000x1 .f32) (K : PUnit → sProp 𝕄) :
    iprop(owns (c : Thread nD τ) arg1 fullShare x ∗ owns (c : Thread nD τ) arg2 fullShare dcol ∗ (∃ d, owns (c : Thread nD τ) arg3 fullShare d)
        ∗ (iprop(owns (c : Thread nD τ) arg1 fullShare x ∗ owns (c : Thread nD τ) arg2 fullShare dcol
            ∗ owns (c : Thread nD τ) arg3 fullShare (scaled x dcol)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (scaled_cover _)

/-- The launch's proof data on core `c`: the arrays as found; after the body at point `t` the inputs' buffers at
    their blocks and the result's at `scaled` of them; the scoped rest and the generator register ride untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => scaled (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = scaled (iblk0 V c 0 t) (iblk0 V c 1 t) := by dsimp only [dat0]

theorem before0_0 (c : Dev nD) (t : Fin cfg0.N) (d) : (dat0 V c).before 0 t d = iblk0 V c 0 t :=
  held0_0 V (dat0 V c) (A_eq0 V c 0) (after0_0 V c) t d
theorem before0_1 (c : Dev nD) (t : Fin cfg0.N) (d) : (dat0 V c).before 1 t d = iblk0 V c 1 t :=
  held0_1 V (dat0 V c) (A_eq0 V c 1) (after0_1 V c) t d

/-- The body at any point, against the proof data. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t))) := by
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (run_scale c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«411983_j75668733821211_3_alg».proof.Proof.Gen.Kernel.Launch
import proofs.«411983_j75668733821211_3_alg».proof.Proof.Gen.Kernel.Skeleton
import proofs.«411983_j75668733821211_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # The second launch: one graph-convolution stage on a block of 2000 rows

The grid has 50 points. Point `t` sees rows `2000 t … 2000 t + 1999` of the aggregated features (window 0), of the
scaled features (window 1) and of the one-column normalisation factor (window 2); the bias row (window 3), the
64×128 weight (window 4) and the 128×128 weight (window 5) have a constant block index, so every point sees the
same whole array of each. It writes the same 2000 rows of the 128-lane result (window 6).

On a block the body forms the sum of the two feature blocks, multiplies it by the first weight, scales every row
by that row's factor, adds the bias row to every row, takes the maximum with zero, multiplies by the second weight
and scales every row by its factor once more; that value is stored over the whole result block.
Stated at a parameter `V`: what the TensorCore's buffers hold when the launch is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point. Windows 0, 1, 2 are fetched at every point.
Windows 3, 4, 5 are fetched at the first point only: at a later point the block index has not moved, so the block
the buffer kept from the point before is this point's block. One law covers both cases. -/
theorem held1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem held1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem held1_3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem held1_4 {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem held1_5 {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rf1 : Rect S2000x64 := Rect.unit (s := S2000x64) ![0, 0] S2000x64.size inb_S2000x64_S2000x64_0_0
abbrev rd1 : Rect S2000x1 := Rect.unit (s := S2000x1) ![0, 0] S2000x1.size inb_S2000x1_S2000x1_0_0
abbrev rb1 : Rect S1x128 := Rect.unit (s := S1x128) ![0, 0] S1x128.size inb_S1x128_S1x128_0_0
abbrev rw1 : Rect S64x128 := Rect.unit (s := S64x128) ![0, 0] S64x128.size inb_S64x128_S64x128_0_0
abbrev rv1 : Rect S128x128 := Rect.unit (s := S128x128) ![0, 0] S128x128.size inb_S128x128_S128x128_0_0
abbrev ro1 : Rect S2000x128 := Rect.unit (s := S2000x128) ![0, 0] S2000x128.size inb_S2000x128_S2000x128_0_0

/-- What the body leaves in the result block: its one store, of the convolution stage of the six input blocks
    (`a` the aggregated features, `x` the scaled features, `dcol` the factor column, `b` the bias row, `w1` and `w2`
    the two weights). The factor column is read twice, once for each scaling. -/
def conv (a x : Vec F S2000x64 .f32) (dcol : Vec F S2000x1 .f32) (b : Vec F S1x128 .f32) (w1 : Vec F S64x128 .f32)
    (w2 : Vec F S128x128 .f32) : Vec F S2000x128 .f32 :=
  View.canon [⟨ro1, k1_pay1 (View.ld a rf1) (View.ld x rf1) (View.ld w1 rw1) (View.ld dcol rd1) (View.ld b rb1) (View.ld w2 rv1)
    (View.ld dcol rd1)⟩]

/-- The offsets of a whole-block rectangle are all zero. -/
theorem hz1 : (![0, 0] : Fin 2 → Nat) = fun _ => 0 := funext fun a => by fin_cases a <;> rfl

/-- One store through the whole-block rectangle leaves its payload, and a load through a whole-block rectangle
    reads the block: the result block is the stage's value on the six blocks themselves. -/
theorem conv_eq (a x : Vec F S2000x64 .f32) (dcol : Vec F S2000x1 .f32) (b : Vec F S1x128 .f32) (w1 : Vec F S64x128 .f32)
    (w2 : Vec F S128x128 .f32) : conv a x dcol b w1 w2 = k1_pay1 a x w1 dcol b w2 dcol := by
  unfold conv
  rw [View.canon_unit_zero hz1]
  rw [View.ld_unit_zero (S := S2000x64) hz1, View.ld_unit_zero (S := S2000x64) hz1, View.ld_unit_zero (S := S64x128) hz1,
    View.ld_unit_zero (S := S2000x1) hz1, View.ld_unit_zero (S := S1x128) hz1, View.ld_unit_zero (S := S128x128) hz1]

/-- The one store covers the result block. -/
theorem conv_cover (p0 : Vec F S2000x128 .f32) (y : S2000x128.Idx) :
    ∃ pc ∈ ([⟨ro1, p0⟩] : List (View.Piece (Elt F) S2000x128 .f32)), y ∈ pc.1.set :=
  View.cover_of_tiled [⟨ro1, p0⟩] S2000x128.size (by rfl) y

set_option maxHeartbeats 4000000 in
/-- The body run on whole staging buffers: the six inputs are read and kept, the result block ends at `conv`. -/
theorem run_conv (c : Dev nD) (E : Set ℕ) (i : grid1.Coords) (arg1 : Memref sig .tc .vmem S2000x64 .f32) (harg1 : arg1.IsWhole)
    (arg2 : Memref sig .tc .vmem S2000x64 .f32) (harg2 : arg2.IsWhole) (arg3 : Memref sig .tc .vmem S2000x1 .f32) (harg3 : arg3.IsWhole)
    (arg4 : Memref sig .tc .vmem S1x128 .f32) (harg4 : arg4.IsWhole) (arg5 : Memref sig .tc .vmem S64x128 .f32) (harg5 : arg5.IsWhole)
    (arg6 : Memref sig .tc .vmem S128x128 .f32) (harg6 : arg6.IsWhole) (arg7 : Memref sig .tc .vmem S2000x128 .f32) (harg7 : arg7.IsWhole)
    (a x : Vec F S2000x64 .f32) (dcol : Vec F S2000x1 .f32) (b : Vec F S1x128 .f32) (w1 : Vec F S64x128 .f32)
    (w2 : Vec F S128x128 .f32) (K : PUnit → sProp 𝕄) :
    iprop(owns (c : Thread nD τ) arg1 fullShare a ∗ owns (c : Thread nD τ) arg2 fullShare x ∗ owns (c : Thread nD τ) arg3 fullShare dcol
        ∗ owns (c : Thread nD τ) arg4 fullShare b ∗ owns (c : Thread nD τ) arg5 fullShare w1 ∗ owns (c : Thread nD τ) arg6 fullShare w2
        ∗ (∃ d, owns (c : Thread nD τ) arg7 fullShare d)
        ∗ (iprop(owns (c : Thread nD τ) arg1 fullShare a ∗ owns (c : Thread nD τ) arg2 fullShare x ∗ owns (c : Thread nD τ) arg3 fullShare dcol
            ∗ owns (c : Thread nD τ) arg4 fullShare b ∗ owns (c : Thread nD τ) arg5 fullShare w1 ∗ owns (c : Thread nD τ) arg6 fullShare w2
            ∗ owns (c : Thread nD τ) arg7 fullShare (conv a x dcol b w1 w2)) -∗ K ⟨⟩))
      ⊢ wp frame (wpE (defs₀ (F := F)) Variants.none c none) E
          (cc1__conv_stage_kernel i arg1 harg1 arg2 harg2 arg3 harg3 arg4 harg4 arg5 harg5 arg6 harg6 arg7 harg7) K := by
  simp only [cc1__conv_stage_kernel_eq_skeleton]; unfold cc1__conv_stage_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (conv_cover _)

/-- The launch's proof data on core `c`: the arrays as found; after the body at point `t` the six inputs' buffers at
    their blocks and the result's at `conv` of them; the scoped rest and the generator register ride untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => conv (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = conv (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  held1_0 V (dat1 V c) (A_eq1 V c 0) (after1_0 V c) t d
theorem before1_1 (c : Dev nD) (t : Fin cfg1.N) (d) : (dat1 V c).before 1 t d = iblk1 V c 1 t :=
  held1_1 V (dat1 V c) (A_eq1 V c 1) (after1_1 V c) t d
theorem before1_2 (c : Dev nD) (t : Fin cfg1.N) (d) : (dat1 V c).before 2 t d = iblk1 V c 2 t :=
  held1_2 V (dat1 V c) (A_eq1 V c 2) (after1_2 V c) t d
theorem before1_3 (c : Dev nD) (t : Fin cfg1.N) (d) : (dat1 V c).before 3 t d = iblk1 V c 3 t :=
  held1_3 V (dat1 V c) (A_eq1 V c 3) (after1_3 V c) t d
theorem before1_4 (c : Dev nD) (t : Fin cfg1.N) (d) : (dat1 V c).before 4 t d = iblk1 V c 4 t :=
  held1_4 V (dat1 V c) (A_eq1 V c 4) (after1_4 V c) t d
theorem before1_5 (c : Dev nD) (t : Fin cfg1.N) (d) : (dat1 V c).before 5 t d = iblk1 V c 5 t :=
  held1_5 V (dat1 V c) (A_eq1 V c 5) (after1_5 V c) t d

/-- The body at any point, against the proof data. -/
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d))
      ∗ (∃ d, owns (c : Thread nD τ) (st1_6 t) fullShare ((dat1 V c).before 6 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)
        ∗ owns (c : Thread nD τ) (st1_4 t) fullShare ((dat1 V c).after 4 t)
        ∗ owns (c : Thread nD τ) (st1_5 t) fullShare ((dat1 V c).after 5 t)
        ∗ owns (c : Thread nD τ) (st1_6 t) fullShare ((dat1 V c).after 6 t))) := by
  unfold bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run_conv c Set.univ _ _ _ _ _ _ _ _ _ _ _ _ _ _ _ (iblk1 V c 0 t) (iblk1 V c 1 t) (iblk1 V c 2 t) (iblk1 V c 3 t)
    (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«411983_j75668733821211_3_alg».proof.Proof.Gen.Kernel.Launch
import proofs.«411983_j75668733821211_3_alg».proof.Proof.Gen.Kernel.Skeleton
import proofs.«411983_j75668733821211_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The third launch: the second layer's rows pooled into 512 segment sums

The grid has 100 points; point `t` sees rows `1000 t … 1000 t + 999` of two feature arrays (windows 0 and 1), of the
one-column factor array (window 2) and of the one-column array of segment numbers (window 4, `i32` words), and the
whole bias row (window 3, the same block at every point). Beside the windows the body holds one 512x128 accumulator
that it CARRIES from point to point: at point 0 it is zeroed; at every point the body adds to it the product of the
transposed one-hot matrix of the point's segment numbers with the point's rows (the two feature blocks added, scaled
by the factor column, the bias row added, clamped below at zero); at point 99 the accumulator is copied into the
result's block (window 5: the whole 512x128 result, written back after the last point only, and left alone by the body
at every other point).
Stated at a parameter `V`: what the TensorCore's buffers hold when the launch is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the pipeline fetched it there or kept it
    (the bias row is fetched once, at point 0, and its block index never moves). -/
theorem held2_0 {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem held2_1 {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem held2_2 {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem held2_3 {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem held2_4 {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, in closed form over the grid -/

/-- "This is the first point": the condition under which the body zeroes the accumulator. -/
abbrev condFirst (i : grid2.Coords) : Prop :=
  (Scalar.cmpi .ne (Scalar.extui (Scalar.cmpi .eq (BitVec.ofNat 32 (i 0).val) 0#32)) 0#32) = 1#1
theorem hcondFirst : ∀ t : Fin cfg2.N, condFirst (grid2.coords t) ↔ t.val = 0 :=
  (by decide +kernel : ∀ t : Fin grid2.N, condFirst (grid2.coords t) ↔ t.val = 0)
/-- "This is the last point": the condition under which the body copies the accumulator into the result's block. -/
abbrev condLast (i : grid2.Coords) : Prop := k2_cond2 i = 1#1
theorem hcondLast : ∀ t : Fin cfg2.N, condLast (grid2.coords t) ↔ t.val = 99 :=
  (by decide +kernel : ∀ t : Fin grid2.N, condLast (grid2.coords t) ↔ t.val = 99)

/-- Where the last-point condition fails the result's window is idle and its block is not written back; where it
    holds the window is live. -/
theorem idle2_5_of : ∀ t : Fin cfg2.N, ¬condLast (grid2.coords t) → cfg2.idle 5 (grid2.coords t) = true := by decide +kernel
theorem noFlush2_5_of : ∀ t : Fin cfg2.N, ¬condLast (grid2.coords t) → (cfg2.win 5).flush t = false := by decide +kernel
theorem live2_5_of : ∀ t : Fin cfg2.N, condLast (grid2.coords t) → cfg2.idle 5 (grid2.coords t) = false := by decide +kernel

/-! ## Whole-block loads and stores -/

/-- The whole-block rectangle of the 512x128 accumulator, and the zero offsets spelt as a constant function. -/
abbrev rS : Rect S512x128 := Rect.unit (s := S512x128) ![0, 0] S512x128.size inb_S512x128_S512x128_0_0
theorem hz2 : (![0, 0] : Fin 2 → Nat) = fun _ => 0 := funext fun a => by fin_cases a <;> rfl

/-- A store over the whole accumulator, made last, is what the buffer then reads, whatever was stored before. -/
theorem read_writes_whole_last {sig' : RefSig} {κ : Kind} {sp : Space} (v : View sig' κ sp S512x128 .f32) (f : v.ty.Contents (Elt F))
    (w : Vec F S512x128 .f32) (L : List (View.Piece (Elt F) S512x128 .f32)) :
    v.read (Elt F) (v.writes (Elt F) f (⟨rS, w⟩ :: L)) = w := by
  funext y
  rw [View.read_writes_apply_eq_canon v f y (⟨rS, w⟩ :: L) ⟨_, List.mem_cons_self, View.mem_set_unit_zero (S := S512x128) hz2 inb_S512x128_S512x128_0_0 y⟩,
    View.canon_cons_unit_zero (S := S512x128) hz2 inb_S512x128_S512x128_0_0]

/-- A load of the whole accumulator after such a store reads the stored value. -/
theorem readCov_whole_last {sig' : RefSig} {κ : Kind} {sp : Space} (v : View sig' κ sp S512x128 .f32)
    (w : Vec F S512x128 .f32) (L : List (View.Piece (Elt F) S512x128 .f32)) :
    v.readCov (⟨rS, w⟩ :: L) rS.toLoadRect = w := View.readCov_cons_toLoadRect v rS w L

/-- A load through the whole-block rectangle reads the buffer's contents: the four block shapes of this launch. -/
theorem readAt_whole_a {sig' : RefSig} {κ : Kind} {sp : Space} {e : EltTy} (v : View sig' κ sp S1000x128 e) (f : v.ty.Contents (Elt F)) :
    v.readAt (Elt F) (Rect.unit (s := S1000x128) ![0, 0] S1000x128.size inb_S1000x128_S1000x128_0_0).toLoadRect f = v.read (Elt F) f :=
  View.ld_unit_zero (S := S1000x128) hz2 _ _
theorem readAt_whole_b {sig' : RefSig} {κ : Kind} {sp : Space} {e : EltTy} (v : View sig' κ sp S1000x1 e) (f : v.ty.Contents (Elt F)) :
    v.readAt (Elt F) (Rect.unit (s := S1000x1) ![0, 0] S1000x1.size inb_S1000x1_S1000x1_0_0).toLoadRect f = v.read (Elt F) f :=
  View.ld_unit_zero (S := S1000x1) hz2 _ _
theorem readAt_whole_c {sig' : RefSig} {κ : Kind} {sp : Space} {e : EltTy} (v : View sig' κ sp S1x128 e) (f : v.ty.Contents (Elt F)) :
    v.readAt (Elt F) (Rect.unit (s := S1x128) ![0, 0] S1x128.size inb_S1x128_S1x128_0_0).toLoadRect f = v.read (Elt F) f :=
  View.ld_unit_zero (S := S1x128) hz2 _ _
theorem readAt_whole_s {sig' : RefSig} {κ : Kind} {sp : Space} {e : EltTy} (v : View sig' κ sp S512x128 e) (f : v.ty.Contents (Elt F)) :
    v.readAt (Elt F) (Rect.unit (s := S512x128) ![0, 0] S512x128.size inb_S512x128_S512x128_0_0).toLoadRect f = v.read (Elt F) f :=
  View.ld_unit_zero (S := S512x128) hz2 _ _

/-! ## The body, case by case

Every load of an input reads its whole block; the accumulator is stored whole, so a later load of it in the same run
reads the value just stored. Three cases meet a grid point: the first point (zero, then add), a middle point (add),
the last point (add, then copy out). -/

set_option maxHeartbeats 1000000 in
/-- First point: the accumulator may hold anything; it ends at the point's addend over zeros. The result's block is
    not touched. -/
theorem run_first (c : Dev nD) (E : Set ℕ) (i : grid2.Coords) (hc0 : condFirst i) (hc1 : ¬condLast i)
    (arg1 : Memref sig .tc .vmem S1000x128 .f32) (harg1 : arg1.IsWhole) (arg2 : Memref sig .tc .vmem S1000x128 .f32) (harg2 : arg2.IsWhole)
    (arg3 : Memref sig .tc .vmem S1000x1 .f32) (harg3 : arg3.IsWhole) (arg4 : Memref sig .tc .vmem S1x128 .f32) (harg4 : arg4.IsWhole)
    (arg5 : Memref sig .tc .vmem S1000x1 .i32) (harg5 : arg5.IsWhole) (arg6 : Memref sig .tc .vmem S512x128 .f32) (harg6 : arg6.IsWhole)
    (arg7 : Memref sig .tc .vmem S512x128 .f32) (harg7 : arg7.IsWhole)
    (x0 : Vec F S1000x128 .f32) (x1 : Vec F S1000x128 .f32) (x2 : Vec F S1000x1 .f32) (x3 : Vec F S1x128 .f32) (x4 : Vec F S1000x1 .i32) (o : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare o ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare o
            ∗ owns (c : Thread nD τ) arg7 fullShare (k2_pay2 x0 x1 x2 x3 x4 (k2_pay1 (F := F)))) -∗ K ⟨⟩))
      ⊢ wp frame (wpE (defs₀ (F := F)) Variants.none c none) E (cc2__final_pool_kernel i arg1 harg1 arg2 harg2 arg3 harg3 arg4 harg4 arg5 harg5 arg6 harg6 arg7 harg7) K := by
  simp only [cc2__final_pool_kernel_eq_skeleton]; unfold cc2__final_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [read_writes_whole_last, readCov_whole_last, readAt_whole_a, readAt_whole_a, readAt_whole_b, readAt_whole_c, readAt_whole_b]

set_option maxHeartbeats 1000000 in
/-- A middle point: the accumulator at `s` ends at the point's addend over `s`. The result's block is not touched. -/
theorem run_mid (c : Dev nD) (E : Set ℕ) (i : grid2.Coords) (hc0 : ¬condFirst i) (hc1 : ¬condLast i)
    (arg1 : Memref sig .tc .vmem S1000x128 .f32) (harg1 : arg1.IsWhole) (arg2 : Memref sig .tc .vmem S1000x128 .f32) (harg2 : arg2.IsWhole)
    (arg3 : Memref sig .tc .vmem S1000x1 .f32) (harg3 : arg3.IsWhole) (arg4 : Memref sig .tc .vmem S1x128 .f32) (harg4 : arg4.IsWhole)
    (arg5 : Memref sig .tc .vmem S1000x1 .i32) (harg5 : arg5.IsWhole) (arg6 : Memref sig .tc .vmem S512x128 .f32) (harg6 : arg6.IsWhole)
    (arg7 : Memref sig .tc .vmem S512x128 .f32) (harg7 : arg7.IsWhole)
    (x0 : Vec F S1000x128 .f32) (x1 : Vec F S1000x128 .f32) (x2 : Vec F S1000x1 .f32) (x3 : Vec F S1x128 .f32) (x4 : Vec F S1000x1 .i32) (o : Vec F S512x128 .f32) (s : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare o ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare o
            ∗ owns (c : Thread nD τ) arg7 fullShare (k2_pay2 x0 x1 x2 x3 x4 s)) -∗ K ⟨⟩))
      ⊢ wp frame (wpE (defs₀ (F := F)) Variants.none c none) E (cc2__final_pool_kernel i arg1 harg1 arg2 harg2 arg3 harg3 arg4 harg4 arg5 harg5 arg6 harg6 arg7 harg7) K := by
  simp only [cc2__final_pool_kernel_eq_skeleton]; unfold cc2__final_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1; subst hf2; subst hf3; subst hf4; subst hf5; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [read_writes_whole_last, readAt_whole_a, readAt_whole_a, readAt_whole_b, readAt_whole_c, readAt_whole_b, readAt_whole_s]

set_option maxHeartbeats 1000000 in
/-- Last point: the accumulator at `s` ends at the point's addend over `s`, and the result's block, whatever it
    held, ends at that same value. -/
theorem run_last (c : Dev nD) (E : Set ℕ) (i : grid2.Coords) (hc0 : ¬condFirst i) (hc1 : condLast i)
    (arg1 : Memref sig .tc .vmem S1000x128 .f32) (harg1 : arg1.IsWhole) (arg2 : Memref sig .tc .vmem S1000x128 .f32) (harg2 : arg2.IsWhole)
    (arg3 : Memref sig .tc .vmem S1000x1 .f32) (harg3 : arg3.IsWhole) (arg4 : Memref sig .tc .vmem S1x128 .f32) (harg4 : arg4.IsWhole)
    (arg5 : Memref sig .tc .vmem S1000x1 .i32) (harg5 : arg5.IsWhole) (arg6 : Memref sig .tc .vmem S512x128 .f32) (harg6 : arg6.IsWhole)
    (arg7 : Memref sig .tc .vmem S512x128 .f32) (harg7 : arg7.IsWhole)
    (x0 : Vec F S1000x128 .f32) (x1 : Vec F S1000x128 .f32) (x2 : Vec F S1000x1 .f32) (x3 : Vec F S1x128 .f32) (x4 : Vec F S1000x1 .i32) (s : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k2_pay2 x0 x1 x2 x3 x4 s)
            ∗ owns (c : Thread nD τ) arg7 fullShare (k2_pay2 x0 x1 x2 x3 x4 s)) -∗ K ⟨⟩))
      ⊢ wp frame (wpE (defs₀ (F := F)) Variants.none c none) E (cc2__final_pool_kernel i arg1 harg1 arg2 harg2 arg3 harg3 arg4 harg4 arg5 harg5 arg6 harg6 arg7 harg7) K := by
  simp only [cc2__final_pool_kernel_eq_skeleton]; unfold cc2__final_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1; subst hf2; subst hf3; subst hf4; subst hf5; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_writes_whole_last, readCov_whole_last, readAt_whole_a, readAt_whole_a, readAt_whole_b, readAt_whole_c, readAt_whole_b, readAt_whole_s]
  iexists _; isplitr
  swap; · iexact H7
  ipureintro
  sl_unfold_run_names
  rw [read_writes_whole_last, readAt_whole_a, readAt_whole_a, readAt_whole_b, readAt_whole_c, readAt_whole_b, readAt_whole_s]

/-! ## The accumulator point by point, and the invariant that carries it -/

/-- The accumulator after point `n`: the point's addend over zeros at point 0, over what the point before left after. -/
def accAt (c : Dev nD) : (n : ℕ) → n < cfg2.N → Vec F S512x128 .f32
  | 0, h => k2_pay2 (iblk2 V c 0 ⟨0, h⟩) (iblk2 V c 1 ⟨0, h⟩) (iblk2 V c 2 ⟨0, h⟩) (iblk2 V c 3 ⟨0, h⟩) (iblk2 V c 4 ⟨0, h⟩) (k2_pay1 (F := F))
  | n + 1, h => k2_pay2 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)
      (accAt c n (Nat.lt_of_succ_lt h))

theorem accAt_zero (c : Dev nD) (h0 : 0 < cfg2.N) : accAt V c 0 h0 = k2_pay2 (iblk2 V c 0 ⟨0, h0⟩) (iblk2 V c 1 ⟨0, h0⟩) (iblk2 V c 2 ⟨0, h0⟩) (iblk2 V c 3 ⟨0, h0⟩) (iblk2 V c 4 ⟨0, h0⟩) (k2_pay1 (F := F)) := rfl
theorem accAt_succ (c : Dev nD) (n : ℕ) (hn : n + 1 < cfg2.N) : accAt V c (n + 1) hn = k2_pay2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt V c n (Nat.lt_of_succ_lt hn)) := rfl

/-- The same two equations at a grid point: the first, -/
theorem accAt_first (c : Dev nD) (t : Fin cfg2.N) (h : t.val = 0) :
    accAt V c t.val t.isLt = k2_pay2 (iblk2 V c 0 t) (iblk2 V c 1 t) (iblk2 V c 2 t) (iblk2 V c 3 t) (iblk2 V c 4 t) (k2_pay1 (F := F)) := by
  obtain ⟨n, hn⟩ := t
  cases n with
  | zero => rfl
  | succ n => exact absurd h (Nat.succ_ne_zero _)
/-- and any later one, over what the point before left. -/
theorem accAt_later (c : Dev nD) (t : Fin cfg2.N) (h : t.val ≠ 0) :
    accAt V c t.val t.isLt = k2_pay2 (iblk2 V c 0 t) (iblk2 V c 1 t) (iblk2 V c 2 t) (iblk2 V c 3 t) (iblk2 V c 4 t)
      (accAt V c (t.val - 1) (Nat.lt_of_le_of_lt (Nat.sub_le _ _) t.isLt)) := by
  obtain ⟨n, hn⟩ := t
  cases n with
  | zero => exact absurd rfl h
  | succ n => rfl

/-- The accumulator as a memref: a whole scoped buffer of the core, passed to the body beside the windows. -/
abbrev scM2 : Memref sig .tc .vmem S512x128 .f32 := Memref.whole cc2_scratch0

/-- The core's other scoped buffers that are no staging buffer of this launch (the other launches' staging buffers),
    each at some contents: they ride through the launch unopened. -/
abbrev others2 (c : Dev nD) : sProp 𝕄 :=
  Pipeline.scopedRestBut (Ix := Unit) (Name := ℕ) (U := UR sig nD τ) (Lvl := ℕ) (Val := Elt F) spec2 c [cc2_scratch0]

/-- What the launch hands the region, with the accumulator split off as a memref owned at some contents. -/
theorem PhiA2_eq (c : Dev nD) :
    (Pipeline.ΦA spec2 c : sProp 𝕄)
      = iprop(iprop((∃ d, owns (c : Thread nD τ) scM2 fullShare d) ∗ others2 (F := F) c) ∗ (∃ r, prngReg c r)) := by
  unfold Pipeline.ΦA
  rw [Pipeline.scopedRest_split_of_list spec2 c [cc2_scratch0] (by decide) (by decide)]
  simp only [scM2, owns_whole, Idealize.SL.BI.bigSepL_singleton]; try rfl

/-- The invariant before position `n`: before the first point what the launch hands over (the accumulator at anything);
    afterwards the accumulator at what the point before left, the other scoped buffers at anything, the generator
    register at some state. -/
def PhiS (c : Dev nD) : (n : ℕ) → n ≤ cfg2.N → sProp 𝕄
  | 0, _ => Pipeline.ΦA spec2 c
  | n + 1, hn => iprop(iprop(owns (c : Thread nD τ) scM2 fullShare (accAt V c n hn) ∗ others2 (F := F) c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM2 fullShare (accAt V c n hn) ∗ others2 (F := F) c) ∗ (∃ r, prngReg c r)) := rfl
theorem PhiS_pos (c : Dev nD) (n : ℕ) (h : n ≤ cfg2.N) (hz : n ≠ 0) :
    PhiS V c n h = iprop(iprop(owns (c : Thread nD τ) scM2 fullShare (accAt V c (n - 1) (by omega)) ∗ others2 (F := F) c) ∗ (∃ r, prngReg c r)) := by
  cases n with
  | zero => exact absurd rfl hz
  | succ n => rfl

/-! ## The launch's proof data -/

/-- The launch's proof data on core `c`: the arrays as found; after the body at point `t` the inputs' buffers at their
    blocks and the result's at the accumulator after `t` (consulted at the last point only: elsewhere the window is idle
    and not written back); the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => accAt V c t.val t.isLt
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = accAt V c t.val t.isLt := by dsimp only [dat2]

theorem before2_0 (c : Dev nD) (t : Fin cfg2.N) (d) : (dat2 V c).before 0 t d = iblk2 V c 0 t :=
  held2_0 V (dat2 V c) (A_eq2 V c 0) (after2_0 V c) t d
theorem before2_1 (c : Dev nD) (t : Fin cfg2.N) (d) : (dat2 V c).before 1 t d = iblk2 V c 1 t :=
  held2_1 V (dat2 V c) (A_eq2 V c 1) (after2_1 V c) t d
theorem before2_2 (c : Dev nD) (t : Fin cfg2.N) (d) : (dat2 V c).before 2 t d = iblk2 V c 2 t :=
  held2_2 V (dat2 V c) (A_eq2 V c 2) (after2_2 V c) t d
theorem before2_3 (c : Dev nD) (t : Fin cfg2.N) (d) : (dat2 V c).before 3 t d = iblk2 V c 3 t :=
  held2_3 V (dat2 V c) (A_eq2 V c 3) (after2_3 V c) t d
theorem before2_4 (c : Dev nD) (t : Fin cfg2.N) (d) : (dat2 V c).before 4 t d = iblk2 V c 4 t :=
  held2_4 V (dat2 V c) (A_eq2 V c 4) (after2_4 V c) t d

/-- The invariant at a point's start, restated at the point's number. -/
theorem PhiS_castSucc (c : Dev nD) (t : Fin cfg2.N) :
    (dat2 V c).Φ t.castSucc = PhiS V c t.val (Nat.le_of_lt t.isLt) := by
  dsimp only [dat2]; simp only [Fin.coe_castSucc]

/-! ## The body obligation -/

/-- The body at any point, against the proof data: the inputs' buffers hold their blocks; the point's number says
    which of the three cases it is in (the first and the last condition never hold together on a grid of 100 points);
    the invariant hands the body the accumulator — at anything before point 0, at what the point before left after —
    and takes it back at this point's value; at every point but the last the result's buffer goes back as it came. -/
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t)
        ∗ owns (c : Thread nD τ) (st2_4 t) fullShare ((dat2 V c).after 4 t)
        ∗ (dat2 V c).leavesExact 5 t)) := by
  unfold bodyAt2
  simp only [before2_0, before2_1, before2_2, before2_3, before2_4]
  rw [show (dat2 V c).owesAt () t.succ = (dat2 V c).owesAt () t.castSucc from rfl,
    after2_0, after2_1, after2_2, after2_3, after2_4]
  rw [show (dat2 V c).Φ t.succ = PhiS V c (t.val + 1) t.isLt from rfl, PhiS_succ, PhiS_castSucc]
  have hN : t.val < 100 := lt_of_lt_of_eq t.isLt (show cfg2.N = 100 from N_2)
  by_cases h0 : t.val = 0
  · -- the first point
    have hc0 : condFirst (grid2.coords t) := (hcondFirst t).mpr h0
    have hc1 : ¬condLast (grid2.coords t) := fun h => by have := (hcondLast t).mp h; omega
    rw [Dat.leavesExact_idle (dat2 V c) 5 t (idle2_5_of t hc1) (noFlush2_5_of t hc1)]
    rw [PhiS_zero V c _ _ h0, PhiA2_eq, accAt_first V c t h0]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (run_first c Set.univ (grid2.coords t) hc0 hc1 _ _ _ _ _ _ _ _ _ _ _ _ _ _ (iblk2 V c 0 t) (iblk2 V c 1 t) (iblk2 V c 2 t) (iblk2 V c 3 t) (iblk2 V c 4 t) ((dat2 V c).before 5 t d5) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 99
    · -- the last point
      have hc0 : ¬condFirst (grid2.coords t) := fun h => h0 ((hcondFirst t).mp h)
      have hc1 : condLast (grid2.coords t) := (hcondLast t).mpr h1
      rw [show (dat2 V c).leavesExact 5 t = owns (c : Thread nD τ) (st2_5 t) fullShare ((dat2 V c).after 5 t) from by
        unfold Dat.leavesExact; rw [live2_5_of t hc1], after2_5]
      rw [PhiS_pos V c _ _ h0, accAt_later V c t h0]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run_last c Set.univ (grid2.coords t) hc0 hc1 _ _ _ _ _ _ _ _ _ _ _ _ _ _ (iblk2 V c 0 t) (iblk2 V c 1 t) (iblk2 V c 2 t) (iblk2 V c 3 t) (iblk2 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle point
      have hc0 : ¬condFirst (grid2.coords t) := fun h => h0 ((hcondFirst t).mp h)
      have hc1 : ¬condLast (grid2.coords t) := fun h => h1 ((hcondLast t).mp h)
      rw [Dat.leavesExact_idle (dat2 V c) 5 t (idle2_5_of t hc1) (noFlush2_5_of t hc1)]
      rw [PhiS_pos V c _ _ h0, accAt_later V c t h0]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run_mid c Set.univ (grid2.coords t) hc0 hc1 _ _ _ _ _ _ _ _ _ _ _ _ _ _ (iblk2 V c 0 t) (iblk2 V c 1 t) (iblk2 V c 2 t) (iblk2 V c 3 t) (iblk2 V c 4 t) ((dat2 V c).before 5 t d5) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]

/-- After the last point the invariant gives it back: the accumulator's named contents are forgotten. -/
theorem hout2 (c : Dev nD) : (dat2 V c).Φ (Fin.last cfg2.N) ⊢ Pipeline.ΦA spec2 c := by
  have hN : cfg2.N ≠ 0 := by rw [show cfg2.N = 100 from N_2]; decide
  rw [show (dat2 V c).Φ (Fin.last cfg2.N) = PhiS V c (Fin.last cfg2.N).val (Nat.le_of_lt_succ (Fin.last cfg2.N).isLt) from rfl,
    PhiS_pos V c _ _ (by rw [Fin.val_last]; exact hN), PhiA2_eq]
  iintro ⟨⟨HS, Hoth⟩, Hg⟩
  isplitl [HS Hoth]
  · isplitl [HS]
    · iexists _; iexact HS
    iexact Hoth
  iexact Hg

end Cert.Kernel.Hand

end
-- ==== Proof.KI.Reg0.lean ====
import proofs.«411983_j75668733821211_3_alg».proof.Proof.Gen.KernelIdeal.Launch
import proofs.«411983_j75668733821211_3_alg».proof.Proof.Gen.KernelIdeal.Skeleton
import proofs.«411983_j75668733821211_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first launch: every row of the features scaled by that row's normalisation factor

The grid has 50 points; point `t` sees rows `2000 t … 2000 t + 1999` of the feature array (window 0) and of the
one-column factor array (window 1), and writes the same rows of the result (window 2). The body stores, over the whole
result block, the product of the feature block with the factor column spread along the 64 feature lanes.
Stated at a parameter `V`: what the TensorCore's buffers hold when the launch is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or kept it. -/
theorem held0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rx0 : Rect S2000x64 := Rect.unit (s := S2000x64) ![0, 0] S2000x64.size inb_S2000x64_S2000x64_0_0
abbrev rd0 : Rect S2000x1 := Rect.unit (s := S2000x1) ![0, 0] S2000x1.size inb_S2000x1_S2000x1_0_0

/-- What the body leaves in the result block: its one store, of the scaled feature block. -/
def scaled (x : Vec F S2000x64 .f32) (dcol : Vec F S2000x1 .f32) : Vec F S2000x64 .f32 :=
  View.canon [⟨rx0, k0_pay1 (View.ld x rx0) (View.ld dcol rd0)⟩]

/-- The one store covers the result block. -/
theorem scaled_cover (p0 : Vec F S2000x64 .f32) (y : S2000x64.Idx) :
    ∃ pc ∈ ([⟨rx0, p0⟩] : List (View.Piece (Elt F) S2000x64 .f32)), y ∈ pc.1.set :=
  View.cover_of_tiled [⟨rx0, p0⟩] S2000x64.size (by rfl) y

set_option maxHeartbeats 1000000 in
/-- The body run on whole staging buffers: the two inputs are read and kept, the result block ends at `scaled`. -/
theorem run_scale (c : Dev nD) (E : Set ℕ) (i : grid0.Coords) (arg1 : Memref sig .tc .vmem S2000x64 .f32) (harg1 : arg1.IsWhole)
    (arg2 : Memref sig .tc .vmem S2000x1 .f32) (harg2 : arg2.IsWhole) (arg3 : Memref sig .tc .vmem S2000x64 .f32) (harg3 : arg3.IsWhole)
    (x : Vec F S2000x64 .f32) (dcol : Vec F S2000x1 .f32) (K : PUnit → sProp 𝕄) :
    iprop(owns (c : Thread nD τ) arg1 fullShare x ∗ owns (c : Thread nD τ) arg2 fullShare dcol ∗ (∃ d, owns (c : Thread nD τ) arg3 fullShare d)
        ∗ (iprop(owns (c : Thread nD τ) arg1 fullShare x ∗ owns (c : Thread nD τ) arg2 fullShare dcol
            ∗ owns (c : Thread nD τ) arg3 fullShare (scaled x dcol)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (scaled_cover _)

/-- The launch's proof data on core `c`: the arrays as found; after the body at point `t` the inputs' buffers at
    their blocks and the result's at `scaled` of them; the scoped rest and the generator register ride untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => scaled (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = scaled (iblk0 V c 0 t) (iblk0 V c 1 t) := by dsimp only [dat0]

theorem before0_0 (c : Dev nD) (t : Fin cfg0.N) (d) : (dat0 V c).before 0 t d = iblk0 V c 0 t :=
  held0_0 V (dat0 V c) (A_eq0 V c 0) (after0_0 V c) t d
theorem before0_1 (c : Dev nD) (t : Fin cfg0.N) (d) : (dat0 V c).before 1 t d = iblk0 V c 1 t :=
  held0_1 V (dat0 V c) (A_eq0 V c 1) (after0_1 V c) t d

/-- The body at any point, against the proof data. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t))) := by
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (run_scale c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«411983_j75668733821211_3_alg».proof.Proof.Gen.KernelIdeal.Launch
import proofs.«411983_j75668733821211_3_alg».proof.Proof.Gen.KernelIdeal.Skeleton
import proofs.«411983_j75668733821211_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # The second launch: one graph-convolution stage on a block of 2000 rows

The grid has 50 points. Point `t` sees rows `2000 t … 2000 t + 1999` of the aggregated features (window 0), of the
scaled features (window 1) and of the one-column normalisation factor (window 2); the bias row (window 3), the
64×128 weight (window 4) and the 128×128 weight (window 5) have a constant block index, so every point sees the
same whole array of each. It writes the same 2000 rows of the 128-lane result (window 6).

On a block the body forms the sum of the two feature blocks, multiplies it by the first weight, scales every row
by that row's factor, adds the bias row to every row, takes the maximum with zero, multiplies by the second weight
and scales every row by its factor once more; that value is stored over the whole result block.
Stated at a parameter `V`: what the TensorCore's buffers hold when the launch is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point. Windows 0, 1, 2 are fetched at every point.
Windows 3, 4, 5 are fetched at the first point only: at a later point the block index has not moved, so the block
the buffer kept from the point before is this point's block. One law covers both cases. -/
theorem held1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem held1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem held1_3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem held1_4 {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem held1_5 {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rf1 : Rect S2000x64 := Rect.unit (s := S2000x64) ![0, 0] S2000x64.size inb_S2000x64_S2000x64_0_0
abbrev rd1 : Rect S2000x1 := Rect.unit (s := S2000x1) ![0, 0] S2000x1.size inb_S2000x1_S2000x1_0_0
abbrev rb1 : Rect S1x128 := Rect.unit (s := S1x128) ![0, 0] S1x128.size inb_S1x128_S1x128_0_0
abbrev rw1 : Rect S64x128 := Rect.unit (s := S64x128) ![0, 0] S64x128.size inb_S64x128_S64x128_0_0
abbrev rv1 : Rect S128x128 := Rect.unit (s := S128x128) ![0, 0] S128x128.size inb_S128x128_S128x128_0_0
abbrev ro1 : Rect S2000x128 := Rect.unit (s := S2000x128) ![0, 0] S2000x128.size inb_S2000x128_S2000x128_0_0

/-- What the body leaves in the result block: its one store, of the convolution stage of the six input blocks
    (`a` the aggregated features, `x` the scaled features, `dcol` the factor column, `b` the bias row, `w1` and `w2`
    the two weights). The factor column is read twice, once for each scaling. -/
def conv (a x : Vec F S2000x64 .f32) (dcol : Vec F S2000x1 .f32) (b : Vec F S1x128 .f32) (w1 : Vec F S64x128 .f32)
    (w2 : Vec F S128x128 .f32) : Vec F S2000x128 .f32 :=
  View.canon [⟨ro1, k1_pay1 (View.ld a rf1) (View.ld x rf1) (View.ld w1 rw1) (View.ld dcol rd1) (View.ld b rb1) (View.ld w2 rv1)
    (View.ld dcol rd1)⟩]

/-- The offsets of a whole-block rectangle are all zero. -/
theorem hz1 : (![0, 0] : Fin 2 → Nat) = fun _ => 0 := funext fun a => by fin_cases a <;> rfl

/-- One store through the whole-block rectangle leaves its payload, and a load through a whole-block rectangle
    reads the block: the result block is the stage's value on the six blocks themselves. -/
theorem conv_eq (a x : Vec F S2000x64 .f32) (dcol : Vec F S2000x1 .f32) (b : Vec F S1x128 .f32) (w1 : Vec F S64x128 .f32)
    (w2 : Vec F S128x128 .f32) : conv a x dcol b w1 w2 = k1_pay1 a x w1 dcol b w2 dcol := by
  unfold conv
  rw [View.canon_unit_zero hz1]
  rw [View.ld_unit_zero (S := S2000x64) hz1, View.ld_unit_zero (S := S2000x64) hz1, View.ld_unit_zero (S := S64x128) hz1,
    View.ld_unit_zero (S := S2000x1) hz1, View.ld_unit_zero (S := S1x128) hz1, View.ld_unit_zero (S := S128x128) hz1]

/-- The one store covers the result block. -/
theorem conv_cover (p0 : Vec F S2000x128 .f32) (y : S2000x128.Idx) :
    ∃ pc ∈ ([⟨ro1, p0⟩] : List (View.Piece (Elt F) S2000x128 .f32)), y ∈ pc.1.set :=
  View.cover_of_tiled [⟨ro1, p0⟩] S2000x128.size (by rfl) y

set_option maxHeartbeats 4000000 in
/-- The body run on whole staging buffers: the six inputs are read and kept, the result block ends at `conv`. -/
theorem run_conv (c : Dev nD) (E : Set ℕ) (i : grid1.Coords) (arg1 : Memref sig .tc .vmem S2000x64 .f32) (harg1 : arg1.IsWhole)
    (arg2 : Memref sig .tc .vmem S2000x64 .f32) (harg2 : arg2.IsWhole) (arg3 : Memref sig .tc .vmem S2000x1 .f32) (harg3 : arg3.IsWhole)
    (arg4 : Memref sig .tc .vmem S1x128 .f32) (harg4 : arg4.IsWhole) (arg5 : Memref sig .tc .vmem S64x128 .f32) (harg5 : arg5.IsWhole)
    (arg6 : Memref sig .tc .vmem S128x128 .f32) (harg6 : arg6.IsWhole) (arg7 : Memref sig .tc .vmem S2000x128 .f32) (harg7 : arg7.IsWhole)
    (a x : Vec F S2000x64 .f32) (dcol : Vec F S2000x1 .f32) (b : Vec F S1x128 .f32) (w1 : Vec F S64x128 .f32)
    (w2 : Vec F S128x128 .f32) (K : PUnit → sProp 𝕄) :
    iprop(owns (c : Thread nD τ) arg1 fullShare a ∗ owns (c : Thread nD τ) arg2 fullShare x ∗ owns (c : Thread nD τ) arg3 fullShare dcol
        ∗ owns (c : Thread nD τ) arg4 fullShare b ∗ owns (c : Thread nD τ) arg5 fullShare w1 ∗ owns (c : Thread nD τ) arg6 fullShare w2
        ∗ (∃ d, owns (c : Thread nD τ) arg7 fullShare d)
        ∗ (iprop(owns (c : Thread nD τ) arg1 fullShare a ∗ owns (c : Thread nD τ) arg2 fullShare x ∗ owns (c : Thread nD τ) arg3 fullShare dcol
            ∗ owns (c : Thread nD τ) arg4 fullShare b ∗ owns (c : Thread nD τ) arg5 fullShare w1 ∗ owns (c : Thread nD τ) arg6 fullShare w2
            ∗ owns (c : Thread nD τ) arg7 fullShare (conv a x dcol b w1 w2)) -∗ K ⟨⟩))
      ⊢ wp frame (wpE (defs₀ (F := F)) Variants.none c none) E
          (cc1__conv_stage_kernel i arg1 harg1 arg2 harg2 arg3 harg3 arg4 harg4 arg5 harg5 arg6 harg6 arg7 harg7) K := by
  simp only [cc1__conv_stage_kernel_eq_skeleton]; unfold cc1__conv_stage_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (conv_cover _)

/-- The launch's proof data on core `c`: the arrays as found; after the body at point `t` the six inputs' buffers at
    their blocks and the result's at `conv` of them; the scoped rest and the generator register ride untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => conv (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = conv (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  held1_0 V (dat1 V c) (A_eq1 V c 0) (after1_0 V c) t d
theorem before1_1 (c : Dev nD) (t : Fin cfg1.N) (d) : (dat1 V c).before 1 t d = iblk1 V c 1 t :=
  held1_1 V (dat1 V c) (A_eq1 V c 1) (after1_1 V c) t d
theorem before1_2 (c : Dev nD) (t : Fin cfg1.N) (d) : (dat1 V c).before 2 t d = iblk1 V c 2 t :=
  held1_2 V (dat1 V c) (A_eq1 V c 2) (after1_2 V c) t d
theorem before1_3 (c : Dev nD) (t : Fin cfg1.N) (d) : (dat1 V c).before 3 t d = iblk1 V c 3 t :=
  held1_3 V (dat1 V c) (A_eq1 V c 3) (after1_3 V c) t d
theorem before1_4 (c : Dev nD) (t : Fin cfg1.N) (d) : (dat1 V c).before 4 t d = iblk1 V c 4 t :=
  held1_4 V (dat1 V c) (A_eq1 V c 4) (after1_4 V c) t d
theorem before1_5 (c : Dev nD) (t : Fin cfg1.N) (d) : (dat1 V c).before 5 t d = iblk1 V c 5 t :=
  held1_5 V (dat1 V c) (A_eq1 V c 5) (after1_5 V c) t d

/-- The body at any point, against the proof data. -/
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d))
      ∗ (∃ d, owns (c : Thread nD τ) (st1_6 t) fullShare ((dat1 V c).before 6 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)
        ∗ owns (c : Thread nD τ) (st1_4 t) fullShare ((dat1 V c).after 4 t)
        ∗ owns (c : Thread nD τ) (st1_5 t) fullShare ((dat1 V c).after 5 t)
        ∗ owns (c : Thread nD τ) (st1_6 t) fullShare ((dat1 V c).after 6 t))) := by
  unfold bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run_conv c Set.univ _ _ _ _ _ _ _ _ _ _ _ _ _ _ _ (iblk1 V c 0 t) (iblk1 V c 1 t) (iblk1 V c 2 t) (iblk1 V c 3 t)
    (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«411983_j75668733821211_3_alg».proof.Proof.Gen.KernelIdeal.Launch
import proofs.«411983_j75668733821211_3_alg».proof.Proof.Gen.KernelIdeal.Skeleton
import proofs.«411983_j75668733821211_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The third launch: the second layer's rows pooled into 512 segment sums

The grid has 100 points; point `t` sees rows `1000 t … 1000 t + 999` of two feature arrays (windows 0 and 1), of the
one-column factor array (window 2) and of the one-column array of segment numbers (window 4, `i32` words), and the
whole bias row (window 3, the same block at every point). Beside the windows the body holds one 512x128 accumulator
that it CARRIES from point to point: at point 0 it is zeroed; at every point the body adds to it the product of the
transposed one-hot matrix of the point's segment numbers with the point's rows (the two feature blocks added, scaled
by the factor column, the bias row added, clamped below at zero); at point 99 the accumulator is copied into the
result's block (window 5: the whole 512x128 result, written back after the last point only, and left alone by the body
at every other point).
Stated at a parameter `V`: what the TensorCore's buffers hold when the launch is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the pipeline fetched it there or kept it
    (the bias row is fetched once, at point 0, and its block index never moves). -/
theorem held2_0 {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem held2_1 {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem held2_2 {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem held2_3 {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem held2_4 {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, in closed form over the grid -/

/-- "This is the first point": the condition under which the body zeroes the accumulator. -/
abbrev condFirst (i : grid2.Coords) : Prop :=
  (Scalar.cmpi .ne (Scalar.extui (Scalar.cmpi .eq (BitVec.ofNat 32 (i 0).val) 0#32)) 0#32) = 1#1
theorem hcondFirst : ∀ t : Fin cfg2.N, condFirst (grid2.coords t) ↔ t.val = 0 :=
  (by decide +kernel : ∀ t : Fin grid2.N, condFirst (grid2.coords t) ↔ t.val = 0)
/-- "This is the last point": the condition under which the body copies the accumulator into the result's block. -/
abbrev condLast (i : grid2.Coords) : Prop := k2_cond2 i = 1#1
theorem hcondLast : ∀ t : Fin cfg2.N, condLast (grid2.coords t) ↔ t.val = 99 :=
  (by decide +kernel : ∀ t : Fin grid2.N, condLast (grid2.coords t) ↔ t.val = 99)

/-- Where the last-point condition fails the result's window is idle and its block is not written back; where it
    holds the window is live. -/
theorem idle2_5_of : ∀ t : Fin cfg2.N, ¬condLast (grid2.coords t) → cfg2.idle 5 (grid2.coords t) = true := by decide +kernel
theorem noFlush2_5_of : ∀ t : Fin cfg2.N, ¬condLast (grid2.coords t) → (cfg2.win 5).flush t = false := by decide +kernel
theorem live2_5_of : ∀ t : Fin cfg2.N, condLast (grid2.coords t) → cfg2.idle 5 (grid2.coords t) = false := by decide +kernel

/-! ## Whole-block loads and stores -/

/-- The whole-block rectangle of the 512x128 accumulator, and the zero offsets spelt as a constant function. -/
abbrev rS : Rect S512x128 := Rect.unit (s := S512x128) ![0, 0] S512x128.size inb_S512x128_S512x128_0_0
theorem hz2 : (![0, 0] : Fin 2 → Nat) = fun _ => 0 := funext fun a => by fin_cases a <;> rfl

/-- A store over the whole accumulator, made last, is what the buffer then reads, whatever was stored before. -/
theorem read_writes_whole_last {sig' : RefSig} {κ : Kind} {sp : Space} (v : View sig' κ sp S512x128 .f32) (f : v.ty.Contents (Elt F))
    (w : Vec F S512x128 .f32) (L : List (View.Piece (Elt F) S512x128 .f32)) :
    v.read (Elt F) (v.writes (Elt F) f (⟨rS, w⟩ :: L)) = w := by
  funext y
  rw [View.read_writes_apply_eq_canon v f y (⟨rS, w⟩ :: L) ⟨_, List.mem_cons_self, View.mem_set_unit_zero (S := S512x128) hz2 inb_S512x128_S512x128_0_0 y⟩,
    View.canon_cons_unit_zero (S := S512x128) hz2 inb_S512x128_S512x128_0_0]

/-- A load of the whole accumulator after such a store reads the stored value. -/
theorem readCov_whole_last {sig' : RefSig} {κ : Kind} {sp : Space} (v : View sig' κ sp S512x128 .f32)
    (w : Vec F S512x128 .f32) (L : List (View.Piece (Elt F) S512x128 .f32)) :
    v.readCov (⟨rS, w⟩ :: L) rS.toLoadRect = w := View.readCov_cons_toLoadRect v rS w L

/-- A load through the whole-block rectangle reads the buffer's contents: the four block shapes of this launch. -/
theorem readAt_whole_a {sig' : RefSig} {κ : Kind} {sp : Space} {e : EltTy} (v : View sig' κ sp S1000x128 e) (f : v.ty.Contents (Elt F)) :
    v.readAt (Elt F) (Rect.unit (s := S1000x128) ![0, 0] S1000x128.size inb_S1000x128_S1000x128_0_0).toLoadRect f = v.read (Elt F) f :=
  View.ld_unit_zero (S := S1000x128) hz2 _ _
theorem readAt_whole_b {sig' : RefSig} {κ : Kind} {sp : Space} {e : EltTy} (v : View sig' κ sp S1000x1 e) (f : v.ty.Contents (Elt F)) :
    v.readAt (Elt F) (Rect.unit (s := S1000x1) ![0, 0] S1000x1.size inb_S1000x1_S1000x1_0_0).toLoadRect f = v.read (Elt F) f :=
  View.ld_unit_zero (S := S1000x1) hz2 _ _
theorem readAt_whole_c {sig' : RefSig} {κ : Kind} {sp : Space} {e : EltTy} (v : View sig' κ sp S1x128 e) (f : v.ty.Contents (Elt F)) :
    v.readAt (Elt F) (Rect.unit (s := S1x128) ![0, 0] S1x128.size inb_S1x128_S1x128_0_0).toLoadRect f = v.read (Elt F) f :=
  View.ld_unit_zero (S := S1x128) hz2 _ _
theorem readAt_whole_s {sig' : RefSig} {κ : Kind} {sp : Space} {e : EltTy} (v : View sig' κ sp S512x128 e) (f : v.ty.Contents (Elt F)) :
    v.readAt (Elt F) (Rect.unit (s := S512x128) ![0, 0] S512x128.size inb_S512x128_S512x128_0_0).toLoadRect f = v.read (Elt F) f :=
  View.ld_unit_zero (S := S512x128) hz2 _ _

/-! ## The body, case by case

Every load of an input reads its whole block; the accumulator is stored whole, so a later load of it in the same run
reads the value just stored. Three cases meet a grid point: the first point (zero, then add), a middle point (add),
the last point (add, then copy out). -/

set_option maxHeartbeats 1000000 in
/-- First point: the accumulator may hold anything; it ends at the point's addend over zeros. The result's block is
    not touched. -/
theorem run_first (c : Dev nD) (E : Set ℕ) (i : grid2.Coords) (hc0 : condFirst i) (hc1 : ¬condLast i)
    (arg1 : Memref sig .tc .vmem S1000x128 .f32) (harg1 : arg1.IsWhole) (arg2 : Memref sig .tc .vmem S1000x128 .f32) (harg2 : arg2.IsWhole)
    (arg3 : Memref sig .tc .vmem S1000x1 .f32) (harg3 : arg3.IsWhole) (arg4 : Memref sig .tc .vmem S1x128 .f32) (harg4 : arg4.IsWhole)
    (arg5 : Memref sig .tc .vmem S1000x1 .i32) (harg5 : arg5.IsWhole) (arg6 : Memref sig .tc .vmem S512x128 .f32) (harg6 : arg6.IsWhole)
    (arg7 : Memref sig .tc .vmem S512x128 .f32) (harg7 : arg7.IsWhole)
    (x0 : Vec F S1000x128 .f32) (x1 : Vec F S1000x128 .f32) (x2 : Vec F S1000x1 .f32) (x3 : Vec F S1x128 .f32) (x4 : Vec F S1000x1 .i32) (o : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare o ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare o
            ∗ owns (c : Thread nD τ) arg7 fullShare (k2_pay2 x0 x1 x2 x3 x4 (k2_pay1 (F := F)))) -∗ K ⟨⟩))
      ⊢ wp frame (wpE (defs₀ (F := F)) Variants.none c none) E (cc2__final_pool_kernel i arg1 harg1 arg2 harg2 arg3 harg3 arg4 harg4 arg5 harg5 arg6 harg6 arg7 harg7) K := by
  simp only [cc2__final_pool_kernel_eq_skeleton]; unfold cc2__final_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [read_writes_whole_last, readCov_whole_last, readAt_whole_a, readAt_whole_a, readAt_whole_b, readAt_whole_c, readAt_whole_b]

set_option maxHeartbeats 1000000 in
/-- A middle point: the accumulator at `s` ends at the point's addend over `s`. The result's block is not touched. -/
theorem run_mid (c : Dev nD) (E : Set ℕ) (i : grid2.Coords) (hc0 : ¬condFirst i) (hc1 : ¬condLast i)
    (arg1 : Memref sig .tc .vmem S1000x128 .f32) (harg1 : arg1.IsWhole) (arg2 : Memref sig .tc .vmem S1000x128 .f32) (harg2 : arg2.IsWhole)
    (arg3 : Memref sig .tc .vmem S1000x1 .f32) (harg3 : arg3.IsWhole) (arg4 : Memref sig .tc .vmem S1x128 .f32) (harg4 : arg4.IsWhole)
    (arg5 : Memref sig .tc .vmem S1000x1 .i32) (harg5 : arg5.IsWhole) (arg6 : Memref sig .tc .vmem S512x128 .f32) (harg6 : arg6.IsWhole)
    (arg7 : Memref sig .tc .vmem S512x128 .f32) (harg7 : arg7.IsWhole)
    (x0 : Vec F S1000x128 .f32) (x1 : Vec F S1000x128 .f32) (x2 : Vec F S1000x1 .f32) (x3 : Vec F S1x128 .f32) (x4 : Vec F S1000x1 .i32) (o : Vec F S512x128 .f32) (s : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare o ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare o
            ∗ owns (c : Thread nD τ) arg7 fullShare (k2_pay2 x0 x1 x2 x3 x4 s)) -∗ K ⟨⟩))
      ⊢ wp frame (wpE (defs₀ (F := F)) Variants.none c none) E (cc2__final_pool_kernel i arg1 harg1 arg2 harg2 arg3 harg3 arg4 harg4 arg5 harg5 arg6 harg6 arg7 harg7) K := by
  simp only [cc2__final_pool_kernel_eq_skeleton]; unfold cc2__final_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1; subst hf2; subst hf3; subst hf4; subst hf5; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [read_writes_whole_last, readAt_whole_a, readAt_whole_a, readAt_whole_b, readAt_whole_c, readAt_whole_b, readAt_whole_s]

set_option maxHeartbeats 1000000 in
/-- Last point: the accumulator at `s` ends at the point's addend over `s`, and the result's block, whatever it
    held, ends at that same value. -/
theorem run_last (c : Dev nD) (E : Set ℕ) (i : grid2.Coords) (hc0 : ¬condFirst i) (hc1 : condLast i)
    (arg1 : Memref sig .tc .vmem S1000x128 .f32) (harg1 : arg1.IsWhole) (arg2 : Memref sig .tc .vmem S1000x128 .f32) (harg2 : arg2.IsWhole)
    (arg3 : Memref sig .tc .vmem S1000x1 .f32) (harg3 : arg3.IsWhole) (arg4 : Memref sig .tc .vmem S1x128 .f32) (harg4 : arg4.IsWhole)
    (arg5 : Memref sig .tc .vmem S1000x1 .i32) (harg5 : arg5.IsWhole) (arg6 : Memref sig .tc .vmem S512x128 .f32) (harg6 : arg6.IsWhole)
    (arg7 : Memref sig .tc .vmem S512x128 .f32) (harg7 : arg7.IsWhole)
    (x0 : Vec F S1000x128 .f32) (x1 : Vec F S1000x128 .f32) (x2 : Vec F S1000x1 .f32) (x3 : Vec F S1x128 .f32) (x4 : Vec F S1000x1 .i32) (s : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k2_pay2 x0 x1 x2 x3 x4 s)
            ∗ owns (c : Thread nD τ) arg7 fullShare (k2_pay2 x0 x1 x2 x3 x4 s)) -∗ K ⟨⟩))
      ⊢ wp frame (wpE (defs₀ (F := F)) Variants.none c none) E (cc2__final_pool_kernel i arg1 harg1 arg2 harg2 arg3 harg3 arg4 harg4 arg5 harg5 arg6 harg6 arg7 harg7) K := by
  simp only [cc2__final_pool_kernel_eq_skeleton]; unfold cc2__final_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1; subst hf2; subst hf3; subst hf4; subst hf5; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_writes_whole_last, readCov_whole_last, readAt_whole_a, readAt_whole_a, readAt_whole_b, readAt_whole_c, readAt_whole_b, readAt_whole_s]
  iexists _; isplitr
  swap; · iexact H7
  ipureintro
  sl_unfold_run_names
  rw [read_writes_whole_last, readAt_whole_a, readAt_whole_a, readAt_whole_b, readAt_whole_c, readAt_whole_b, readAt_whole_s]

/-! ## The accumulator point by point, and the invariant that carries it -/

/-- The accumulator after point `n`: the point's addend over zeros at point 0, over what the point before left after. -/
def accAt (c : Dev nD) : (n : ℕ) → n < cfg2.N → Vec F S512x128 .f32
  | 0, h => k2_pay2 (iblk2 V c 0 ⟨0, h⟩) (iblk2 V c 1 ⟨0, h⟩) (iblk2 V c 2 ⟨0, h⟩) (iblk2 V c 3 ⟨0, h⟩) (iblk2 V c 4 ⟨0, h⟩) (k2_pay1 (F := F))
  | n + 1, h => k2_pay2 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)
      (accAt c n (Nat.lt_of_succ_lt h))

theorem accAt_zero (c : Dev nD) (h0 : 0 < cfg2.N) : accAt V c 0 h0 = k2_pay2 (iblk2 V c 0 ⟨0, h0⟩) (iblk2 V c 1 ⟨0, h0⟩) (iblk2 V c 2 ⟨0, h0⟩) (iblk2 V c 3 ⟨0, h0⟩) (iblk2 V c 4 ⟨0, h0⟩) (k2_pay1 (F := F)) := rfl
theorem accAt_succ (c : Dev nD) (n : ℕ) (hn : n + 1 < cfg2.N) : accAt V c (n + 1) hn = k2_pay2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt V c n (Nat.lt_of_succ_lt hn)) := rfl

/-- The same two equations at a grid point: the first, -/
theorem accAt_first (c : Dev nD) (t : Fin cfg2.N) (h : t.val = 0) :
    accAt V c t.val t.isLt = k2_pay2 (iblk2 V c 0 t) (iblk2 V c 1 t) (iblk2 V c 2 t) (iblk2 V c 3 t) (iblk2 V c 4 t) (k2_pay1 (F := F)) := by
  obtain ⟨n, hn⟩ := t
  cases n with
  | zero => rfl
  | succ n => exact absurd h (Nat.succ_ne_zero _)
/-- and any later one, over what the point before left. -/
theorem accAt_later (c : Dev nD) (t : Fin cfg2.N) (h : t.val ≠ 0) :
    accAt V c t.val t.isLt = k2_pay2 (iblk2 V c 0 t) (iblk2 V c 1 t) (iblk2 V c 2 t) (iblk2 V c 3 t) (iblk2 V c 4 t)
      (accAt V c (t.val - 1) (Nat.lt_of_le_of_lt (Nat.sub_le _ _) t.isLt)) := by
  obtain ⟨n, hn⟩ := t
  cases n with
  | zero => exact absurd rfl h
  | succ n => rfl

/-- The accumulator as a memref: a whole scoped buffer of the core, passed to the body beside the windows. -/
abbrev scM2 : Memref sig .tc .vmem S512x128 .f32 := Memref.whole cc2_scratch0

/-- The core's other scoped buffers that are no staging buffer of this launch (the other launches' staging buffers),
    each at some contents: they ride through the launch unopened. -/
abbrev others2 (c : Dev nD) : sProp 𝕄 :=
  Pipeline.scopedRestBut (Ix := Unit) (Name := ℕ) (U := UR sig nD τ) (Lvl := ℕ) (Val := Elt F) spec2 c [cc2_scratch0]

/-- What the launch hands the region, with the accumulator split off as a memref owned at some contents. -/
theorem PhiA2_eq (c : Dev nD) :
    (Pipeline.ΦA spec2 c : sProp 𝕄)
      = iprop(iprop((∃ d, owns (c : Thread nD τ) scM2 fullShare d) ∗ others2 (F := F) c) ∗ (∃ r, prngReg c r)) := by
  unfold Pipeline.ΦA
  rw [Pipeline.scopedRest_split_of_list spec2 c [cc2_scratch0] (by decide) (by decide)]
  simp only [scM2, owns_whole, Idealize.SL.BI.bigSepL_singleton]; try rfl

/-- The invariant before position `n`: before the first point what the launch hands over (the accumulator at anything);
    afterwards the accumulator at what the point before left, the other scoped buffers at anything, the generator
    register at some state. -/
def PhiS (c : Dev nD) : (n : ℕ) → n ≤ cfg2.N → sProp 𝕄
  | 0, _ => Pipeline.ΦA spec2 c
  | n + 1, hn => iprop(iprop(owns (c : Thread nD τ) scM2 fullShare (accAt V c n hn) ∗ others2 (F := F) c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM2 fullShare (accAt V c n hn) ∗ others2 (F := F) c) ∗ (∃ r, prngReg c r)) := rfl
theorem PhiS_pos (c : Dev nD) (n : ℕ) (h : n ≤ cfg2.N) (hz : n ≠ 0) :
    PhiS V c n h = iprop(iprop(owns (c : Thread nD τ) scM2 fullShare (accAt V c (n - 1) (by omega)) ∗ others2 (F := F) c) ∗ (∃ r, prngReg c r)) := by
  cases n with
  | zero => exact absurd rfl hz
  | succ n => rfl

/-! ## The launch's proof data -/

/-- The launch's proof data on core `c`: the arrays as found; after the body at point `t` the inputs' buffers at their
    blocks and the result's at the accumulator after `t` (consulted at the last point only: elsewhere the window is idle
    and not written back); the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => accAt V c t.val t.isLt
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = accAt V c t.val t.isLt := by dsimp only [dat2]

theorem before2_0 (c : Dev nD) (t : Fin cfg2.N) (d) : (dat2 V c).before 0 t d = iblk2 V c 0 t :=
  held2_0 V (dat2 V c) (A_eq2 V c 0) (after2_0 V c) t d
theorem before2_1 (c : Dev nD) (t : Fin cfg2.N) (d) : (dat2 V c).before 1 t d = iblk2 V c 1 t :=
  held2_1 V (dat2 V c) (A_eq2 V c 1) (after2_1 V c) t d
theorem before2_2 (c : Dev nD) (t : Fin cfg2.N) (d) : (dat2 V c).before 2 t d = iblk2 V c 2 t :=
  held2_2 V (dat2 V c) (A_eq2 V c 2) (after2_2 V c) t d
theorem before2_3 (c : Dev nD) (t : Fin cfg2.N) (d) : (dat2 V c).before 3 t d = iblk2 V c 3 t :=
  held2_3 V (dat2 V c) (A_eq2 V c 3) (after2_3 V c) t d
theorem before2_4 (c : Dev nD) (t : Fin cfg2.N) (d) : (dat2 V c).before 4 t d = iblk2 V c 4 t :=
  held2_4 V (dat2 V c) (A_eq2 V c 4) (after2_4 V c) t d

/-- The invariant at a point's start, restated at the point's number. -/
theorem PhiS_castSucc (c : Dev nD) (t : Fin cfg2.N) :
    (dat2 V c).Φ t.castSucc = PhiS V c t.val (Nat.le_of_lt t.isLt) := by
  dsimp only [dat2]; simp only [Fin.coe_castSucc]

/-! ## The body obligation -/

/-- The body at any point, against the proof data: the inputs' buffers hold their blocks; the point's number says
    which of the three cases it is in (the first and the last condition never hold together on a grid of 100 points);
    the invariant hands the body the accumulator — at anything before point 0, at what the point before left after —
    and takes it back at this point's value; at every point but the last the result's buffer goes back as it came. -/
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t)
        ∗ owns (c : Thread nD τ) (st2_4 t) fullShare ((dat2 V c).after 4 t)
        ∗ (dat2 V c).leavesExact 5 t)) := by
  unfold bodyAt2
  simp only [before2_0, before2_1, before2_2, before2_3, before2_4]
  rw [show (dat2 V c).owesAt () t.succ = (dat2 V c).owesAt () t.castSucc from rfl,
    after2_0, after2_1, after2_2, after2_3, after2_4]
  rw [show (dat2 V c).Φ t.succ = PhiS V c (t.val + 1) t.isLt from rfl, PhiS_succ, PhiS_castSucc]
  have hN : t.val < 100 := lt_of_lt_of_eq t.isLt (show cfg2.N = 100 from N_2)
  by_cases h0 : t.val = 0
  · -- the first point
    have hc0 : condFirst (grid2.coords t) := (hcondFirst t).mpr h0
    have hc1 : ¬condLast (grid2.coords t) := fun h => by have := (hcondLast t).mp h; omega
    rw [Dat.leavesExact_idle (dat2 V c) 5 t (idle2_5_of t hc1) (noFlush2_5_of t hc1)]
    rw [PhiS_zero V c _ _ h0, PhiA2_eq, accAt_first V c t h0]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (run_first c Set.univ (grid2.coords t) hc0 hc1 _ _ _ _ _ _ _ _ _ _ _ _ _ _ (iblk2 V c 0 t) (iblk2 V c 1 t) (iblk2 V c 2 t) (iblk2 V c 3 t) (iblk2 V c 4 t) ((dat2 V c).before 5 t d5) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 99
    · -- the last point
      have hc0 : ¬condFirst (grid2.coords t) := fun h => h0 ((hcondFirst t).mp h)
      have hc1 : condLast (grid2.coords t) := (hcondLast t).mpr h1
      rw [show (dat2 V c).leavesExact 5 t = owns (c : Thread nD τ) (st2_5 t) fullShare ((dat2 V c).after 5 t) from by
        unfold Dat.leavesExact; rw [live2_5_of t hc1], after2_5]
      rw [PhiS_pos V c _ _ h0, accAt_later V c t h0]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run_last c Set.univ (grid2.coords t) hc0 hc1 _ _ _ _ _ _ _ _ _ _ _ _ _ _ (iblk2 V c 0 t) (iblk2 V c 1 t) (iblk2 V c 2 t) (iblk2 V c 3 t) (iblk2 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle point
      have hc0 : ¬condFirst (grid2.coords t) := fun h => h0 ((hcondFirst t).mp h)
      have hc1 : ¬condLast (grid2.coords t) := fun h => h1 ((hcondLast t).mp h)
      rw [Dat.leavesExact_idle (dat2 V c) 5 t (idle2_5_of t hc1) (noFlush2_5_of t hc1)]
      rw [PhiS_pos V c _ _ h0, accAt_later V c t h0]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run_mid c Set.univ (grid2.coords t) hc0 hc1 _ _ _ _ _ _ _ _ _ _ _ _ _ _ (iblk2 V c 0 t) (iblk2 V c 1 t) (iblk2 V c 2 t) (iblk2 V c 3 t) (iblk2 V c 4 t) ((dat2 V c).before 5 t d5) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]

/-- After the last point the invariant gives it back: the accumulator's named contents are forgotten. -/
theorem hout2 (c : Dev nD) : (dat2 V c).Φ (Fin.last cfg2.N) ⊢ Pipeline.ΦA spec2 c := by
  have hN : cfg2.N ≠ 0 := by rw [show cfg2.N = 100 from N_2]; decide
  rw [show (dat2 V c).Φ (Fin.last cfg2.N) = PhiS V c (Fin.last cfg2.N).val (Nat.le_of_lt_succ (Fin.last cfg2.N).isLt) from rfl,
    PhiS_pos V c _ _ (by rw [Fin.val_last]; exact hN), PhiA2_eq]
  iintro ⟨⟨HS, Hoth⟩, Hg⟩
  isplitl [HS Hoth]
  · isplitl [HS]
    · iexists _; iexact HS
    iexact Hoth
  iexact Hg

end Cert.KernelIdeal.Hand

end
-- ==== Proof.KI.Final01.lean ====
import proofs.«411983_j75668733821211_3_alg».proof.Proof.Gen.KernelIdeal.Launch
import proofs.«411983_j75668733821211_3_alg».proof.Proof.Gen.KernelIdeal.Skeleton
import proofs.«411983_j75668733821211_3_alg».proof.Proof.Gen.KernelIdeal.Points
import proofs.«411983_j75668733821211_3_alg».proof.Proof.KI.Reg0
import proofs.«411983_j75668733821211_3_alg».proof.Proof.KI.Reg1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # What the first two launches leave in their result arrays, entry by entry (at the ideal values)

The first launch's result row `r` is the feature row `r` times the factor of row `r`. The second launch's result row `r`
is: the aggregated row plus the scaled row, through the first weights, times the factor, plus the bias, clamped at zero,
through the second weights, times the factor again. Each point's block is the restriction of that one function of the
whole arrays to the point's 2000 rows, and the 50 blocks cover the array. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The entry arrays and the result arrays, typed as functions on their literal index sets. -/
abbrev aX (c : Dev nD) : S100000x64.Idx → EReal := V c main_arg0
abbrev aD15 (c : Dev nD) : S100000x1.Idx → EReal := V c main_v15
abbrev aAgg (c : Dev nD) : S100000x64.Idx → EReal := V c main_v26
abbrev aXs (c : Dev nD) : S100000x64.Idx → EReal := V c main_v16
abbrev aD27 (c : Dev nD) : S100000x1.Idx → EReal := V c main_v27
abbrev aB1 (c : Dev nD) : S1x128.Idx → EReal := V c main_v28
abbrev aW1 (c : Dev nD) : S64x128.Idx → EReal := V c main_arg3
abbrev aW2 (c : Dev nD) : S128x128.Idx → EReal := V c main_arg5
abbrev res0 (c : Dev nD) : S100000x64.Idx → EReal := (dat0 (F := Ideal) V c).arrAt 2 cfg0.N
abbrev res1 (c : Dev nD) : S100000x128.Idx → EReal := (dat1 (F := Ideal) V c).arrAt 6 cfg1.N

/-! ## The first launch

Its body stores, over the whole block, the feature block times the factor column spread along the 64 lanes. -/

/-- One store through the whole-block rectangle leaves its payload, and a load through a whole-block rectangle reads
    the block: the result block is the product's value on the two blocks themselves. -/
theorem scaled_eq (x : Vec Ideal S2000x64 .f32) (dcol : Vec Ideal S2000x1 .f32) : scaled x dcol = k0_pay1 x dcol := by
  unfold scaled
  rw [View.canon_unit_zero hz1, View.ld_unit_zero (S := S2000x64) hz1, View.ld_unit_zero (S := S2000x1) hz1]

/-- Entry `(p, q)` of the product on two blocks: the feature entry times row `p`'s factor. -/
theorem pay0_apply (x : Vec Ideal S2000x64 .f32) (dcol : Vec Ideal S2000x1 .f32) (p : Fin 2000) (q : Fin 64) :
    k0_pay1 x dcol (ix2 p q) = x (ix2 p q) * dcol (ix2 p (0 : Fin 1)) := by
  unfold k0_pay1
  refine congrArg (x (ix2 p q) * ·) ?_
  refine (broadcastTo_apply _ broadcasts_S2000x1_S2000x64 (ix2 p q) (ix2 p (0 : Fin 1)) (fun a => ?_)).trans ?_
  · match a with
    | ⟨0, _⟩ => rfl
    | ⟨1, _⟩ => rfl
  · rw [shapeCast_self]

/-- The first launch's result as one function of the entry arrays: entry `i` is the feature entry `i` times the
    factor of `i`'s row. -/
def G0 (c : Dev nD) : S100000x64.Idx → EReal :=
  fun i => aX V c i * aD15 V c (ix2 (⟨(i 0).val, idx2_lt0 i⟩ : Fin 100000) (0 : Fin 1))

/-- The printed index maps over the 50 points: all three windows are at block `(t, 0)`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is its block of `G0`: the feature block and the result block are the same rectangle
    of their arrays, and the factor block is the same rows of the one-column array. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 V c).after 2 t) = _
  rw [after0_2, scaled_eq]
  funext j
  obtain ⟨p, q, rfl⟩ : ∃ (p : Fin 2000) (q : Fin 64), j = ix2 p q := ⟨j 0, j 1, eq_ix2 j⟩
  refine (pay0_apply _ _ p q).trans ?_
  obtain ⟨e00, e01, e10, e11, e20, e21⟩ := idx_facts0 t
  have h0 : ((cfg0.win 0).blk t).view.emb (ix2 p q) = ((cfg0.win 2).blk t).view.emb (ix2 p q) := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 64 + 1 * q.val = win0_2.index t (1 : Fin 2) * 64 + 1 * q.val; omega
  have h1 : ((cfg0.win 1).blk t).view.emb (ix2 p (0 : Fin 1))
      = ix2 (⟨((((cfg0.win 2).blk t).view.emb (ix2 p q)) 0).val, idx2_lt0 _⟩ : Fin 100000) (0 : Fin 1) := by
    funext a; apply Fin.ext
    match a with
    | ⟨0, _⟩ => show win0_1.index t (0 : Fin 2) * 2000 + 1 * p.val = win0_2.index t (0 : Fin 2) * 2000 + 1 * p.val; omega
    | ⟨1, _⟩ => show win0_1.index t (1 : Fin 2) * 1 + 1 * 0 = 0; omega
  show aX V c (((cfg0.win 0).blk t).view.emb (ix2 p q)) * aD15 V c (((cfg0.win 1).blk t).view.emb (ix2 p (0 : Fin 1)))
    = aX V c (((cfg0.win 2).blk t).view.emb (ix2 p q))
      * aD15 V c (ix2 (⟨((((cfg0.win 2).blk t).view.emb (ix2 p q)) 0).val, idx2_lt0 _⟩ : Fin 100000) (0 : Fin 1))
  rw [h0, h1]

/-- An index of the result array is in point `t`'s block iff each coordinate is in the block's range on its axis. -/
theorem mem_blk0 (t : Fin cfg0.N) (i : S100000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v16).slice (win0_2.rect t)).set ↔ _
  rw [View.set_slice_whole, Rect.mem_set_unit]
  exact Iff.rfl

/-- Row `r` is in the block of point `r / 2000`: the 50 blocks cover the result array. -/
theorem cover0 (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  have ht : (i 0).val / 2000 < cfg0.N := by show (i 0).val / 2000 < 50; omega
  obtain ⟨-, -, -, -, e20, e21⟩ := idx_facts0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win0_2.index ⟨(i 0).val / 2000, ht⟩ (1 : Fin 2) * 64 ≤ (i 1).val
      ∧ (i 1).val < win0_2.index ⟨(i 0).val / 2000, ht⟩ (1 : Fin 2) * 64 + 64
    rw [e21]; omega

/-- The first launch's result array after the launch. -/
theorem final0 (c : Dev nD) (r : Fin 100000) (k : Fin 64) :
    res0 V c (ix2 r k) = aX V c (ix2 r k) * aD15 V c (ix2 r (0 : Fin 1)) := by
  exact congrFun ((dat0 (F := Ideal) V c).arrAt_eq_of_cover 2 (G0 V c) (fun t _ => flushed0_eq V c t) (cover0)) (ix2 r k)

/-! ## The second launch -/

/-! ## The two products of the stage, read at an entry

Each is a matrix product with one contracted axis (the left operand's columns against the right operand's rows)
into a zero accumulator, so entry `(p, j)` is the sum over the contracted coordinate `k` of left `(p, k)` times
right `(k, j)`. The four coordinate facts of each product are kept apart: the left index keeps the result's row and
takes the contracted coordinate as its column; the right index takes the contracted coordinate as its row and keeps
the result's column. -/

theorem dot1_lhs_row (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide),
    dif_pos (show (0 : Fin S2000x64.rank) ∈ dot_S2000x64_S64x128_S2000x128_1_0_0_1_n_n.lhsNonContracting by decide)]
  rfl
theorem dot1_lhs_col (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem dot1_rhs_row (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem dot1_rhs_col (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide),
    dif_pos (show (1 : Fin S64x128.rank) ∈ dot_S2000x64_S64x128_S2000x128_1_0_0_1_n_n.rhsNonContracting by decide)]
  rfl

/-- The first product (2000×64 by 64×128) into the zero accumulator, at entry `(p, j)`. -/
theorem dot1_apply (u : FVec Ideal S2000x64 .f32) (w : FVec Ideal S64x128 .f32) (p : Fin 2000) (j : Fin 128) :
    matmul dot_S2000x64_S64x128_S2000x128_1_0_0_1_n_n (some .fp32) u w (constant (F := Ideal) S2000x128 .f32 0x00000000#32) (ix2 p j)
      = ∑ k : Fin 64, u (ix2 p k) * w (ix2 k j) := by
  refine (Ideal.matmul_constant_zero_apply dot_S2000x64_S64x128_S2000x128_1_0_0_1_n_n (some .fp32) u w (ix2 p j)).trans ?_
  rw [← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p j)
      ((contrEquiv1 dot_S2000x64_S64x128_S2000x128_1_0_0_1_n_n 64 rfl rfl).symm k) = ix2 p k := funext fun a => Fin.ext (by
    match a with
    | ⟨0, _⟩ => exact dot1_lhs_row _ _
    | ⟨1, _⟩ => exact (dot1_lhs_col _ _).trans hk)
  have er : dot_S2000x64_S64x128_S2000x128_1_0_0_1_n_n.rhsIdx (ix2 p j)
      ((contrEquiv1 dot_S2000x64_S64x128_S2000x128_1_0_0_1_n_n 64 rfl rfl).symm k) = ix2 k j := funext fun a => Fin.ext (by
    match a with
    | ⟨0, _⟩ => exact (dot1_rhs_row _ _).trans hk
    | ⟨1, _⟩ => exact dot1_rhs_col _ _)
  rw [el, er]

theorem dot2_lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem dot2_lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem dot2_rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dot2_rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The second product (2000×128 by 128×128) into the zero accumulator, at entry `(p, f)`. -/
theorem dot2_apply (u : FVec Ideal S2000x128 .f32) (w : FVec Ideal S128x128 .f32) (p : Fin 2000) (f : Fin 128) :
    matmul dot_S2000x128_S128x128_S2000x128_1_0_0_1_n_n (some .fp32) u w (constant (F := Ideal) S2000x128 .f32 0x00000000#32) (ix2 p f)
      = ∑ j : Fin 128, u (ix2 p j) * w (ix2 j f) := by
  refine (Ideal.matmul_constant_zero_apply dot_S2000x128_S128x128_S2000x128_1_0_0_1_n_n (some .fp32) u w (ix2 p f)).trans ?_
  rw [← Equiv.sum_comp (contrEquiv1 dot_S2000x128_S128x128_S2000x128_1_0_0_1_n_n 128 rfl rfl).symm]
  refine Finset.sum_congr rfl fun j _ => ?_
  have hj := contrEquiv1_symm_val dot_S2000x128_S128x128_S2000x128_1_0_0_1_n_n 128 rfl rfl j
  have el : dot_S2000x128_S128x128_S2000x128_1_0_0_1_n_n.lhsIdx (ix2 p f)
      ((contrEquiv1 dot_S2000x128_S128x128_S2000x128_1_0_0_1_n_n 128 rfl rfl).symm j) = ix2 p j := funext fun a => Fin.ext (by
    match a with
    | ⟨0, _⟩ => exact dot2_lhs_row _ _
    | ⟨1, _⟩ => exact (dot2_lhs_col _ _).trans hj)
  have er : dot_S2000x128_S128x128_S2000x128_1_0_0_1_n_n.rhsIdx (ix2 p f)
      ((contrEquiv1 dot_S2000x128_S128x128_S2000x128_1_0_0_1_n_n 128 rfl rfl).symm j) = ix2 j f := funext fun a => Fin.ext (by
    match a with
    | ⟨0, _⟩ => exact (dot2_rhs_row _ _).trans hj
    | ⟨1, _⟩ => exact dot2_rhs_col _ _)
  rw [el, er]

/-! ## The stage's value on a block, read at an entry -/

/-- The factor column spread along the 128 lanes reads the row's factor. -/
theorem spread_col (d : Vec Ideal S2000x1 .f32) (p : Fin 2000) (j : Fin 128) :
    broadcastTo S2000x128 (shapeCast S2000x1 d shapeCasts_S2000x1_S2000x1) broadcasts_S2000x1_S2000x128 (ix2 p j)
      = d (ix2 p (0 : Fin 1)) := by
  refine (broadcastTo_apply _ broadcasts_S2000x1_S2000x128 (ix2 p j) (ix2 p (0 : Fin 1)) (fun a => ?_)).trans ?_
  · match a with
    | ⟨0, _⟩ => rfl
    | ⟨1, _⟩ => rfl
  · rw [shapeCast_self]

/-- The bias row spread down the 2000 rows reads the lane's bias. -/
theorem spread_row (b : Vec Ideal S1x128 .f32) (p : Fin 2000) (j : Fin 128) :
    broadcastTo S2000x128 (shapeCast S1x128 b shapeCasts_S1x128_S1x128) broadcasts_S1x128_S2000x128 (ix2 p j)
      = b (ix2 (0 : Fin 1) j) := by
  refine (broadcastTo_apply _ broadcasts_S1x128_S2000x128 (ix2 p j) (ix2 (0 : Fin 1) j) (fun a => ?_)).trans ?_
  · match a with
    | ⟨0, _⟩ => rfl
    | ⟨1, _⟩ => rfl
  · rw [shapeCast_self]

/-- Entry `(p, f)` of the stage's value on six blocks. -/
theorem pay1_apply (a x : Vec Ideal S2000x64 .f32) (w1 : Vec Ideal S64x128 .f32) (d : Vec Ideal S2000x1 .f32)
    (b : Vec Ideal S1x128 .f32) (w2 : Vec Ideal S128x128 .f32) (p : Fin 2000) (f : Fin 128) :
    k1_pay1 a x w1 d b w2 d (ix2 p f)
      = (∑ j : Fin 128,
          max ((∑ k : Fin 64, (a (ix2 p k) + x (ix2 p k)) * w1 (ix2 k j)) * d (ix2 p (0 : Fin 1)) + b (ix2 (0 : Fin 1) j)) (0 : EReal)
            * w2 (ix2 j f))
        * d (ix2 p (0 : Fin 1)) := by
  unfold k1_pay1
  refine (mulf_apply _ _ (ix2 p f)).trans ?_
  rw [spread_col d p f]
  refine congrArg (· * d (ix2 p (0 : Fin 1))) ?_
  refine (dot2_apply _ w2 p f).trans ?_
  refine Finset.sum_congr rfl fun j _ => ?_
  refine congrArg (· * w2 (ix2 j f)) ?_
  refine (maximumf_apply _ _ (ix2 p j)).trans ?_
  refine congrArg₂ max ?_ Ideal.ofBits_zero_f32
  refine (addf_apply _ _ (ix2 p j)).trans ?_
  rw [spread_row b p j]
  refine congrArg (· + b (ix2 (0 : Fin 1) j)) ?_
  refine (mulf_apply _ _ (ix2 p j)).trans ?_
  rw [spread_col d p j]
  refine congrArg (· * d (ix2 p (0 : Fin 1))) ?_
  refine (dot1_apply _ w1 p j).trans ?_
  refine Finset.sum_congr rfl fun k _ => ?_
  refine congrArg (· * w1 (ix2 k j)) ?_
  refine (addf_apply _ _ (ix2 p k)).trans ?_
  rw [shapeCast_self, shapeCast_self]

/-! ## The second launch's result as one function of the entry arrays -/

/-- Row `r`, lane `f` of the stage on the whole arrays. -/
def stage1 (c : Dev nD) (r : Fin 100000) (f : Fin 128) : EReal :=
  (∑ j : Fin 128,
      max ((∑ k : Fin 64, (aAgg V c (ix2 r k) + aXs V c (ix2 r k)) * aW1 V c (ix2 k j)) * aD27 V c (ix2 r (0 : Fin 1))
          + aB1 V c (ix2 (0 : Fin 1) j)) (0 : EReal)
        * aW2 V c (ix2 j f))
    * aD27 V c (ix2 r (0 : Fin 1))

/-- The same, as an array over the result's index set. -/
def G1 (c : Dev nD) : S100000x128.Idx → EReal :=
  fun i => stage1 V c ⟨(i 0).val, idx2_lt0 i⟩ ⟨(i 1).val, idx2_lt1 i⟩

/-! The printed index maps over the 50 points: the row-blocked windows are at block `(t, 0)`, the whole-array windows
at block `(0, 0)`. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)

/-! Each input block read at an entry, where the result block's rectangle says: row `p` of point `t`'s block is row
`R = 2000 t + p` of the array; the bias and the weights are read whole. -/
theorem read1_0 (c : Dev nD) (t : Fin cfg1.N) (p : Fin 2000) (k : Fin 64) (R : Fin 100000) (hR : R.val = t.val * 2000 + p.val) :
    (iblk1 V c 0 t : S2000x64.Idx → EReal) (ix2 p k) = aAgg V c (ix2 R k) := by
  obtain ⟨e0, e1⟩ := idx1_0 t
  show aAgg V c (((cfg1.win 0).blk t).view.emb (ix2 p k)) = aAgg V c (ix2 R k)
  refine congrArg (aAgg V c) (funext fun a => Fin.ext ?_)
  match a with
  | ⟨0, _⟩ => show win1_0.index t (0 : Fin 2) * 2000 + 1 * p.val = R.val; omega
  | ⟨1, _⟩ => show win1_0.index t (1 : Fin 2) * 64 + 1 * k.val = k.val; omega
theorem read1_1 (c : Dev nD) (t : Fin cfg1.N) (p : Fin 2000) (k : Fin 64) (R : Fin 100000) (hR : R.val = t.val * 2000 + p.val) :
    (iblk1 V c 1 t : S2000x64.Idx → EReal) (ix2 p k) = aXs V c (ix2 R k) := by
  obtain ⟨e0, e1⟩ := idx1_1 t
  show aXs V c (((cfg1.win 1).blk t).view.emb (ix2 p k)) = aXs V c (ix2 R k)
  refine congrArg (aXs V c) (funext fun a => Fin.ext ?_)
  match a with
  | ⟨0, _⟩ => show win1_1.index t (0 : Fin 2) * 2000 + 1 * p.val = R.val; omega
  | ⟨1, _⟩ => show win1_1.index t (1 : Fin 2) * 64 + 1 * k.val = k.val; omega
theorem read1_2 (c : Dev nD) (t : Fin cfg1.N) (p : Fin 2000) (R : Fin 100000) (hR : R.val = t.val * 2000 + p.val) :
    (iblk1 V c 2 t : S2000x1.Idx → EReal) (ix2 p (0 : Fin 1)) = aD27 V c (ix2 R (0 : Fin 1)) := by
  obtain ⟨e0, e1⟩ := idx1_2 t
  show aD27 V c (((cfg1.win 2).blk t).view.emb (ix2 p (0 : Fin 1))) = aD27 V c (ix2 R (0 : Fin 1))
  refine congrArg (aD27 V c) (funext fun a => Fin.ext ?_)
  match a with
  | ⟨0, _⟩ => show win1_2.index t (0 : Fin 2) * 2000 + 1 * p.val = R.val; omega
  | ⟨1, _⟩ => show win1_2.index t (1 : Fin 2) * 1 + 1 * 0 = 0; omega
theorem read1_3 (c : Dev nD) (t : Fin cfg1.N) (j : Fin 128) :
    (iblk1 V c 3 t : S1x128.Idx → EReal) (ix2 (0 : Fin 1) j) = aB1 V c (ix2 (0 : Fin 1) j) := by
  obtain ⟨e0, e1⟩ := idx1_3 t
  show aB1 V c (((cfg1.win 3).blk t).view.emb (ix2 (0 : Fin 1) j)) = aB1 V c (ix2 (0 : Fin 1) j)
  refine congrArg (aB1 V c) (funext fun a => Fin.ext ?_)
  match a with
  | ⟨0, _⟩ => show win1_3.index t (0 : Fin 2) * 1 + 1 * 0 = 0; omega
  | ⟨1, _⟩ => show win1_3.index t (1 : Fin 2) * 128 + 1 * j.val = j.val; omega
theorem read1_4 (c : Dev nD) (t : Fin cfg1.N) (k : Fin 64) (j : Fin 128) :
    (iblk1 V c 4 t : S64x128.Idx → EReal) (ix2 k j) = aW1 V c (ix2 k j) := by
  obtain ⟨e0, e1⟩ := idx1_4 t
  show aW1 V c (((cfg1.win 4).blk t).view.emb (ix2 k j)) = aW1 V c (ix2 k j)
  refine congrArg (aW1 V c) (funext fun a => Fin.ext ?_)
  match a with
  | ⟨0, _⟩ => show win1_4.index t (0 : Fin 2) * 64 + 1 * k.val = k.val; omega
  | ⟨1, _⟩ => show win1_4.index t (1 : Fin 2) * 128 + 1 * j.val = j.val; omega
theorem read1_5 (c : Dev nD) (t : Fin cfg1.N) (j f : Fin 128) :
    (iblk1 V c 5 t : S128x128.Idx → EReal) (ix2 j f) = aW2 V c (ix2 j f) := by
  obtain ⟨e0, e1⟩ := idx1_5 t
  show aW2 V c (((cfg1.win 5).blk t).view.emb (ix2 j f)) = aW2 V c (ix2 j f)
  refine congrArg (aW2 V c) (funext fun a => Fin.ext ?_)
  match a with
  | ⟨0, _⟩ => show win1_5.index t (0 : Fin 2) * 128 + 1 * j.val = j.val; omega
  | ⟨1, _⟩ => show win1_5.index t (1 : Fin 2) * 128 + 1 * f.val = f.val; omega

/-- Entry `(p, f)` of point `t`'s result block sits at row `2000 t + p`, lane `f` of the result array. -/
theorem out1_emb (t : Fin cfg1.N) (p : Fin 2000) (f : Fin 128) (R : Fin 100000) (hR : R.val = t.val * 2000 + p.val) :
    ((cfg1.win 6).blk t).view.emb (ix2 p f) = (ix2 R f : S100000x128.Idx) := by
  obtain ⟨e0, e1⟩ := idx1_6 t
  funext a; apply Fin.ext
  match a with
  | ⟨0, _⟩ => show win1_6.index t (0 : Fin 2) * 2000 + 1 * p.val = R.val; omega
  | ⟨1, _⟩ => show win1_6.index t (1 : Fin 2) * 128 + 1 * f.val = f.val; omega

/-- What point `t` writes back is its block of `G1`. -/
theorem flushed1_eq (c : Dev nD) (t : Fin cfg1.N) :
    (dat1 (F := Ideal) V c).flushed 6 t = ((cfg1.win 6).blk t).view.read (Elt Ideal) (G1 V c) := by
  show (cfg1.win 6).cut (grid1.coords t) ((dat1 V c).after 6 t) = _
  rw [after1_6, conv_eq]
  funext j
  obtain ⟨p, f, rfl⟩ : ∃ (p : Fin 2000) (f : Fin 128), j = ix2 p f := ⟨j 0, j 1, eq_ix2 j⟩
  refine (pay1_apply _ _ _ _ _ _ p f).trans ?_
  have ht : t.val < 50 := t.isLt
  obtain ⟨R, hR⟩ : ∃ R : Fin 100000, R.val = t.val * 2000 + p.val := ⟨⟨t.val * 2000 + p.val, by omega⟩, rfl⟩
  show _ = G1 V c (((cfg1.win 6).blk t).view.emb (ix2 p f))
  rw [out1_emb t p f R hR]
  show _ = stage1 V c R f
  unfold stage1
  refine congrArg₂ (· * ·) (Finset.sum_congr rfl fun j _ => ?_) (read1_2 V c t p R hR)
  refine congrArg₂ (· * ·) (congrArg₂ max (congrArg₂ (· + ·) (congrArg₂ (· * ·)
    (Finset.sum_congr rfl fun k _ => ?_) (read1_2 V c t p R hR)) (read1_3 V c t j)) rfl) (read1_5 V c t j f)
  exact congrArg₂ (· * ·) (congrArg₂ (· + ·) (read1_0 V c t p k R hR) (read1_1 V c t p k R hR)) (read1_4 V c t k j)

/-- An index of the result array is in point `t`'s block iff each coordinate is in the block's range on its axis. -/
theorem mem_blk1 (t : Fin cfg1.N) (i : S100000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v29).slice (win1_6.rect t)).set ↔ _
  rw [View.set_slice_whole, Rect.mem_set_unit]
  exact Iff.rfl

/-- Row `r` is in the block of point `r / 2000`: the 50 blocks cover the result array. -/
theorem cover1 (i : S100000x128.Idx) :
    ∃ t : Fin cfg1.N, (cfg1.win 6).flush t = true ∧ i ∈ ((cfg1.win 6).blk t).view.set := by
  have hi0 : (i 0).val < 100000 := idx2_lt0 i
  have hi1 : (i 1).val < 128 := idx2_lt1 i
  have ht : (i 0).val / 2000 < cfg1.N := by show (i 0).val / 2000 < 50; omega
  obtain ⟨e0, e1⟩ := idx1_6 ⟨(i 0).val / 2000, ht⟩
  refine ⟨⟨(i 0).val / 2000, ht⟩, flush1_6 _, ?_⟩
  rw [mem_blk1]
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, ht⟩ (1 : Fin 2) * 128 ≤ (i 1).val
      ∧ (i 1).val < win1_6.index ⟨(i 0).val / 2000, ht⟩ (1 : Fin 2) * 128 + 128
    rw [e1]; omega

/-- The second launch's result array after the launch. -/
theorem final1 (c : Dev nD) (r : Fin 100000) (f : Fin 128) :
    res1 V c (ix2 r f)
      = (∑ j : Fin 128,
          max ((∑ k : Fin 64, (aAgg V c (ix2 r k) + aXs V c (ix2 r k)) * aW1 V c (ix2 k j)) * aD27 V c (ix2 r (0 : Fin 1))
              + aB1 V c (ix2 (0 : Fin 1) j)) (0 : EReal)
            * aW2 V c (ix2 j f))
        * aD27 V c (ix2 r (0 : Fin 1)) := by
  exact congrFun ((dat1 (F := Ideal) V c).arrAt_eq_of_cover 6 (G1 V c) (fun t _ => flushed1_eq V c t) cover1) (ix2 r f)

end Cert.KernelIdeal.Hand

end
-- ==== Proof.KI.Final2.lean ====
import proofs.«411983_j75668733821211_3_alg».proof.Proof.Gen.KernelIdeal.Launch
import proofs.«411983_j75668733821211_3_alg».proof.Proof.Gen.KernelIdeal.Skeleton
import proofs.«411983_j75668733821211_3_alg».proof.Proof.Gen.KernelIdeal.Points
import proofs.«411983_j75668733821211_3_alg».proof.Proof.KI.Reg2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # What the third launch leaves in its result array, entry by entry (at the ideal values)

Point `t` of 100 adds, for each graph `g` and feature `f`, the rows `1000 t … 1000 t + 999` whose graph word is `g`
(a one-hot row of ones and zeros times the activated rows, contracted over the 1000 rows) to the accumulator, which
starts from zero at the first point; the last point copies the accumulator into the result block, the whole array. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The entry arrays and the result array, typed as functions on their literal index sets. -/
abbrev aAgg2 (c : Dev nD) : S100000x128.Idx → EReal := V c main_v39
abbrev aH2s (c : Dev nD) : S100000x128.Idx → EReal := V c main_v29
abbrev aD40 (c : Dev nD) : S100000x1.Idx → EReal := V c main_v40
abbrev aB2 (c : Dev nD) : S1x128.Idx → EReal := V c main_v41
abbrev aGw (c : Dev nD) : S100000x1.Idx → BitVec 32 := V c main_v42
abbrev res2 (c : Dev nD) : S512x128.Idx → EReal := (dat2 (F := Ideal) V c).arrAt 5 cfg2.N

/-! ## The result array is the accumulator after the last point -/

/-- The last grid point. -/
def tLast : Fin cfg2.N := ⟨99, by rw [show cfg2.N = 100 from N_2]; decide⟩

theorem lt99 : 99 < cfg2.N := by rw [show cfg2.N = 100 from N_2]; decide

/-- The one write-back, at point 99, writes the accumulator after that point: the window's block there is the whole
    512x128 array, read through zero offsets. -/
theorem flushed5_eq (c : Dev nD) (t : Fin cfg2.N) (hf : (cfg2.win 5).flush t = true) :
    (dat2 (F := Ideal) V c).flushed 5 t = ((cfg2.win 5).blk t).view.read (Elt Ideal) (accAt (F := Ideal) V c 99 lt99) := by
  have hN : cfg2.N = 100 := N_2
  have h99 : t.val = 99 := by have := (flush2_5 t).mp hf; have := t.isLt; omega
  obtain rfl : t = tLast := Fin.ext h99
  show (cfg2.win 5).cut (grid2.coords tLast) ((dat2 (F := Ideal) V c).after 5 tLast) = _
  rw [after2_5]
  have hz' : (fun a => win2_5.index tLast a * main_v43.ty.shape.size a) = fun _ => 0 := funext fun a => by fin_cases a <;> decide +kernel
  exact (Memref.read_access_unit_zero (Elt Ideal) main_v43 hz' (fun a => by rw [congrFun hz' a]; simp) (accAt (F := Ideal) V c 99 lt99)).symm

/-- So the result array ends holding it: point 99's block covers every index. -/
theorem res2_eq (c : Dev nD) : res2 V c = accAt (F := Ideal) V c 99 lt99 :=
  (dat2 (F := Ideal) V c).arrAt_eq_of_cover 5 (accAt (F := Ideal) V c 99 lt99) (flushed5_eq V c) fun i =>
    ⟨tLast, (flush2_5 tLast).mpr (by decide +kernel), by
      show i ∈ ((View.whole main_v43).slice (win2_5.rect tLast)).set
      rw [View.set_slice_whole, Rect.mem_set_unit]
      intro a
      have h0 : (i 0 : Nat) < 512 := (i 0).isLt
      have h1 : (i 1 : Nat) < 128 := (i 1).isLt
      match a with
      | ⟨0, _⟩ => show win2_5.index tLast 0 * win2_5.size 0 ≤ (i 0 : Nat) ∧ (i 0 : Nat) < win2_5.index tLast 0 * win2_5.size 0 + win2_5.xsize (grid2.coords tLast) 0
                  rw [show win2_5.index tLast 0 * win2_5.size 0 = 0 from by decide +kernel, show win2_5.xsize (grid2.coords tLast) 0 = 512 from by decide +kernel]; omega
      | ⟨1, _⟩ => show win2_5.index tLast 1 * win2_5.size 1 ≤ (i 1 : Nat) ∧ (i 1 : Nat) < win2_5.index tLast 1 * win2_5.size 1 + win2_5.xsize (grid2.coords tLast) 1
                  rw [show win2_5.index tLast 1 * win2_5.size 1 = 0 from by decide +kernel, show win2_5.xsize (grid2.coords tLast) 1 = 128 from by decide +kernel]; omega⟩

/-! ## The point's addend at an entry -/

/-- The one-hot weight: the compare's bit, widened to a word and read as a signed integer, is one where the two words
    agree and zero elsewhere. -/
theorem onehot_val (x y : BitVec 32) :
    ((((IntOp.cmpi .eq x y).setWidth 32).toInt : ℝ) : EReal) = if x = y then 1 else 0 := by
  by_cases h : x = y
  · subst h
    rw [if_pos rfl]
    have e1 : IntOp.cmpi .eq x x = 1#1 := by
      show BitVec.ofBool (x == x) = 1#1
      rw [beq_self_eq_true]; rfl
    have e2 : ((1#1 : BitVec 1).setWidth 32).toInt = 1 := by decide
    rw [e1, e2]; simp
  · rw [if_neg h]
    have e1 : IntOp.cmpi .eq x y = 0#1 := by
      show BitVec.ofBool (x == y) = 0#1
      rw [beq_eq_false_iff_ne.mpr h]; rfl
    have e2 : ((0#1 : BitVec 1).setWidth 32).toInt = 0 := by decide
    rw [e1, e2]; simp

/-- The pooling product contracts the 1000 rows of both operands (axis 0 of each); the one-hot operand's other axis
    is the result's row (the graph), the activated rows' other axis the result's column (the feature). -/
theorem lhs_pool_0 (i : S512x128.Idx) (q : dot_S1000x512_S1000x128_S512x128_0_0_1_1_n_n.contr.Idx) :
    (dot_S1000x512_S1000x128_S512x128_0_0_1_1_n_n.lhsIdx i q 0).val = (q ⟨0, by decide⟩).val :=
  dot_S1000x512_S1000x128_S512x128_0_0_1_1_n_n.lhsIdx_val_of_single rfl i q
theorem lhs_pool_1 (i : S512x128.Idx) (q : dot_S1000x512_S1000x128_S512x128_0_0_1_1_n_n.contr.Idx) :
    (dot_S1000x512_S1000x128_S512x128_0_0_1_1_n_n.lhsIdx i q 1).val = (i 0).val := by
  unfold DotDims.lhsIdx
  rw [dif_neg (show ¬(1 : Fin S1000x512.rank) ∈ dot_S1000x512_S1000x128_S512x128_0_0_1_1_n_n.lhsBatch by decide), dif_pos (show (1 : Fin S1000x512.rank) ∈ dot_S1000x512_S1000x128_S512x128_0_0_1_1_n_n.lhsNonContracting by decide)]
  rfl
theorem rhs_pool_0 (i : S512x128.Idx) (q : dot_S1000x512_S1000x128_S512x128_0_0_1_1_n_n.contr.Idx) :
    (dot_S1000x512_S1000x128_S512x128_0_0_1_1_n_n.rhsIdx i q 0).val = (q ⟨0, by decide⟩).val :=
  dot_S1000x512_S1000x128_S512x128_0_0_1_1_n_n.rhsIdx_val_of_single rfl i q
theorem rhs_pool_1 (i : S512x128.Idx) (q : dot_S1000x512_S1000x128_S512x128_0_0_1_1_n_n.contr.Idx) :
    (dot_S1000x512_S1000x128_S512x128_0_0_1_1_n_n.rhsIdx i q 1).val = (i 1).val := by
  unfold DotDims.rhsIdx
  rw [dif_neg (show ¬(1 : Fin S1000x128.rank) ∈ dot_S1000x512_S1000x128_S512x128_0_0_1_1_n_n.rhsBatch by decide), dif_pos (show (1 : Fin S1000x128.rank) ∈ dot_S1000x512_S1000x128_S512x128_0_0_1_1_n_n.rhsNonContracting by decide)]
  rfl

/-- THE POINT'S ADDEND, read at graph `g` and feature `f`: the accumulator there, plus over the point's 1000 rows the
    one-hot weight of the row's graph word against `g` times the row's activated entry at `f`. -/
theorem pay2_apply (a h : Vec Ideal S1000x128 .f32) (dcol : Vec Ideal S1000x1 .f32) (b : Vec Ideal S1x128 .f32) (gw : Vec Ideal S1000x1 .i32)
    (acc : Vec Ideal S512x128 .f32) (g : Fin 512) (f : Fin 128) :
    k2_pay2 (F := Ideal) a h dcol b gw acc (ix2 g f)
      = acc (ix2 g f) + ∑ q : Fin 1000, (if gw (ix2 q (0 : Fin 1)) = BitVec.ofNat 32 g.val then (1 : EReal) else 0)
          * max ((a (ix2 q f) + h (ix2 q f)) * dcol (ix2 q (0 : Fin 1)) + b (ix2 (0 : Fin 1) f)) 0 := by
  unfold k2_pay2
  simp only [shapeCast_self]
  rw [addf_apply]
  simp only [matmul]
  rw [Ideal.matmul_constant_zero_apply, ← Equiv.sum_comp (contrEquiv1 dot_S1000x512_S1000x128_S512x128_0_0_1_1_n_n 1000 rfl rfl).symm]
  congr 1
  refine Finset.sum_congr rfl fun q _ => ?_
  have hq := contrEquiv1_symm_val dot_S1000x512_S1000x128_S512x128_0_0_1_1_n_n 1000 rfl rfl q
  have el : dot_S1000x512_S1000x128_S512x128_0_0_1_1_n_n.lhsIdx (ix2 g f) ((contrEquiv1 dot_S1000x512_S1000x128_S512x128_0_0_1_1_n_n 1000 rfl rfl).symm q) = ix2 q g := funext fun ax => Fin.ext (by
    match ax with
    | ⟨0, _⟩ => exact (lhs_pool_0 _ _).trans hq
    | ⟨1, _⟩ => exact lhs_pool_1 _ _)
  have er : dot_S1000x512_S1000x128_S512x128_0_0_1_1_n_n.rhsIdx (ix2 g f) ((contrEquiv1 dot_S1000x512_S1000x128_S512x128_0_0_1_1_n_n 1000 rfl rfl).symm q) = ix2 q f := funext fun ax => Fin.ext (by
    match ax with
    | ⟨0, _⟩ => exact (rhs_pool_0 _ _).trans hq
    | ⟨1, _⟩ => exact rhs_pool_1 _ _)
  rw [el, er]
  have hA : broadcastTo S1000x512 gw broadcasts_S1000x1_S1000x512 (ix2 q g) = gw (ix2 q (0 : Fin 1)) :=
    broadcastTo_apply gw _ (ix2 q g) (ix2 q (0 : Fin 1)) fun ax => by
      match ax with
      | ⟨0, _⟩ => rfl
      | ⟨1, _⟩ => rfl
  have hB : broadcastTo S1000x512 (iota .tc S1x512 32 [1] iota_S1x512_d1_w32) broadcasts_S1x512_S1000x512 (ix2 q g) = BitVec.ofNat 32 g.val :=
    (broadcastTo_1b_ab_apply (a := 1000) (b := 512) _ _ q g).trans (iota_single_apply _ _ _ _ _ _)
  have hD : broadcastTo S1000x128 dcol broadcasts_S1000x1_S1000x128 (ix2 q f) = dcol (ix2 q (0 : Fin 1)) :=
    broadcastTo_apply dcol _ (ix2 q f) (ix2 q (0 : Fin 1)) fun ax => by
      match ax with
      | ⟨0, _⟩ => rfl
      | ⟨1, _⟩ => rfl
  have hBias : broadcastTo S1000x128 b broadcasts_S1x128_S1000x128 (ix2 q f) = b (ix2 (0 : Fin 1) f) :=
    broadcastTo_1b_ab_apply (a := 1000) (b := 128) b _ q f
  show ((((IntOp.cmpi .eq (broadcastTo S1000x512 gw broadcasts_S1000x1_S1000x512 (ix2 q g))
          (broadcastTo S1000x512 (iota .tc S1x512 32 [1] iota_S1x512_d1_w32) broadcasts_S1x512_S1000x512 (ix2 q g))).setWidth 32).toInt : ℝ) : EReal)
      * max ((a (ix2 q f) + h (ix2 q f)) * broadcastTo S1000x128 dcol broadcasts_S1000x1_S1000x128 (ix2 q f)
          + broadcastTo S1000x128 b broadcasts_S1x128_S1000x128 (ix2 q f)) (Ideal.ofBits .f32 0x00000000#32) = _
  rw [hA, hB, hD, hBias, onehot_val, Ideal.ofBits_zero_f32]

/-! ## The blocks, read in their arrays -/

/-- Where the windows' blocks sit in their arrays, decided over the grid: the row windows' block `t` starts at row
    `1000 t`; the bias row's block never moves. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry `(q, ·)` of a row window's block at point `t` is entry `(1000 t + q, ·)` of its array. -/
theorem blk0_apply (c : Dev nD) (t : Fin cfg2.N) (q : Fin 1000) (f : Fin 128) (hr : 1000 * t.val + q.val < 100000) :
    (iblk2 (F := Ideal) V c 0 t : S1000x128.Idx → _) (ix2 q f) = aAgg2 V c (ix2 ⟨1000 * t.val + q.val, hr⟩ f) := by
  have e0 : win2_0.index t (0 : Fin 2) = t.val := (idx_facts2 t).1
  have e1 : win2_0.index t (1 : Fin 2) = 0 := (idx_facts2 t).2.1
  show V c main_v39 (((cfg2.win 0).blk t).view.emb (ix2 q f)) = V c main_v39 (ix2 ⟨1000 * t.val + q.val, hr⟩ f)
  congr 1
  funext ax
  apply Fin.ext
  match ax with
  | ⟨0, _⟩ => show win2_0.index t (0 : Fin 2) * 1000 + 1 * q.val = 1000 * t.val + q.val; rw [e0]; omega
  | ⟨1, _⟩ => show win2_0.index t (1 : Fin 2) * 128 + 1 * f.val = f.val; rw [e1]; omega
theorem blk1_apply (c : Dev nD) (t : Fin cfg2.N) (q : Fin 1000) (f : Fin 128) (hr : 1000 * t.val + q.val < 100000) :
    (iblk2 (F := Ideal) V c 1 t : S1000x128.Idx → _) (ix2 q f) = aH2s V c (ix2 ⟨1000 * t.val + q.val, hr⟩ f) := by
  have e0 : win2_1.index t (0 : Fin 2) = t.val := (idx_facts2 t).2.2.1
  have e1 : win2_1.index t (1 : Fin 2) = 0 := (idx_facts2 t).2.2.2.1
  show V c main_v29 (((cfg2.win 1).blk t).view.emb (ix2 q f)) = V c main_v29 (ix2 ⟨1000 * t.val + q.val, hr⟩ f)
  congr 1
  funext ax
  apply Fin.ext
  match ax with
  | ⟨0, _⟩ => show win2_1.index t (0 : Fin 2) * 1000 + 1 * q.val = 1000 * t.val + q.val; rw [e0]; omega
  | ⟨1, _⟩ => show win2_1.index t (1 : Fin 2) * 128 + 1 * f.val = f.val; rw [e1]; omega
theorem blk2_apply (c : Dev nD) (t : Fin cfg2.N) (q : Fin 1000) (hr : 1000 * t.val + q.val < 100000) :
    (iblk2 (F := Ideal) V c 2 t : S1000x1.Idx → _) (ix2 q (0 : Fin 1)) = aD40 V c (ix2 ⟨1000 * t.val + q.val, hr⟩ (0 : Fin 1)) := by
  have e0 : win2_2.index t (0 : Fin 2) = t.val := (idx_facts2 t).2.2.2.2.1
  have e1 : win2_2.index t (1 : Fin 2) = 0 := (idx_facts2 t).2.2.2.2.2.1
  show V c main_v40 (((cfg2.win 2).blk t).view.emb (ix2 q (0 : Fin 1))) = V c main_v40 (ix2 ⟨1000 * t.val + q.val, hr⟩ (0 : Fin 1))
  congr 1
  funext ax
  apply Fin.ext
  match ax with
  | ⟨0, _⟩ => show win2_2.index t (0 : Fin 2) * 1000 + 1 * q.val = 1000 * t.val + q.val; rw [e0]; omega
  | ⟨1, _⟩ => show win2_2.index t (1 : Fin 2) * 1 + 1 * 0 = 0; rw [e1]
theorem blk4_apply (c : Dev nD) (t : Fin cfg2.N) (q : Fin 1000) (hr : 1000 * t.val + q.val < 100000) :
    (iblk2 (F := Ideal) V c 4 t : S1000x1.Idx → _) (ix2 q (0 : Fin 1)) = aGw V c (ix2 ⟨1000 * t.val + q.val, hr⟩ (0 : Fin 1)) := by
  have e0 : win2_4.index t (0 : Fin 2) = t.val := (idx_facts2 t).2.2.2.2.2.2.2.2.1
  have e1 : win2_4.index t (1 : Fin 2) = 0 := (idx_facts2 t).2.2.2.2.2.2.2.2.2
  show V c main_v42 (((cfg2.win 4).blk t).view.emb (ix2 q (0 : Fin 1))) = V c main_v42 (ix2 ⟨1000 * t.val + q.val, hr⟩ (0 : Fin 1))
  congr 1
  funext ax
  apply Fin.ext
  match ax with
  | ⟨0, _⟩ => show win2_4.index t (0 : Fin 2) * 1000 + 1 * q.val = 1000 * t.val + q.val; rw [e0]; omega
  | ⟨1, _⟩ => show win2_4.index t (1 : Fin 2) * 1 + 1 * 0 = 0; rw [e1]
/-- The bias row's block is the bias row. -/
theorem blk3_apply (c : Dev nD) (t : Fin cfg2.N) (f : Fin 128) :
    (iblk2 (F := Ideal) V c 3 t : S1x128.Idx → _) (ix2 (0 : Fin 1) f) = aB2 V c (ix2 (0 : Fin 1) f) := by
  have e0 : win2_3.index t (0 : Fin 2) = 0 := (idx_facts2 t).2.2.2.2.2.2.1
  have e1 : win2_3.index t (1 : Fin 2) = 0 := (idx_facts2 t).2.2.2.2.2.2.2.1
  show V c main_v41 (((cfg2.win 3).blk t).view.emb (ix2 (0 : Fin 1) f)) = V c main_v41 (ix2 (0 : Fin 1) f)
  congr 1
  funext ax
  apply Fin.ext
  match ax with
  | ⟨0, _⟩ => show win2_3.index t (0 : Fin 2) * 1 + 1 * 0 = 0; rw [e0]
  | ⟨1, _⟩ => show win2_3.index t (1 : Fin 2) * 128 + 1 * f.val = f.val; rw [e1]; omega

/-! ## The accumulator as a sum over rows -/

/-- Row `r`'s contribution to entry `(g, f)` of the result: its activated entry at `f` if its graph word is `g`, else
    zero (and zero past the last row, so that sums over ranges of naturals can be split and joined). -/
def rowTerm (c : Dev nD) (g : Fin 512) (f : Fin 128) (r : ℕ) : EReal :=
  if hr : r < 100000 then
    (if aGw V c (ix2 ⟨r, hr⟩ (0 : Fin 1)) = BitVec.ofNat 32 g.val then (1 : EReal) else 0)
      * max ((aAgg2 V c (ix2 ⟨r, hr⟩ f) + aH2s V c (ix2 ⟨r, hr⟩ f)) * aD40 V c (ix2 ⟨r, hr⟩ (0 : Fin 1)) + aB2 V c (ix2 (0 : Fin 1) f)) (0 : EReal)
  else 0

/-- One point's step: the accumulator's entry grows by the contributions of the point's 1000 rows. -/
theorem acc_step (c : Dev nD) (g : Fin 512) (f : Fin 128) (t : Fin cfg2.N) (acc : Vec Ideal S512x128 .f32) :
    k2_pay2 (F := Ideal) (iblk2 V c 0 t) (iblk2 V c 1 t) (iblk2 V c 2 t) (iblk2 V c 3 t) (iblk2 V c 4 t) acc (ix2 g f)
      = acc (ix2 g f) + ∑ q ∈ Finset.range 1000, rowTerm V c g f (1000 * t.val + q) := by
  have hN : t.val < 100 := lt_of_lt_of_eq t.isLt N_2
  rw [pay2_apply, Finset.sum_range]
  congr 1
  refine Finset.sum_congr rfl fun q _ => ?_
  have hr : 1000 * t.val + q.val < 100000 := by have := q.isLt; omega
  rw [rowTerm, dif_pos hr, blk0_apply V c t q f hr, blk1_apply V c t q f hr, blk2_apply V c t q hr, blk3_apply V c t f, blk4_apply V c t q hr]

/-- The zero block the first point starts from. -/
theorem reset_apply (i : S512x128.Idx) : k2_pay1 (F := Ideal) i = 0 := by
  unfold k2_pay1
  simp only [shapeCast_self]
  exact Ideal.ofBits_zero_f32

/-- After point `n` the accumulator's entry is the sum of the contributions of rows `0 … 1000 (n + 1) - 1`: by
    induction on the point. -/
theorem accAt_eq_sum (c : Dev nD) (g : Fin 512) (f : Fin 128) : ∀ (n : ℕ) (hn : n < cfg2.N),
    accAt (F := Ideal) V c n hn (ix2 g f) = ∑ r ∈ Finset.range (1000 * (n + 1)), rowTerm V c g f r
  | 0, hn => by
    rw [accAt_zero, acc_step V c g f ⟨0, hn⟩, reset_apply, zero_add]
    refine Finset.sum_congr rfl fun q _ => ?_
    show rowTerm V c g f (1000 * 0 + q) = _
    rw [Nat.mul_zero, Nat.zero_add]
  | n + 1, hn => by
    rw [accAt_succ, acc_step V c g f ⟨n + 1, hn⟩, accAt_eq_sum c g f n (Nat.lt_of_succ_lt hn)]
    rw [show 1000 * (n + 1 + 1) = 1000 * (n + 1) + 1000 from by omega, Finset.sum_range_add]

/-- The third launch's result array after the launch: every row of the 100000, weighted one or zero by whether its graph
    word is `g`, summed. -/
theorem final2 (c : Dev nD) (g : Fin 512) (f : Fin 128) :
    res2 V c (ix2 g f)
      = ∑ r : Fin 100000,
          (if aGw V c (ix2 r (0 : Fin 1)) = BitVec.ofNat 32 g.val then (1 : EReal) else 0)
            * max ((aAgg2 V c (ix2 r f) + aH2s V c (ix2 r f)) * aD40 V c (ix2 r (0 : Fin 1)) + aB2 V c (ix2 (0 : Fin 1) f)) (0 : EReal) := by
  rw [res2_eq, accAt_eq_sum V c g f 99 lt99, show 1000 * (99 + 1) = 100000 from rfl, Finset.sum_range]
  refine Finset.sum_congr rfl fun r _ => ?_
  rw [rowTerm, dif_pos r.isLt]

end Cert.KernelIdeal.Hand

end
-- ==== Proof.KI.Plumb.lean ====
import proofs.«411983_j75668733821211_3_alg».proof.Proof.Gen.KernelIdeal.Launch
import proofs.«411983_j75668733821211_3_alg».proof.Proof.Gen.KernelIdeal.Skeleton
import proofs.«411983_j75668733821211_3_alg».proof.Proof.Gen.KernelIdeal.Points
import proofs.«411983_j75668733821211_3_alg».proof.Proof.KI.Run
import Idealize.ShloMosaic.Lib.StableHlo.Run
import Idealize.ShloMosaic.Lib.Pipeline.Value
import Idealize.ShloMosaic.Lib.ValueIdx
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # What the buffers hold at the references each launch reads (at the ideal values)

Between the items of the program a buffer no item writes keeps its contents: the argument arrays stay as launched, the
normalisation factors stay as the first stretch left them, a launch's result stays through the following stretch. The
one-column and one-row reshapes read back as the vector they reshape, and the two rows of the edge list are the source
and target words. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The argument arrays and the normalisation factors, typed as functions on their literal index sets. -/
abbrev p0 (c : Dev nD) : S100000x64.Idx → EReal := m ((c.tc : Thread nD τ).loc main_arg0)
abbrev p1 (c : Dev nD) : S2x1600000.Idx → BitVec 32 := m ((c.tc : Thread nD τ).loc main_arg1)
abbrev p2 (c : Dev nD) : S100000.Idx → BitVec 32 := m ((c.tc : Thread nD τ).loc main_arg2)
abbrev p3 (c : Dev nD) : S64x128.Idx → EReal := m ((c.tc : Thread nD τ).loc main_arg3)
abbrev p4 (c : Dev nD) : S128.Idx → EReal := m ((c.tc : Thread nD τ).loc main_arg4)
abbrev p5 (c : Dev nD) : S128x128.Idx → EReal := m ((c.tc : Thread nD τ).loc main_arg5)
abbrev p6 (c : Dev nD) : S128.Idx → EReal := m ((c.tc : Thread nD τ).loc main_arg6)
abbrev pD (c : Dev nD) : S100000.Idx → EReal := W3 m ρ c (Proc.devRef .tc main_v14)

/-! ## Buffers nothing writes, and the reshapes read at an entry -/

/-- A reference the three opening stretches do not write holds its launch contents when the first launch is entered. -/
theorem W3_kept {F : FTy → Type} [FloatOps F] (m' : (ℓ : Loc nD τ sig) → Buf (Elt F) ℓ) (ρ' : Dev nD → PrngReg)
    (c : Dev nD) (b : Ref sig .tc) (h0 : b ∉ hostOps0_W) (h01 : b ∉ hostOps0_1_W) (h02 : b ∉ hostOps0_2_W) :
    W3 m' ρ' c (Proc.devRef .tc b) = m' ((c : Thread nD τ).loc b) :=
  calc W3 m' ρ' c (Proc.devRef .tc b)
    _ = W2 m' ρ' c (Proc.devRef .tc b) := StableHlo.after_of_writes_sub hostOps0_2 _ hostOps0_2_writes h02
    _ = W1 m' ρ' c (Proc.devRef .tc b) := StableHlo.after_of_writes_sub hostOps0_1 _ hostOps0_1_writes h01
    _ = W0 m' ρ' c (Proc.devRef .tc b) := StableHlo.after_of_writes_sub hostOps0 _ hostOps0_writes h0
    _ = m' ((c : Thread nD τ).loc b) := rfl

/-- A reference the fourth stretch does not write and the first launch leaves alone is, when the second launch is
    entered, as when the first was. -/
theorem W5_kept {F : FTy → Type} [FloatOps F] (m' : (ℓ : Loc nD τ sig) → Buf (Elt F) ℓ) (ρ' : Dev nD → PrngReg)
    (c : Dev nD) (b : Ref sig .tc) (h1 : b ∉ hostOps1_W)
    (e4 : W4 m' ρ' c (Proc.devRef .tc b) = W3 m' ρ' c (Proc.devRef .tc b)) :
    W5 m' ρ' c (Proc.devRef .tc b) = W3 m' ρ' c (Proc.devRef .tc b) :=
  (StableHlo.after_of_writes_sub hostOps1 _ hostOps1_writes h1).trans e4

/-- The same up to the third launch's entry. -/
theorem W7_kept {F : FTy → Type} [FloatOps F] (m' : (ℓ : Loc nD τ sig) → Buf (Elt F) ℓ) (ρ' : Dev nD → PrngReg)
    (c : Dev nD) (b : Ref sig .tc) (h1 : b ∉ hostOps1_W) (h2 : b ∉ hostOps2_W)
    (e4 : W4 m' ρ' c (Proc.devRef .tc b) = W3 m' ρ' c (Proc.devRef .tc b))
    (e6 : W6 m' ρ' c (Proc.devRef .tc b) = W5 m' ρ' c (Proc.devRef .tc b)) :
    W7 m' ρ' c (Proc.devRef .tc b) = W3 m' ρ' c (Proc.devRef .tc b) :=
  ((StableHlo.after_of_writes_sub hostOps2 _ hostOps2_writes h2).trans e6).trans (W5_kept m' ρ' c b h1 e4)

/-- An `[a]` array cast to `[a, 1]` reads, at `(r, 0)`, the operand at `r`. -/
theorem shapeCast_a_a1_apply {α : Type} {a : ℕ} (x : (⟨1, ![a]⟩ : Shape).Idx → α) (h : (⟨1, ![a]⟩ : Shape).ShapeCasts ⟨2, ![a, 1]⟩)
    (r : Fin a) : shapeCast ⟨2, ![a, 1]⟩ x h (ix2 r (0 : Fin 1)) = x (ix1 r) :=
  shapeCast_apply x h _ _ (by
    rw [Shape.rowMajor_val_two, Shape.rowMajor_val_one]
    show r.val = r.val * 1 + 0
    omega)

/-! ## Each stretch's reshapes and slices, over any contents the stretch is entered with -/

section Stretch
variable {F : FTy → Type} [FloatOps F] (X : Valuation τ sig (Elt F))

/-- The third stretch is one reshape: the factors as a column. -/
theorem stretch02_v15 : StableHlo.after hostOps0_2 X (Proc.devRef .tc main_v15)
    = shapeCast S100000x1 (X (Proc.devRef .tc main_v14)) shapeCasts_S100000_S100000x1 := by
  after_results
  rfl

/-- The fourth stretch reshapes the factors to a column and the first bias to a row. -/
theorem stretch1_v27 : StableHlo.after hostOps1 X (Proc.devRef .tc main_v27)
    = shapeCast S100000x1 (X (Proc.devRef .tc main_v14)) shapeCasts_S100000_S100000x1 := by
  after_results
  rfl
theorem stretch1_v28 : StableHlo.after hostOps1 X (Proc.devRef .tc main_v28)
    = shapeCast S1x128 (X (Proc.devRef .tc main_arg4)) shapeCasts_S128_S1x128 := by
  after_results
  rfl

/-- The fifth stretch reshapes the factors and the graph words to columns and the second bias to a row. -/
theorem stretch2_v40 : StableHlo.after hostOps2 X (Proc.devRef .tc main_v40)
    = shapeCast S100000x1 (X (Proc.devRef .tc main_v14)) shapeCasts_S100000_S100000x1 := by
  after_results
  rfl
theorem stretch2_v41 : StableHlo.after hostOps2 X (Proc.devRef .tc main_v41)
    = shapeCast S1x128 (X (Proc.devRef .tc main_arg6)) shapeCasts_S128_S1x128 := by
  after_results
  rfl
theorem stretch2_v42 : StableHlo.after hostOps2 X (Proc.devRef .tc main_v42)
    = shapeCast S100000x1 (X (Proc.devRef .tc main_arg2)) shapeCasts_S100000_S100000x1 := by
  after_results
  rfl

/-- The first stretch cuts the edge list into its two rows and flattens each. -/
theorem stretch0_v1 : StableHlo.after hostOps0 X (Proc.devRef .tc main_v1)
    = shapeCast S1600000 (extractStridedSlice S1x1600000 ![0, 0] (X (Proc.devRef .tc main_arg1)) slices_S2x1600000_S1x1600000_0_0) shapeCasts_S1x1600000_S1600000 := by
  after_results
  rfl
theorem stretch0_v3 : StableHlo.after hostOps0 X (Proc.devRef .tc main_v3)
    = shapeCast S1600000 (extractStridedSlice S1x1600000 ![1, 0] (X (Proc.devRef .tc main_arg1)) slices_S2x1600000_S1x1600000_1_0) shapeCasts_S1x1600000_S1600000 := by
  after_results
  rfl

end Stretch

/-- The factors are written in the second stretch and by nothing after it. -/
theorem pD_eq_W2 (c : Dev nD) : W3 m ρ c (Proc.devRef .tc main_v14) = W2 m ρ c (Proc.devRef .tc main_v14) :=
  StableHlo.after_of_writes_sub hostOps0_2 _ hostOps0_2_writes (by decide)
theorem W4_factors (c : Dev nD) : W4 m ρ c (Proc.devRef .tc main_v14) = W3 m ρ c (Proc.devRef .tc main_v14) :=
  W4_of_ne m ρ c main_v14 (by decide)
theorem W6_factors (c : Dev nD) : W6 m ρ c (Proc.devRef .tc main_v14) = W3 m ρ c (Proc.devRef .tc main_v14) :=
  (W6_of_ne m ρ c main_v14 (by decide)).trans (W5_kept m ρ c main_v14 (by decide) (W4_factors m ρ c))

/-- The arguments the later stretches reshape, as launched. -/
theorem W4_arg4 (c : Dev nD) : W4 m ρ c (Proc.devRef .tc main_arg4) = m ((c.tc : Thread nD τ).loc main_arg4) :=
  (W4_of_ne m ρ c main_arg4 (by decide)).trans (W3_kept m ρ c main_arg4 (by decide) (by decide) (by decide))
theorem W6_arg6 (c : Dev nD) : W6 m ρ c (Proc.devRef .tc main_arg6) = m ((c.tc : Thread nD τ).loc main_arg6) :=
  ((W6_of_ne m ρ c main_arg6 (by decide)).trans (W5_kept m ρ c main_arg6 (by decide) (W4_of_ne m ρ c main_arg6 (by decide)))).trans
    (W3_kept m ρ c main_arg6 (by decide) (by decide) (by decide))
theorem W6_arg2 (c : Dev nD) : W6 m ρ c (Proc.devRef .tc main_arg2) = m ((c.tc : Thread nD τ).loc main_arg2) :=
  ((W6_of_ne m ρ c main_arg2 (by decide)).trans (W5_kept m ρ c main_arg2 (by decide) (W4_of_ne m ρ c main_arg2 (by decide)))).trans
    (W3_kept m ρ c main_arg2 (by decide) (by decide) (by decide))

/-- The two rows of the edge list, flattened, when the first launch is entered. -/
theorem W3_src (c : Dev nD) : W3 m ρ c (Proc.devRef .tc main_v1)
    = shapeCast S1600000 (extractStridedSlice S1x1600000 ![0, 0] (m ((c.tc : Thread nD τ).loc main_arg1)) slices_S2x1600000_S1x1600000_0_0) shapeCasts_S1x1600000_S1600000 :=
  calc W3 m ρ c (Proc.devRef .tc main_v1)
    _ = W2 m ρ c (Proc.devRef .tc main_v1) := StableHlo.after_of_writes_sub hostOps0_2 _ hostOps0_2_writes (by decide)
    _ = W1 m ρ c (Proc.devRef .tc main_v1) := StableHlo.after_of_writes_sub hostOps0_1 _ hostOps0_1_writes (by decide)
    _ = _ := stretch0_v1 (W0 m ρ c)
theorem W3_tgt (c : Dev nD) : W3 m ρ c (Proc.devRef .tc main_v3)
    = shapeCast S1600000 (extractStridedSlice S1x1600000 ![1, 0] (m ((c.tc : Thread nD τ).loc main_arg1)) slices_S2x1600000_S1x1600000_1_0) shapeCasts_S1x1600000_S1600000 :=
  calc W3 m ρ c (Proc.devRef .tc main_v3)
    _ = W2 m ρ c (Proc.devRef .tc main_v3) := StableHlo.after_of_writes_sub hostOps0_2 _ hostOps0_2_writes (by decide)
    _ = W1 m ρ c (Proc.devRef .tc main_v3) := StableHlo.after_of_writes_sub hostOps0_1 _ hostOps0_1_writes (by decide)
    _ = _ := stretch0_v3 (W0 m ρ c)

/-- A flattened row of the edge list read at an edge: that row of the list at the edge. -/
theorem row0_apply (x : S2x1600000.Idx → BitVec 32) (e : Fin 1600000) :
    shapeCast S1600000 (extractStridedSlice S1x1600000 ![0, 0] x slices_S2x1600000_S1x1600000_0_0) shapeCasts_S1x1600000_S1600000 (ix1 e)
      = x (ix2 (0 : Fin 2) e) :=
  (shapeCast_1a_a_apply (a := 1600000) _ _ e).trans
    (extractStridedSlice_apply ![0, 0] x slices_S2x1600000_S1x1600000_0_0 (ix2 (0 : Fin 1) e) (ix2 (0 : Fin 2) e) fun a => match a with
      | ⟨0, _⟩ => by show 0 = 0 + 0; rfl
      | ⟨1, _⟩ => by show e.val = 0 + e.val; omega)
theorem row1_apply (x : S2x1600000.Idx → BitVec 32) (e : Fin 1600000) :
    shapeCast S1600000 (extractStridedSlice S1x1600000 ![1, 0] x slices_S2x1600000_S1x1600000_1_0) shapeCasts_S1x1600000_S1600000 (ix1 e)
      = x (ix2 (1 : Fin 2) e) :=
  (shapeCast_1a_a_apply (a := 1600000) _ _ e).trans
    (extractStridedSlice_apply ![1, 0] x slices_S2x1600000_S1x1600000_1_0 (ix2 (0 : Fin 1) e) (ix2 (1 : Fin 2) e) fun a => match a with
      | ⟨0, _⟩ => by show 1 = 1 + 0; rfl
      | ⟨1, _⟩ => by show e.val = 0 + e.val; omega)

/-- What the first launch reads. -/
theorem in0_x (c : Dev nD) : (V3 m ρ c main_arg0 : S100000x64.Idx → EReal) = p0 m c :=
  W3_kept m ρ c main_arg0 (by decide) (by decide) (by decide)
theorem in0_d (c : Dev nD) (r : Fin 100000) : (V3 m ρ c main_v15 : S100000x1.Idx → EReal) (ix2 r (0 : Fin 1)) = pD m ρ c (ix1 r) := by
  show W3 m ρ c (Proc.devRef .tc main_v15) (ix2 r (0 : Fin 1)) = W3 m ρ c (Proc.devRef .tc main_v14) (ix1 r)
  rw [show W3 m ρ c (Proc.devRef .tc main_v15) = _ from stretch02_v15 (W2 m ρ c), pD_eq_W2]
  exact shapeCast_a_a1_apply _ _ r
/-- The edge words as the first launch leaves the buffers. -/
theorem words4_src (c : Dev nD) (e : Fin 1600000) : (W4 m ρ c (Proc.devRef .tc main_v1) : S1600000.Idx → BitVec 32) (ix1 e) = p1 m c (ix2 (0 : Fin 2) e) := by
  rw [W4_of_ne m ρ c main_v1 (by decide), W3_src]
  exact row0_apply _ e
theorem words4_tgt (c : Dev nD) (e : Fin 1600000) : (W4 m ρ c (Proc.devRef .tc main_v3) : S1600000.Idx → BitVec 32) (ix1 e) = p1 m c (ix2 (1 : Fin 2) e) := by
  rw [W4_of_ne m ρ c main_v3 (by decide), W3_tgt]
  exact row1_apply _ e
/-- What the second launch reads besides the aggregation. -/
theorem in1_xs (c : Dev nD) : V5 m ρ c main_v16 = W4 m ρ c (Proc.devRef .tc main_v16) :=
  StableHlo.after_of_writes_sub hostOps1 _ hostOps1_writes (by decide)
theorem in1_d (c : Dev nD) (r : Fin 100000) : (V5 m ρ c main_v27 : S100000x1.Idx → EReal) (ix2 r (0 : Fin 1)) = pD m ρ c (ix1 r) := by
  show W5 m ρ c (Proc.devRef .tc main_v27) (ix2 r (0 : Fin 1)) = W3 m ρ c (Proc.devRef .tc main_v14) (ix1 r)
  rw [show W5 m ρ c (Proc.devRef .tc main_v27) = _ from stretch1_v27 (W4 m ρ c), W4_factors]
  exact shapeCast_a_a1_apply _ _ r
theorem in1_b (c : Dev nD) (j : Fin 128) : (V5 m ρ c main_v28 : S1x128.Idx → EReal) (ix2 (0 : Fin 1) j) = p4 m c (ix1 j) := by
  show W5 m ρ c (Proc.devRef .tc main_v28) (ix2 (0 : Fin 1) j) = m ((c.tc : Thread nD τ).loc main_arg4) (ix1 j)
  rw [show W5 m ρ c (Proc.devRef .tc main_v28) = _ from stretch1_v28 (W4 m ρ c), W4_arg4]
  exact shapeCast_a_1a_apply _ _ (0 : Fin 1) j
theorem in1_w1 (c : Dev nD) : (V5 m ρ c main_arg3 : S64x128.Idx → EReal) = p3 m c :=
  (W5_kept m ρ c main_arg3 (by decide) (W4_of_ne m ρ c main_arg3 (by decide))).trans (W3_kept m ρ c main_arg3 (by decide) (by decide) (by decide))
theorem in1_w2 (c : Dev nD) : (V5 m ρ c main_arg5 : S128x128.Idx → EReal) = p5 m c :=
  (W5_kept m ρ c main_arg5 (by decide) (W4_of_ne m ρ c main_arg5 (by decide))).trans (W3_kept m ρ c main_arg5 (by decide) (by decide) (by decide))
/-- The edge words as the second launch leaves the buffers. -/
theorem words6_src (c : Dev nD) (e : Fin 1600000) : (W6 m ρ c (Proc.devRef .tc main_v1) : S1600000.Idx → BitVec 32) (ix1 e) = p1 m c (ix2 (0 : Fin 2) e) := by
  rw [W6_of_ne m ρ c main_v1 (by decide), show W5 m ρ c (Proc.devRef .tc main_v1) = W4 m ρ c (Proc.devRef .tc main_v1) from
    StableHlo.after_of_writes_sub hostOps1 _ hostOps1_writes (by decide)]
  exact words4_src m ρ c e
theorem words6_tgt (c : Dev nD) (e : Fin 1600000) : (W6 m ρ c (Proc.devRef .tc main_v3) : S1600000.Idx → BitVec 32) (ix1 e) = p1 m c (ix2 (1 : Fin 2) e) := by
  rw [W6_of_ne m ρ c main_v3 (by decide), show W5 m ρ c (Proc.devRef .tc main_v3) = W4 m ρ c (Proc.devRef .tc main_v3) from
    StableHlo.after_of_writes_sub hostOps1 _ hostOps1_writes (by decide)]
  exact words4_tgt m ρ c e
/-- What the third launch reads besides the aggregation. -/
theorem in2_hs (c : Dev nD) : V7 m ρ c main_v29 = W6 m ρ c (Proc.devRef .tc main_v29) :=
  StableHlo.after_of_writes_sub hostOps2 _ hostOps2_writes (by decide)
theorem in2_d (c : Dev nD) (r : Fin 100000) : (V7 m ρ c main_v40 : S100000x1.Idx → EReal) (ix2 r (0 : Fin 1)) = pD m ρ c (ix1 r) := by
  show W7 m ρ c (Proc.devRef .tc main_v40) (ix2 r (0 : Fin 1)) = W3 m ρ c (Proc.devRef .tc main_v14) (ix1 r)
  rw [show W7 m ρ c (Proc.devRef .tc main_v40) = _ from stretch2_v40 (W6 m ρ c), W6_factors]
  exact shapeCast_a_a1_apply _ _ r
theorem in2_b (c : Dev nD) (f : Fin 128) : (V7 m ρ c main_v41 : S1x128.Idx → EReal) (ix2 (0 : Fin 1) f) = p6 m c (ix1 f) := by
  show W7 m ρ c (Proc.devRef .tc main_v41) (ix2 (0 : Fin 1) f) = m ((c.tc : Thread nD τ).loc main_arg6) (ix1 f)
  rw [show W7 m ρ c (Proc.devRef .tc main_v41) = _ from stretch2_v41 (W6 m ρ c), W6_arg6]
  exact shapeCast_a_1a_apply _ _ (0 : Fin 1) f
theorem in2_g (c : Dev nD) (r : Fin 100000) : (V7 m ρ c main_v42 : S100000x1.Idx → BitVec 32) (ix2 r (0 : Fin 1)) = p2 m c (ix1 r) := by
  show W7 m ρ c (Proc.devRef .tc main_v42) (ix2 r (0 : Fin 1)) = m ((c.tc : Thread nD τ).loc main_arg2) (ix1 r)
  rw [show W7 m ρ c (Proc.devRef .tc main_v42) = _ from stretch2_v42 (W6 m ρ c), W6_arg2]
  exact shapeCast_a_a1_apply _ _ r

end Cert.KernelIdeal.Hand

end
-- ==== Proof.LibGraphRows.lean ====
import Idealize.ShloMosaic.PureOps.Ideal
import Idealize.ShloMosaic.PureOps.Ideal.Laws
import Idealize.ShloMosaic.Lib.ValueIdx

/-!
# Host indexing operations of a graph aggregation, read at an index

A row scatter-add, a row gather, two index vectors joined, an iota, the wrap of a negative index and a column broadcast,
each read at one element: which update rows land on a given row, and which row a gather reads.
-/

noncomputable section

open scoped BigOperators

namespace GraphRows

open Idealize.ShloMosaic Idealize.ShloMosaic.ValueIdx

/-- The row an index word names in an array of `n` rows: the word read as a signed integer, when it lies in `[0, n)`;
    a scatter drops an update whose word names no row. -/
def rowOf (n : Nat) (v : BitVec 32) : Option (Fin n) :=
  if h : 0 ≤ v.toInt ∧ v.toInt < n then some ⟨v.toInt.toNat, by omega⟩ else none

/-- The row a gather reads for an index word: the signed value clamped into `[0, n - 1]`. -/
def clampRow (n : Nat) (hn : 0 < n) (v : BitVec 32) : Fin n := ⟨min v.toInt.toNat (n - 1), by omega⟩

/-- The wrap of a negative index as the array indexing prints it: a word below zero (signed) has `n` added. -/
def wrapIdx (n : Nat) (v : BitVec 32) : BitVec 32 :=
  Scalar.select (Scalar.cmpi .slt v 0#32) (v + BitVec.ofNat 32 n) v

/-- A word names row `i` exactly when its signed value is `i`. -/
theorem rowOf_eq_some_iff {n : Nat} (v : BitVec 32) (i : Fin n) : rowOf n v = some i ↔ v.toInt = (i.val : Int) := by
  unfold rowOf
  constructor
  · intro h
    split at h
    · have h2 : v.toInt.toNat = i.val := congrArg Fin.val (Option.some.inj h)
      omega
    · exact absurd h (by simp)
  · intro h
    have hi := i.isLt
    rw [dif_pos (by omega)]
    congr 1
    exact Fin.ext (by simp [h])

/-! ## Where a scatter's update lands -/

/-- An update index lands on element `i` exactly when, on every axis, the signed start plus the window coordinate is
    `i`'s coordinate: the sum is then inside the operand, and outside it the update is dropped. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro hs a
      have h1 := congrFun (Option.some.inj hs) a
      have h2 := congrArg Fin.val h1
      simp only at h2
      have := h a
      omega
    · intro hs
      congr 1
      funext a
      refine Fin.ext ?_
      have := hs a
      have := h a
      simp only
      omega
  · rename_i h
    constructor
    · intro hs; exact absurd hs (by simp)
    · intro hs
      exfalso; apply h
      intro a
      have := hs a
      have := (i a).isLt
      omega

/-- A rank-1 index set is its one coordinate range … -/
def idx1Equiv {n : Nat} : (⟨1, ![n]⟩ : Shape).Idx ≃ Fin n where
  toFun j := j 0
  invFun a := ix1 a
  left_inv j := (eq_ix1 j).symm
  right_inv _ := rfl
/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idx1Equiv (n := n)).symm f]
  rfl

/-! ## A scatter-add of rows: `x.at[idx].add(upd)` for `x : [N, Fd]`, `idx : [E]` (as `[E, 1]`), `upd : [E, Fd]`

Update row `e` is added to the row of `x` that the index word `idx[e, 0]` names; the feature axis is the window. -/

/-- The scatter's dimension numbers: the updates' axis 1 is the window, the operand's axis 0 is inserted and is the one the
    index word addresses, the index vector lies along axis 1 of the indices. -/
def rowScatter (N E Fd : Nat) (wf : ScatterDims.WF ⟨2, ![N, Fd]⟩ ⟨2, ![E, 1]⟩ ⟨2, ![E, Fd]⟩ [1] [0] [0] 1) :
    ScatterDims ⟨2, ![N, Fd]⟩ ⟨2, ![E, 1]⟩ ⟨2, ![E, Fd]⟩ :=
  { updateWindowDims := [1], insertedWindowDims := [0], scatterDimsToOperandDims := [0], indexVectorDim := 1, wf := wf }

/-- On the row axis the start of update `(e, g)` is the signed value of the index word `idx[e, 0]` … -/
theorem rowScatter_start0 {N E Fd : Nat} (wf) (idx : IVec ⟨2, ![E, 1]⟩ 32) (j : (⟨2, ![E, Fd]⟩ : Shape).Idx) :
    (rowScatter N E Fd wf).start j idx 0 = (idx (ix2 (j 0) 0)).toInt := by
  unfold ScatterDims.start
  rw [dif_pos (show (0 : Fin 2) ∈ (rowScatter N E Fd wf).scatterDimsToOperandDims from List.mem_singleton.mpr rfl)]
  have hsi : (rowScatter N E Fd wf).siIdx j ⟨List.idxOf (0 : Fin 2) (rowScatter N E Fd wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]; rfl

/-- … and on the feature axis, which no index word addresses, it is `0`. -/
theorem rowScatter_start1 {N E Fd : Nat} (wf) (idx : IVec ⟨2, ![E, 1]⟩ 32) (j : (⟨2, ![E, Fd]⟩ : Shape).Idx) :
    (rowScatter N E Fd wf).start j idx 1 = 0 := by
  unfold ScatterDims.start
  rw [dif_neg (by show (1 : Fin 2) ∉ [(0 : Fin 2)]; decide)]

/-- The window coordinate is `0` on the (inserted) row axis … -/
theorem rowScatter_window0 {N E Fd : Nat} (wf) (j : (⟨2, ![E, Fd]⟩ : Shape).Idx) :
    (rowScatter N E Fd wf).window j 0 = 0 := by
  unfold ScatterDims.window
  rw [dif_neg (by show (0 : Fin 2) ∉ (List.finRange 2).filter (· ∉ [(0 : Fin 2)]); decide)]

/-- … and the update's feature coordinate on the feature axis. -/
theorem rowScatter_window1 {N E Fd : Nat} (wf) (j : (⟨2, ![E, Fd]⟩ : Shape).Idx) :
    (rowScatter N E Fd wf).window j 1 = (j 1).val := by
  unfold ScatterDims.window
  rw [dif_pos (by show (1 : Fin 2) ∈ (List.finRange 2).filter (· ∉ [(0 : Fin 2)]); decide)]
  rfl

/-- Update element `(e, g)` lands on `(i, f)` exactly when the index word of row `e` names row `i` and `g = f`. -/
theorem rowScatter_resultIdx_iff {N E Fd : Nat} (wf) (idx : IVec ⟨2, ![E, 1]⟩ 32) (e : Fin E) (g : Fin Fd) (i : Fin N)
    (f : Fin Fd) :
    (rowScatter N E Fd wf).resultIdx? (ix2 e g) idx = some (ix2 i f) ↔ rowOf N (idx (ix2 e 0)) = some i ∧ g = f := by
  rw [resultIdx?_eq_some_iff, Fin.forall_fin_two, rowScatter_start0, rowScatter_start1, rowScatter_window0, rowScatter_window1,
    rowOf_eq_some_iff]
  show (idx (ix2 e 0)).toInt + ((0 : Nat) : Int) = (i.val : Int) ∧ (0 : Int) + (g.val : Int) = (f.val : Int) ↔ _
  constructor
  · rintro ⟨h1, h2⟩
    exact ⟨by omega, Fin.ext (by omega)⟩
  · rintro ⟨h1, h2⟩
    subst h2
    exact ⟨by omega, by omega⟩

/-- THE ROW SCATTER-ADD READ AT `(i, f)`: the operand's element plus the sum, over the update rows `e` whose index word
    names row `i`, of the update's element `(e, f)`. The sum over update indices `(e, g)` splits into the rows and the
    features; within a row only `g = f` lands on column `f`. -/
theorem scatterAdd_rows_apply {N E Fd : Nat} (wf) (x : (⟨2, ![N, Fd]⟩ : Shape).Idx → EReal) (idx : IVec ⟨2, ![E, 1]⟩ 32)
    (upd : (⟨2, ![E, Fd]⟩ : Shape).Idx → EReal) (i : Fin N) (f : Fin Fd) :
    Ideal.hostScatterAdd (rowScatter N E Fd wf) x idx upd (ix2 i f)
      = x (ix2 i f) + ∑ e ∈ Finset.univ.filter (fun e : Fin E => rowOf N (idx (ix2 e 0)) = some i), upd (ix2 e f) := by
  unfold Ideal.hostScatterAdd
  congr 1
  rw [Finset.sum_filter, sum_idx2, Finset.sum_filter]
  refine Finset.sum_congr rfl fun e _ => ?_
  simp only [rowScatter_resultIdx_iff]
  by_cases h : rowOf N (idx (ix2 e 0)) = some i
  · simp only [h, true_and, if_true]
    rw [Finset.sum_ite_eq']
    simp
  · simp [h]

/-! ## A scatter-add of scalars: `x.at[idx].add(upd)` for `x : [N]`, `idx : [E]` (as `[E, 1]`), `upd : [E]` -/

/-- The scatter's dimension numbers: no window axis, the operand's one axis inserted and addressed by the index word. -/
def vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

/-- The start of update `e` is the signed value of the index word `idx[e, 0]` … -/
theorem vecScatter_start0 {N E : Nat} (wf) (idx : IVec ⟨2, ![E, 1]⟩ 32) (j : (⟨1, ![E]⟩ : Shape).Idx) :
    (vecScatter N E wf).start j idx 0 = (idx (ix2 (j 0) 0)).toInt := by
  unfold ScatterDims.start
  rw [dif_pos (show (0 : Fin 1) ∈ (vecScatter N E wf).scatterDimsToOperandDims from List.mem_singleton.mpr rfl)]
  have hsi : (vecScatter N E wf).siIdx j ⟨List.idxOf (0 : Fin 1) (vecScatter N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]; rfl

/-- … and there is no window: its coordinate on the one (inserted) axis is `0`. -/
theorem vecScatter_window0 {N E : Nat} (wf) (j : (⟨1, ![E]⟩ : Shape).Idx) :
    (vecScatter N E wf).window j 0 = 0 := by
  unfold ScatterDims.window
  rw [dif_neg (by show (0 : Fin 1) ∉ (List.finRange 1).filter (· ∉ [(0 : Fin 1)]); decide)]

/-- Update `e` lands on element `i` exactly when its index word names `i`. -/
theorem vecScatter_resultIdx_iff {N E : Nat} (wf) (idx : IVec ⟨2, ![E, 1]⟩ 32) (e : Fin E) (i : Fin N) :
    (vecScatter N E wf).resultIdx? (ix1 e) idx = some (ix1 i) ↔ rowOf N (idx (ix2 e 0)) = some i := by
  rw [resultIdx?_eq_some_iff, Fin.forall_fin_one, vecScatter_start0, vecScatter_window0, rowOf_eq_some_iff]
  show (idx (ix2 e 0)).toInt + ((0 : Nat) : Int) = (i.val : Int) ↔ _
  constructor
  · intro h1; omega
  · intro h1; omega

/-- THE SCALAR SCATTER-ADD READ AT `i`: the operand's element plus the sum of the updates whose index word names `i`. -/
theorem scatterAdd_vec_apply {N E : Nat} (wf) (x : (⟨1, ![N]⟩ : Shape).Idx → EReal) (idx : IVec ⟨2, ![E, 1]⟩ 32)
    (upd : (⟨1, ![E]⟩ : Shape).Idx → EReal) (i : Fin N) :
    Ideal.hostScatterAdd (vecScatter N E wf) x idx upd (ix1 i)
      = x (ix1 i) + ∑ e ∈ Finset.univ.filter (fun e : Fin E => rowOf N (idx (ix2 e 0)) = some i), upd (ix1 e) := by
  unfold Ideal.hostScatterAdd
  congr 1
  rw [Finset.sum_filter, sum_idx1, Finset.sum_filter]
  refine Finset.sum_congr rfl fun e _ => ?_
  simp only [vecScatter_resultIdx_iff]

/-! ## A gather of rows: `x[idx]` for `x : [N, Fd]`, `idx : [E]` (as `[E, 1]`), the result `[E, Fd]`

Result row `e` is the row of `x` at the index word `idx[e, 0]`, read signed and clamped into `[0, N - 1]` (the slice is
one row, so the start may go up to `N - 1`). -/

/-- The gather's dimension numbers: the result's axis 1 is the offset axis (the whole feature axis is sliced), the
    operand's axis 0 is collapsed and is the one the index word addresses. -/
def rowGather (N E Fd : Nat) (wf : GatherDims.WF ⟨2, ![N, Fd]⟩ ⟨2, ![E, 1]⟩ ⟨2, ![E, Fd]⟩ [1] [0] [] [0] [] 1 ![1, Fd]) :
    GatherDims ⟨2, ![N, Fd]⟩ ⟨2, ![E, 1]⟩ ⟨2, ![E, Fd]⟩ :=
  { offsetDims := [1], collapsedSliceDims := [0], operandBatchingDims := [], startIndicesBatchingDims := [],
    startIndexMap := [0], indexVectorDim := 1, sliceSizes := ![1, Fd], wf := wf }

/-- The operand row result element `(e, f)` reads: the clamped start alone (no batching, and a collapsed axis has no
    offset). -/
theorem rowGather_operand0 {N E Fd : Nat} (wf) (idx : IVec ⟨2, ![E, 1]⟩ 32) (e : Fin E) (f : Fin Fd) :
    ((rowGather N E Fd wf).operandIdx (ix2 e f) idx 0).val = min (idx (ix2 e 0)).toInt.toNat (N - 1) := by
  show (rowGather N E Fd wf).start (ix2 e f) idx 0 + (rowGather N E Fd wf).batchCoord (ix2 e f) 0
    + (rowGather N E Fd wf).offCoord (ix2 e f) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 2) ∈ (rowGather N E Fd wf).startIndexMap from List.mem_singleton.mpr rfl)]
  have hsi : (rowGather N E Fd wf).siIdx (ix2 e f) ⟨List.idxOf (0 : Fin 2) (rowGather N E Fd wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The operand column it reads: its own feature coordinate (the start is `0` on an axis no index word addresses, and
    the offset coordinate is the result's on the offset axis). -/
theorem rowGather_operand1 {N E Fd : Nat} (wf) (idx : IVec ⟨2, ![E, 1]⟩ 32) (e : Fin E) (f : Fin Fd) :
    ((rowGather N E Fd wf).operandIdx (ix2 e f) idx 1).val = f.val := by
  show (rowGather N E Fd wf).start (ix2 e f) idx 1 + (rowGather N E Fd wf).batchCoord (ix2 e f) 1
    + (rowGather N E Fd wf).offCoord (ix2 e f) 1 = _
  rw [GatherDims.batchCoord_eq_zero _ _ _ List.not_mem_nil, Nat.add_zero]
  unfold GatherDims.start
  rw [dif_neg (by show (1 : Fin 2) ∉ [(0 : Fin 2)]; decide), Nat.zero_add]
  unfold GatherDims.offCoord
  rw [dif_pos (by show (1 : Fin 2) ∈ (List.finRange 2).filter (· ∉ [(0 : Fin 2)] ++ []); decide)]
  rfl

/-- THE ROW GATHER READ AT `(e, f)`: the operand at the clamped row of the index word `idx[e, 0]`, column `f`. -/
theorem gather_rows_apply {α : Type} {N E Fd : Nat} (hN : 0 < N) (wf) (x : (⟨2, ![N, Fd]⟩ : Shape).Idx → α)
    (idx : IVec ⟨2, ![E, 1]⟩ 32) (e : Fin E) (f : Fin Fd) :
    Host.gather (rowGather N E Fd wf) x idx (ix2 e f) = x (ix2 (clampRow N hN (idx (ix2 e 0))) f) := by
  unfold Host.gather
  congr 1
  funext a
  refine Fin.ext ?_
  match a with
  | ⟨0, _⟩ => exact rowGather_operand0 wf idx e f
  | ⟨1, _⟩ => exact rowGather_operand1 wf idx e f

/-! ## A gather of scalars: `x[idx]` for `x : [N]`, `idx : [E]` (as `[E, 1]`), the result `[E]` -/

/-- The gather's dimension numbers: no offset axis, the operand's one axis collapsed and addressed by the index word. -/
def vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- THE SCALAR GATHER READ AT `e`: the operand at the clamped row of the index word `idx[e, 0]`. -/
theorem gather_vec_apply {α : Type} {N E : Nat} (hN : 0 < N) (wf) (x : (⟨1, ![N]⟩ : Shape).Idx → α)
    (idx : IVec ⟨2, ![E, 1]⟩ 32) (e : Fin E) :
    Host.gather (vecGather N E wf) x idx (ix1 e) = x (ix1 (clampRow N hN (idx (ix2 e 0)))) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The printed form of the row scatter-add (the host operation at the ideal floats) is that sum. -/
theorem hostScatterAdd_rows_apply {φ : FTy} {N E Fd : Nat} (wf) (x : FVec Ideal ⟨2, ![N, Fd]⟩ φ) (idx : IVec ⟨2, ![E, 1]⟩ 32)
    (upd : FVec Ideal ⟨2, ![E, Fd]⟩ φ) (i : Fin N) (f : Fin Fd) :
    Host.scatterAdd (rowScatter N E Fd wf) x idx upd (ix2 i f)
      = x (ix2 i f) + ∑ e ∈ Finset.univ.filter (fun e : Fin E => rowOf N (idx (ix2 e 0)) = some i), upd (ix2 e f) :=
  scatterAdd_rows_apply wf x idx upd i f

/-- The printed form of the scalar scatter-add is that sum. -/
theorem hostScatterAdd_vec_apply {φ : FTy} {N E : Nat} (wf) (x : FVec Ideal ⟨1, ![N]⟩ φ) (idx : IVec ⟨2, ![E, 1]⟩ 32)
    (upd : FVec Ideal ⟨1, ![E]⟩ φ) (i : Fin N) :
    Host.scatterAdd (vecScatter N E wf) x idx upd (ix1 i)
      = x (ix1 i) + ∑ e ∈ Finset.univ.filter (fun e : Fin E => rowOf N (idx (ix2 e 0)) = some i), upd (ix1 e) :=
  scatterAdd_vec_apply wf x idx upd i

/-! ## The layout operations around the indices: a column broadcast, two index vectors joined, an iota -/

/-- The column broadcast `[E] → [E, 1]` read at `(e, 0)`: the vector's element `e` (when `E = 1` the broadcast reads
    coordinate `0`, which is `e`). -/
theorem bcastCol_apply {α : Type} {E : Nat} (h : (⟨1, ![E]⟩ : Shape).BroadcastsInDim ⟨2, ![E, 1]⟩ ![0])
    (v : (⟨1, ![E]⟩ : Shape).Idx → α) (e : Fin E) (z : Fin 1) :
    broadcastInDim (⟨2, ![E, 1]⟩ : Shape) ![0] h v (ix2 e z) = v (ix1 e) := by
  unfold broadcastInDim
  congr 1
  funext a
  obtain rfl : a = 0 := Subsingleton.elim _ _
  refine Fin.ext ?_
  split
  · rename_i h1
    have h2 : E = 1 := h1
    have := e.isLt
    show 0 = e.val
    omega
  · rfl

/-- An iota along the one axis of a vector reads its coordinate as a word. -/
theorem iota_apply {n : Nat} (k : Fin n) : iotaInDim (⟨1, ![n]⟩ : Shape) 32 0 (ix1 k) = BitVec.ofNat 32 k.val := rfl

/-- Two vectors laid end to end have the sum of the extents. -/
theorem concat2_extent {A B C : Nat} (h : Shape.Concatenates [(⟨1, ![A]⟩ : Shape), ⟨1, ![B]⟩] ⟨1, ![C]⟩ 0) : A + B = C := by
  have := h.2.2
  simpa using this

/-- Where a position below the first of two extents falls: in the first piece, at that position. -/
theorem locate_two_lt (n₁ n₂ c : Nat) (h : c < [n₁, n₂].sum) (hc : c < n₁) :
    locate [n₁, n₂] c h = ⟨⟨0, Nat.zero_lt_succ _⟩, ⟨c, hc⟩⟩ := by
  rw [locate, dif_pos hc]

/-- Where a position at or past the first of two extents falls: in the second piece, the first extent less. -/
theorem locate_two_ge (n₁ n₂ c : Nat) (h : c < [n₁, n₂].sum) (hc : ¬ c < n₁) (h2 : c - n₁ < n₂) :
    locate [n₁, n₂] c h = ⟨⟨1, Nat.succ_lt_succ (Nat.zero_lt_succ _)⟩, ⟨c - n₁, h2⟩⟩ := by
  rw [locate, dif_neg hc, locate, dif_pos h2]
  rfl

/-- TWO VECTORS JOINED, READ AT `k`: the first `A` entries are the first vector's, entry `k ≥ A` is the second's at
    `k - A`. The position `k` is located among the extents `[A, B]`; the piece it falls in is read at the located
    position, the only coordinate a vector has. -/
theorem concat2_apply {α : Type} {A B C : Nat}
    (h : Shape.Concatenates [(⟨1, ![A]⟩ : Shape), ⟨1, ![B]⟩] ⟨1, ![C]⟩ 0)
    (a : (⟨1, ![A]⟩ : Shape).Idx → α) (b : (⟨1, ![B]⟩ : Shape).Idx → α) (k : Fin C) :
    concatenate (⟨1, ![C]⟩ : Shape) 0 [⟨⟨1, ![A]⟩, a⟩, ⟨⟨1, ![B]⟩, b⟩] h (ix1 k)
      = if hk : k.val < A then a (ix1 ⟨k.val, hk⟩)
        else b (ix1 ⟨k.val - A, by have := k.isLt; have := concat2_extent h; omega⟩) := by
  have hAB := concat2_extent h
  have hkC := k.isLt
  unfold concatenate
  dsimp only
  -- every proof the definition carries becomes a hypothesis, so that the located position can be named
  generalize_proofs
  generalize hloc : locate _ _ _ = kr at *
  by_cases hc : k.val < A
  · have hkr : kr = ⟨⟨0, by simp⟩, ⟨k.val, hc⟩⟩ := by
      rw [← hloc]
      exact locate_two_lt A B k.val _ hc
    subst hkr
    rw [dif_pos hc]
    show a _ = a _
    congr 1
    funext b'
    have hb' : b' = ⟨0, Nat.one_pos⟩ := Fin.ext (by have : b'.val < 1 := b'.isLt; omega)
    subst hb'
    refine Fin.ext ?_
    split
    · rfl
    · rename_i hnb
      exact absurd rfl hnb
  · have h2 : k.val - A < B := by omega
    have hkr : kr = ⟨⟨1, by simp⟩, ⟨k.val - A, h2⟩⟩ := by
      rw [← hloc]
      exact locate_two_ge A B k.val _ hc h2
    subst hkr
    rw [dif_neg hc]
    show b _ = b _
    congr 1
    funext b'
    have hb' : b' = ⟨0, Nat.one_pos⟩ := Fin.ext (by have : b'.val < 1 := b'.isLt; omega)
    subst hb'
    refine Fin.ext ?_
    split
    · rfl
    · rename_i hnb
      exact absurd rfl hnb

/-! ## Index words: the word of a row number, and the wrap of a negative index -/

/-- The word of a natural below `2^31` reads back, signed, as that natural. -/
theorem toInt_ofNat_lt {m : Nat} (h : m < 2 ^ 31) : (BitVec.ofNat 32 m).toInt = (m : Int) := by
  rw [BitVec.toInt_eq_toNat_cond, BitVec.toNat_ofNat]
  have hm : m % 2 ^ 32 = m := Nat.mod_eq_of_lt (by omega)
  rw [hm]
  split <;> omega

/-- The wrap as the vector operations leave it at an index: a signed comparison with zero, an addition, a select. -/
theorem wrapIdx_eq_intOp (n : Nat) (v : BitVec 32) :
    Scalar.select (IntOp.cmpi .slt v 0#32) (IntOp.addi v (BitVec.ofNat 32 n)) v = wrapIdx n v := rfl

/-- A word that is not negative (signed) is not wrapped. -/
theorem wrapIdx_of_nonneg {n : Nat} (v : BitVec 32) (h : 0 ≤ v.toInt) : wrapIdx n v = v := by
  have hs : v.slt 0#32 = false := by
    rw [BitVec.slt]
    simp
    omega
  unfold wrapIdx Scalar.cmpi IntOp.cmpi
  simp only [hs]
  exact select_zero _ _

/-- A word that names row `i` is not wrapped, and the gather's clamp of it is `i`. -/
theorem clampRow_wrap_of_rowOf {n : Nat} (hn : 0 < n) (hn31 : n < 2 ^ 31) (v : BitVec 32) (i : Fin n)
    (h : rowOf n v = some i) : clampRow n hn (wrapIdx n v) = i := by
  have hv := (rowOf_eq_some_iff v i).1 h
  rw [wrapIdx_of_nonneg v (by omega)]
  refine Fin.ext ?_
  show min v.toInt.toNat (n - 1) = i.val
  have := i.isLt
  omega

/-- The word of row number `j` names row `i` exactly when `j = i` (for fewer than `2^31` rows). -/
theorem rowOf_ofNat {n : Nat} (hn31 : n < 2 ^ 31) (j i : Fin n) : rowOf n (BitVec.ofNat 32 j.val) = some i ↔ j = i := by
  rw [rowOf_eq_some_iff, toInt_ofNat_lt (by have := j.isLt; omega)]
  constructor
  · intro h; exact Fin.ext (by omega)
  · intro h; subst h; rfl

/-- The gather's clamp of the word of row number `j` is `j`. -/
theorem clampRow_ofNat {n : Nat} (hn : 0 < n) (hn31 : n < 2 ^ 31) (j : Fin n) : clampRow n hn (BitVec.ofNat 32 j.val) = j := by
  refine Fin.ext ?_
  show min (BitVec.ofNat 32 j.val).toInt.toNat (n - 1) = j.val
  rw [toInt_ofNat_lt (by have := j.isLt; omega)]
  have := j.isLt
  omega

/-- The same through the wrap: the word of a row number is not negative. -/
theorem clampRow_wrap_ofNat {n : Nat} (hn : 0 < n) (hn31 : n < 2 ^ 31) (j : Fin n) :
    clampRow n hn (wrapIdx n (BitVec.ofNat 32 j.val)) = j := by
  rw [wrapIdx_of_nonneg _ (by rw [toInt_ofNat_lt (by have := j.isLt; omega)]; omega)]
  exact clampRow_ofNat hn hn31 j

/-- A word is the word of row number `g` exactly when it names row `g`. -/
theorem ofNat_eq_iff_rowOf {n : Nat} (hn31 : n < 2 ^ 31) (v : BitVec 32) (g : Fin n) :
    v = BitVec.ofNat 32 g.val ↔ rowOf n v = some g := by
  constructor
  · intro h; subst h; exact (rowOf_ofNat hn31 g g).2 rfl
  · intro h
    have hv := (rowOf_eq_some_iff v g).1 h
    apply BitVec.eq_of_toInt_eq
    rw [hv, toInt_ofNat_lt (by have := g.isLt; omega)]

end GraphRows

end
-- ==== Proof.KI.Agg.lean ====
import proofs.«411983_j75668733821211_3_alg».proof.Proof.Gen.KernelIdeal.Launch
import proofs.«411983_j75668733821211_3_alg».proof.Proof.Gen.KernelIdeal.Skeleton
import proofs.«411983_j75668733821211_3_alg».proof.Proof.Gen.KernelIdeal.Points
import proofs.«411983_j75668733821211_3_alg».proof.Proof.KI.Run
import proofs.«411983_j75668733821211_3_alg».proof.Proof.LibGraphRows
import Idealize.ShloMosaic.Lib.StableHlo.Run
import Idealize.ShloMosaic.Lib.Pipeline.Value
import Idealize.ShloMosaic.Lib.ValueIdx
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The two edge aggregations on the host, entry by entry (at the ideal values)

Between the launches the host gathers, for every edge, the row its source word names (after the wrap of a negative word
and the gather's clamp) and adds it into the row its target word names: row `i` of the result is the sum, over the
edges whose target word names `i`, of the gathered rows. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The arrays the first aggregation reads (as the first launch leaves the buffers) and the one it writes. -/
abbrev srcW4 (c : Dev nD) : S1600000.Idx → BitVec 32 := W4 m ρ c (Proc.devRef .tc main_v1)
abbrev tgtW4 (c : Dev nD) : S1600000.Idx → BitVec 32 := W4 m ρ c (Proc.devRef .tc main_v3)
abbrev xsW4 (c : Dev nD) : S100000x64.Idx → EReal := W4 m ρ c (Proc.devRef .tc main_v16)
abbrev aggW5 (c : Dev nD) : S100000x64.Idx → EReal := W5 m ρ c (Proc.devRef .tc main_v26)
/-- The same for the second aggregation (as the second launch leaves the buffers). -/
abbrev srcW6 (c : Dev nD) : S1600000.Idx → BitVec 32 := W6 m ρ c (Proc.devRef .tc main_v1)
abbrev tgtW6 (c : Dev nD) : S1600000.Idx → BitVec 32 := W6 m ρ c (Proc.devRef .tc main_v3)
abbrev hsW6 (c : Dev nD) : S100000x128.Idx → EReal := W6 m ρ c (Proc.devRef .tc main_v29)
abbrev aggW7 (c : Dev nD) : S100000x128.Idx → EReal := W7 m ρ c (Proc.devRef .tc main_v39)

/-- The first aggregation (64 lanes). -/
theorem agg1_rows (c : Dev nD) (i : Fin 100000) (k : Fin 64) :
    aggW5 m ρ c (ix2 i k)
      = ∑ e ∈ Finset.univ.filter (fun e : Fin 1600000 => GraphRows.rowOf 100000 (tgtW4 m ρ c (ix1 e)) = some i),
          xsW4 m ρ c (ix2 (GraphRows.clampRow 100000 (by decide) (GraphRows.wrapIdx 100000 (srcW4 m ρ c (ix1 e)))) k) := by
  show StableHlo.after hostOps1 (W4 m ρ c) (Proc.devRef .tc main_v26) (ix2 i k) = _
  -- the host stretch, operation by operation: a scatter-add into zeros of the gathered rows
  after_results
  rw [show scatter_S100000x64_S1600000x1_S1600000x64_1_0_0_1
        = GraphRows.rowScatter 100000 1600000 64 Facts₀.scatter_S100000x64_S1600000x1_S1600000x64_1_0_0_1_wf from rfl,
      show gather_S100000x64_S1600000x1_S1600000x64_1_0_n_n_0_1_164
        = GraphRows.rowGather 100000 1600000 64 Facts₀.gather_S100000x64_S1600000x1_S1600000x64_1_0_n_n_0_1_164_wf from rfl,
      GraphRows.hostScatterAdd_rows_apply]
  -- the operand is the zero array
  rw [show broadcastInDim S100000x64 ![] bcast_S_S100000x64 (constant (F := Ideal) S_ FTy.f32 0#32) (ix2 i k) = (0 : EReal)
        from Ideal.ofBits_zero_f32, zero_add]
  refine Finset.sum_congr (M := EReal) ?_ (fun e _ => ?_)
  · -- the index column of the scatter is the target words
    refine Finset.filter_congr fun e _ => ?_
    rw [GraphRows.bcastCol_apply]
  · -- the update row is the gathered row: the source word, wrapped, then clamped
    rw [GraphRows.gather_rows_apply (by decide : 0 < 100000), GraphRows.bcastCol_apply]
    rfl

/-- The second aggregation (128 lanes). -/
theorem agg2_rows (c : Dev nD) (i : Fin 100000) (f : Fin 128) :
    aggW7 m ρ c (ix2 i f)
      = ∑ e ∈ Finset.univ.filter (fun e : Fin 1600000 => GraphRows.rowOf 100000 (tgtW6 m ρ c (ix1 e)) = some i),
          hsW6 m ρ c (ix2 (GraphRows.clampRow 100000 (by decide) (GraphRows.wrapIdx 100000 (srcW6 m ρ c (ix1 e)))) f) := by
  show StableHlo.after hostOps2 (W6 m ρ c) (Proc.devRef .tc main_v39) (ix2 i f) = _
  -- the host stretch, operation by operation: a scatter-add into zeros of the gathered rows
  after_results
  rw [show scatter_S100000x128_S1600000x1_S1600000x128_1_0_0_1
        = GraphRows.rowScatter 100000 1600000 128 Facts₀.scatter_S100000x128_S1600000x1_S1600000x128_1_0_0_1_wf from rfl,
      show gather_S100000x128_S1600000x1_S1600000x128_1_0_n_n_0_1_1128
        = GraphRows.rowGather 100000 1600000 128 Facts₀.gather_S100000x128_S1600000x1_S1600000x128_1_0_n_n_0_1_1128_wf from rfl,
      GraphRows.hostScatterAdd_rows_apply]
  -- the operand is the zero array
  rw [show broadcastInDim S100000x128 ![] bcast_S_S100000x128 (constant (F := Ideal) S_ FTy.f32 0#32) (ix2 i f) = (0 : EReal)
        from Ideal.ofBits_zero_f32, zero_add]
  refine Finset.sum_congr (M := EReal) ?_ (fun e _ => ?_)
  · -- the index column of the scatter is the target words
    refine Finset.filter_congr fun e _ => ?_
    rw [GraphRows.bcastCol_apply]
  · -- the update row is the gathered row: the source word, wrapped, then clamped
    rw [GraphRows.gather_rows_apply (by decide : 0 < 100000), GraphRows.bcastCol_apply]
    rfl

end Cert.KernelIdeal.Hand

end
-- ==== Proof.KI.Stage13.lean ====
import proofs.«411983_j75668733821211_3_alg».proof.Proof.Gen.KernelIdeal.Launch
import proofs.«411983_j75668733821211_3_alg».proof.Proof.Gen.KernelIdeal.Skeleton
import proofs.«411983_j75668733821211_3_alg».proof.Proof.Gen.KernelIdeal.Points
import proofs.«411983_j75668733821211_3_alg».proof.Proof.KI.Run
import proofs.«411983_j75668733821211_3_alg».proof.Proof.KI.Final01
import proofs.«411983_j75668733821211_3_alg».proof.Proof.KI.Plumb
import proofs.«411983_j75668733821211_3_alg».proof.Proof.KI.Agg
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The two first launches' result arrays in terms of the argument arrays (at the ideal values)

Row `r` of the first launch's result is the feature row `r` times the factor of `r`; row `i` of the second launch's is the
aggregated row plus the scaled row, through the first weights, times the factor, plus the bias, clamped at zero, through
the second weights, times the factor again. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The first launch's result array, as the launch leaves the buffers. -/
theorem xs_rows (c : Dev nD) (r : Fin 100000) (k : Fin 64) :
    xsW4 m ρ c (ix2 r k) = p0 m c (ix2 r k) * pD m ρ c (ix1 r) := by
  have hw : xsW4 m ρ c = res0 (V3 m ρ) c := W4_arr m ρ c 2
  refine (congrFun hw (ix2 r k)).trans ((final0 (V3 m ρ) c r k).trans ?_)
  exact congrArg₂ (· * ·) (congrFun (in0_x m ρ c) (ix2 r k)) (in0_d m ρ c r)

/-- The second launch's result array, as the launch leaves the buffers. -/
theorem hs_rows (c : Dev nD) (i : Fin 100000) (f : Fin 128) :
    hsW6 m ρ c (ix2 i f)
      = (∑ j : Fin 128,
          max ((∑ k : Fin 64, (aggW5 m ρ c (ix2 i k) + xsW4 m ρ c (ix2 i k)) * p3 m c (ix2 k j)) * pD m ρ c (ix1 i)
              + p4 m c (ix1 j)) (0 : EReal)
            * p5 m c (ix2 j f))
        * pD m ρ c (ix1 i) := by
  have hw : hsW6 m ρ c = res1 (V5 m ρ) c := W6_arr m ρ c 6
  have hxs : aXs (V5 m ρ) c = xsW4 m ρ c := in1_xs m ρ c
  refine (congrFun hw (ix2 i f)).trans ((final1 (V5 m ρ) c i f).trans ?_)
  refine congrArg₂ (· * ·) (Finset.sum_congr rfl fun j _ => ?_) (in1_d m ρ c i)
  refine congrArg₂ (· * ·) (congrArg₂ max (congrArg₂ (· + ·) (congrArg₂ (· * ·)
    (Finset.sum_congr rfl fun k _ => ?_) (in1_d m ρ c i)) (in1_b m ρ c j)) rfl) (congrFun (in1_w2 m ρ c) (ix2 j f))
  exact congrArg₂ (· * ·) (congrArg₂ (· + ·) rfl (congrFun hxs (ix2 i k))) (congrFun (in1_w1 m ρ c) (ix2 k j))

end Cert.KernelIdeal.Hand

end
-- ==== Proof.GcnForms.lean ====
import Mathlib.Data.EReal.Basic
import Mathlib.Algebra.BigOperators.Ring.Finset
import Mathlib.Algebra.Order.BigOperators.Group.Finset

/-!
# Two graph-convolution layers, in two arrangements

Rows `N` (nodes), edges `E`; an edge `e` reads row `src e` and adds into row `i` when `tgt e = some i` (an edge whose
target lies outside the array adds nowhere). `d` is the per-node normalisation factor.

*Source-scaled arrangement* (`k…`): scale the rows by `d` first, add the neighbours' scaled rows and the node's own,
apply the weights, scale by `d` of the target, add the bias, clamp at zero; the second layer scales after the weights.

*Edge-weighted arrangement* (`r…`): apply the weights first, give every edge the weight `d (src e) * d i`, the node's
own row the weight `d i * d i`, sum, add the bias, clamp at zero.

Over a commutative ring with a maximum (the reals) the two agree, because multiplication distributes over the finite
sums; the definitions are stated over any type with `+`, `*`, `max`, `0` so that they can also be read over the
extended reals, where they are related to the real ones by the coercion.
-/

open scoped BigOperators

namespace GcnForms

section Defs

variable {α : Type*} [AddCommMonoid α] [Mul α] [Max α]
variable {N E K J Fd : Type*} [Fintype E] [Fintype K] [Fintype J] [DecidableEq N]
variable (tgt : E → Option N) (src : E → N)
variable (d : N → α) (x : N → K → α) (w1 : K → J → α) (b1 : J → α) (w2 : J → Fd → α) (b2 : Fd → α)

/-- The features scaled on the source side. -/
def kXs (r : N) (k : K) : α := x r k * d r
/-- The scaled features of the edges arriving at `i`, summed. -/
def kAgg1 (i : N) (k : K) : α := ∑ e ∈ Finset.univ.filter (fun e => tgt e = some i), kXs d x (src e) k
/-- First layer, source-scaled arrangement. -/
def kVal1 (i : N) (j : J) : α :=
  max ((∑ k, (kAgg1 tgt src d x i k + kXs d x i k) * w1 k j) * d i + b1 j) 0
/-- The hidden rows through the second weights, scaled on the source side. -/
def kH2s (i : N) (f : Fd) : α := (∑ j, kVal1 tgt src d x w1 b1 i j * w2 j f) * d i
def kAgg2 (i : N) (f : Fd) : α := ∑ e ∈ Finset.univ.filter (fun e => tgt e = some i), kH2s tgt src d x w1 b1 w2 (src e) f
/-- Second layer, source-scaled arrangement. -/
def kVal2 (i : N) (f : Fd) : α :=
  max ((kAgg2 tgt src d x w1 b1 w2 i f + kH2s tgt src d x w1 b1 w2 i f) * d i + b2 f) 0

/-- The features through the first weights. -/
def rH (r : N) (j : J) : α := ∑ k, x r k * w1 k j
/-- First layer, edge-weighted arrangement. -/
def rAct1 (i : N) (j : J) : α :=
  max ((∑ e ∈ Finset.univ.filter (fun e => tgt e = some i), rH x w1 (src e) j * (d (src e) * d i))
    + rH x w1 i j * (d i * d i) + b1 j) 0
def rH2 (r : N) (f : Fd) : α := ∑ j, rAct1 tgt src d x w1 b1 r j * w2 j f
/-- Second layer, edge-weighted arrangement. -/
def rAct2 (i : N) (f : Fd) : α :=
  max ((∑ e ∈ Finset.univ.filter (fun e => tgt e = some i), rH2 tgt src d x w1 b1 w2 (src e) f * (d (src e) * d i))
    + rH2 tgt src d x w1 b1 w2 i f * (d i * d i) + b2 f) 0

end Defs

section Real

variable {N E K J Fd : Type*} [Fintype E] [Fintype K] [Fintype J] [DecidableEq N]
variable (tgt : E → Option N) (src : E → N)
variable (d : N → ℝ) (x : N → K → ℝ) (w1 : K → J → ℝ) (b1 : J → ℝ) (w2 : J → Fd → ℝ) (b2 : Fd → ℝ)

/-- Over the reals the first layers agree. -/
theorem kVal1_eq_rAct1 (i : N) (j : J) : kVal1 tgt src d x w1 b1 i j = rAct1 tgt src d x w1 b1 i j := by
  unfold kVal1 rAct1 kAgg1 kXs rH
  congr 2
  -- multiplication distributes over the sums; the sums over edges and over input lanes are exchanged
  simp only [add_mul, Finset.sum_mul, Finset.sum_add_distrib]
  rw [Finset.sum_comm]
  congr 1
  · exact Finset.sum_congr rfl fun e _ => Finset.sum_congr rfl fun k _ => by ring
  · exact Finset.sum_congr rfl fun k _ => by ring

/-- Over the reals the second layers agree. -/
theorem kVal2_eq_rAct2 (i : N) (f : Fd) : kVal2 tgt src d x w1 b1 w2 b2 i f = rAct2 tgt src d x w1 b1 w2 b2 i f := by
  -- with equal first layers, a source-scaled hidden row is the edge-weighted one times the row's factor
  have hk : ∀ r, kH2s tgt src d x w1 b1 w2 r f = rH2 tgt src d x w1 b1 w2 r f * d r := fun r => by
    unfold kH2s rH2; simp only [kVal1_eq_rAct1]
  unfold kVal2 rAct2 kAgg2
  simp only [hk]
  congr 2
  rw [add_mul, Finset.sum_mul]
  congr 1
  · exact Finset.sum_congr rfl fun e _ => by ring
  · ring

end Real

section Extended

variable {N E K J Fd : Type*} [Fintype E] [Fintype K] [Fintype J] [DecidableEq N]
variable (tgt : E → Option N) (src : E → N)
variable (d : N → ℝ) (x : N → K → ℝ) (w1 : K → J → ℝ) (b1 : J → ℝ) (w2 : J → Fd → ℝ) (b2 : Fd → ℝ)

/-- The coercion of the reals into the extended reals commutes with the maximum: it is monotone. -/
theorem coe_max (a b : ℝ) : ((max a b : ℝ) : EReal) = max (a : EReal) (b : EReal) :=
  EReal.coe_strictMono.monotone.map_max

/-- The coercion commutes with finite sums: by induction on the index set, from its commuting with `+`. -/
theorem coe_sum {ι : Type*} (s : Finset ι) (g : ι → ℝ) : ((∑ a ∈ s, g a : ℝ) : EReal) = ∑ a ∈ s, (g a : EReal) := by
  classical
  induction s using Finset.induction_on with
  | empty => simp only [Finset.sum_empty, EReal.coe_zero]
  | insert a s ha ih => rw [Finset.sum_insert ha, Finset.sum_insert ha, EReal.coe_add, ih]

/-! Each reading over the extended reals at coerced real data is the coercion of the real reading: the coercion
commutes with `+`, `*`, `max`, `0` and finite sums, and each definition is built from the one before it. -/

theorem kXs_coe (r : N) (k : K) :
    kXs (α := EReal) (fun r => (d r : EReal)) (fun r k => (x r k : EReal)) r k = ((kXs d x r k : ℝ) : EReal) := by
  unfold kXs; rw [EReal.coe_mul]

theorem kAgg1_coe (i : N) (k : K) :
    kAgg1 (α := EReal) tgt src (fun r => (d r : EReal)) (fun r k => (x r k : EReal)) i k
    = ((kAgg1 tgt src d x i k : ℝ) : EReal) := by
  unfold kAgg1; rw [coe_sum]; simp only [kXs_coe]

theorem kVal1_coe (i : N) (j : J) :
    kVal1 (α := EReal) tgt src (fun r => (d r : EReal)) (fun r k => (x r k : EReal)) (fun k j => (w1 k j : EReal))
      (fun j => (b1 j : EReal)) i j
    = ((kVal1 tgt src d x w1 b1 i j : ℝ) : EReal) := by
  unfold kVal1
  simp only [kAgg1_coe, kXs_coe, coe_max, coe_sum, EReal.coe_add, EReal.coe_mul, EReal.coe_zero]

theorem kH2s_coe (i : N) (f : Fd) :
    kH2s (α := EReal) tgt src (fun r => (d r : EReal)) (fun r k => (x r k : EReal)) (fun k j => (w1 k j : EReal))
      (fun j => (b1 j : EReal)) (fun j f => (w2 j f : EReal)) i f
    = ((kH2s tgt src d x w1 b1 w2 i f : ℝ) : EReal) := by
  unfold kH2s
  simp only [kVal1_coe, coe_sum, EReal.coe_mul]

theorem kAgg2_coe (i : N) (f : Fd) :
    kAgg2 (α := EReal) tgt src (fun r => (d r : EReal)) (fun r k => (x r k : EReal)) (fun k j => (w1 k j : EReal))
      (fun j => (b1 j : EReal)) (fun j f => (w2 j f : EReal)) i f
    = ((kAgg2 tgt src d x w1 b1 w2 i f : ℝ) : EReal) := by
  unfold kAgg2; rw [coe_sum]; simp only [kH2s_coe]

theorem rH_coe (r : N) (j : J) :
    rH (α := EReal) (fun r k => (x r k : EReal)) (fun k j => (w1 k j : EReal)) r j = ((rH x w1 r j : ℝ) : EReal) := by
  unfold rH; simp only [coe_sum, EReal.coe_mul]

theorem rAct1_coe (i : N) (j : J) :
    rAct1 (α := EReal) tgt src (fun r => (d r : EReal)) (fun r k => (x r k : EReal)) (fun k j => (w1 k j : EReal))
      (fun j => (b1 j : EReal)) i j
    = ((rAct1 tgt src d x w1 b1 i j : ℝ) : EReal) := by
  unfold rAct1
  simp only [rH_coe, coe_max, coe_sum, EReal.coe_add, EReal.coe_mul, EReal.coe_zero]

theorem rH2_coe (r : N) (f : Fd) :
    rH2 (α := EReal) tgt src (fun r => (d r : EReal)) (fun r k => (x r k : EReal)) (fun k j => (w1 k j : EReal))
      (fun j => (b1 j : EReal)) (fun j f => (w2 j f : EReal)) r f
    = ((rH2 tgt src d x w1 b1 w2 r f : ℝ) : EReal) := by
  unfold rH2; simp only [rAct1_coe, coe_sum, EReal.coe_mul]

/-- Read over the extended reals at real data, the source-scaled second layer is the coercion of the real one. -/
theorem kVal2_coe (i : N) (f : Fd) :
    kVal2 (α := EReal) tgt src (fun r => (d r : EReal)) (fun r k => (x r k : EReal)) (fun k j => (w1 k j : EReal))
      (fun j => (b1 j : EReal)) (fun j f => (w2 j f : EReal)) (fun f => (b2 f : EReal)) i f
    = ((kVal2 tgt src d x w1 b1 w2 b2 i f : ℝ) : EReal) := by
  unfold kVal2
  simp only [kAgg2_coe, kH2s_coe, coe_max, EReal.coe_add, EReal.coe_mul, EReal.coe_zero]

/-- The same for the edge-weighted second layer. -/
theorem rAct2_coe (i : N) (f : Fd) :
    rAct2 (α := EReal) tgt src (fun r => (d r : EReal)) (fun r k => (x r k : EReal)) (fun k j => (w1 k j : EReal))
      (fun j => (b1 j : EReal)) (fun j f => (w2 j f : EReal)) (fun f => (b2 f : EReal)) i f
    = ((rAct2 tgt src d x w1 b1 w2 b2 i f : ℝ) : EReal) := by
  unfold rAct2
  simp only [rH2_coe, coe_max, coe_sum, EReal.coe_add, EReal.coe_mul, EReal.coe_zero]

/-- At real data the two arrangements agree over the extended reals. -/
theorem kVal2_eq_rAct2_ereal (i : N) (f : Fd) :
    kVal2 (α := EReal) tgt src (fun r => (d r : EReal)) (fun r k => (x r k : EReal)) (fun k j => (w1 k j : EReal))
      (fun j => (b1 j : EReal)) (fun j f => (w2 j f : EReal)) (fun f => (b2 f : EReal)) i f
    = rAct2 (α := EReal) tgt src (fun r => (d r : EReal)) (fun r k => (x r k : EReal)) (fun k j => (w1 k j : EReal))
      (fun j => (b1 j : EReal)) (fun j f => (w2 j f : EReal)) (fun f => (b2 f : EReal)) i f := by
  rw [kVal2_coe, rAct2_coe, kVal2_eq_rAct2]

end Extended

end GcnForms
-- ==== Proof.Spec.lean ====
import proofs.«411983_j75668733821211_3_alg».proof.Proof.GcnForms
import proofs.«411983_j75668733821211_3_alg».proof.Proof.LibGraphRows

/-!
# The pooled sums, as one function of the argument arrays

Node `r` has the feature row `x (r, ·)`; edge `e` has the source word `ei (0, e)` and the target word `ei (1, e)`;
`dv` is the per-node normalisation factor (both programs compute it by the same host operations from the edge list).
An edge adds into row `i` when its target word names row `i`; it reads the row its source word names after the wrap
of a negative index and the gather's clamp. Graph `g` pools the rows whose graph word names `g`.
`kOut` pools the source-scaled arrangement of the two layers, `rOut` the edge-weighted one (GcnForms).
-/

noncomputable section

open scoped BigOperators

namespace Cert.Spec

open Idealize.ShloMosaic Idealize.ShloMosaic.ValueIdx

variable (x : (⟨2, ![100000, 64]⟩ : Shape).Idx → EReal) (ei : (⟨2, ![2, 1600000]⟩ : Shape).Idx → BitVec 32)
  (bt : (⟨1, ![100000]⟩ : Shape).Idx → BitVec 32)
  (W1 : (⟨2, ![64, 128]⟩ : Shape).Idx → EReal) (b1 : (⟨1, ![128]⟩ : Shape).Idx → EReal)
  (W2 : (⟨2, ![128, 128]⟩ : Shape).Idx → EReal) (b2 : (⟨1, ![128]⟩ : Shape).Idx → EReal)
  (dv : (⟨1, ![100000]⟩ : Shape).Idx → EReal)

/-- The row edge `e` adds into, if its target word names one. -/
def tgt (e : Fin 1600000) : Option (Fin 100000) := GraphRows.rowOf 100000 (ei (ix2 (1 : Fin 2) e))
/-- The row edge `e` reads. -/
def src (e : Fin 1600000) : Fin 100000 :=
  GraphRows.clampRow 100000 (by decide) (GraphRows.wrapIdx 100000 (ei (ix2 (0 : Fin 2) e)))

/-- The arrays by coordinates. -/
def dR (r : Fin 100000) : EReal := dv (ix1 r)
def xR (r : Fin 100000) (k : Fin 64) : EReal := x (ix2 r k)
def w1R (k : Fin 64) (j : Fin 128) : EReal := W1 (ix2 k j)
def b1R (j : Fin 128) : EReal := b1 (ix1 j)
def w2R (j : Fin 128) (f : Fin 128) : EReal := W2 (ix2 j f)
def b2R (f : Fin 128) : EReal := b2 (ix1 f)

/-- The second layer's rows, source-scaled arrangement. -/
def kRows (r : Fin 100000) (f : Fin 128) : EReal :=
  GcnForms.kVal2 (tgt ei) (src ei) (dR dv) (xR x) (w1R W1) (b1R b1) (w2R W2) (b2R b2) r f
/-- The second layer's rows, edge-weighted arrangement. -/
def rRows (r : Fin 100000) (f : Fin 128) : EReal :=
  GcnForms.rAct2 (tgt ei) (src ei) (dR dv) (xR x) (w1R W1) (b1R b1) (w2R W2) (b2R b2) r f

/-- Graph `g`'s pooled sum of the rows whose graph word names it. -/
def pool (rows : Fin 100000 → Fin 128 → EReal) (g : Fin 512) (f : Fin 128) : EReal :=
  ∑ r ∈ Finset.univ.filter (fun r : Fin 100000 => GraphRows.rowOf 512 (bt (ix1 r)) = some g), rows r f

def kOut (g : Fin 512) (f : Fin 128) : EReal := pool bt (kRows x ei W1 b1 W2 b2 dv) g f
def rOut (g : Fin 512) (f : Fin 128) : EReal := pool bt (rRows x ei W1 b1 W2 b2 dv) g f

/-- At real data the two pooled sums agree. -/
theorem kOut_eq_rOut (hx : ∀ i, ∃ r : ℝ, x i = r) (hW1 : ∀ i, ∃ r : ℝ, W1 i = r) (hb1 : ∀ i, ∃ r : ℝ, b1 i = r)
    (hW2 : ∀ i, ∃ r : ℝ, W2 i = r) (hb2 : ∀ i, ∃ r : ℝ, b2 i = r) (hdv : ∀ i, ∃ r : ℝ, dv i = r) (g : Fin 512) (f : Fin 128) :
    kOut x ei bt W1 b1 W2 b2 dv g f = rOut x ei bt W1 b1 W2 b2 dv g f := by
  choose xr hxr using hx
  choose w1r hw1r using hW1
  choose b1r hb1r using hb1
  choose w2r hw2r using hW2
  choose b2r hb2r using hb2
  choose dr hdr using hdv
  unfold kOut rOut pool
  refine Finset.sum_congr rfl fun r _ => ?_
  unfold kRows rRows
  have e1 : dR dv = fun r => ((dr (ix1 r) : ℝ) : EReal) := funext fun r => hdr _
  have e2 : xR x = fun r k => ((xr (ix2 r k) : ℝ) : EReal) := funext fun r => funext fun k => hxr _
  have e3 : w1R W1 = fun k j => ((w1r (ix2 k j) : ℝ) : EReal) := funext fun k => funext fun j => hw1r _
  have e4 : b1R b1 = fun j => ((b1r (ix1 j) : ℝ) : EReal) := funext fun j => hb1r _
  have e5 : w2R W2 = fun j f => ((w2r (ix2 j f) : ℝ) : EReal) := funext fun j => funext fun f => hw2r _
  have e6 : b2R b2 = fun f => ((b2r (ix1 f) : ℝ) : EReal) := funext fun f => hb2r _
  rw [e1, e2, e3, e4, e5, e6]
  exact GcnForms.kVal2_eq_rAct2_ereal (tgt ei) (src ei) _ _ _ _ _ _ r f

end Cert.Spec

end
-- ==== Proof.KI.Value.lean ====
import proofs.«411983_j75668733821211_3_alg».proof.Proof.Gen.KernelIdeal.Launch
import proofs.«411983_j75668733821211_3_alg».proof.Proof.Gen.KernelIdeal.Skeleton
import proofs.«411983_j75668733821211_3_alg».proof.Proof.Gen.KernelIdeal.Points
import proofs.«411983_j75668733821211_3_alg».proof.Proof.KI.Run
import proofs.«411983_j75668733821211_3_alg».proof.Proof.KI.Final01
import proofs.«411983_j75668733821211_3_alg».proof.Proof.KI.Final2
import proofs.«411983_j75668733821211_3_alg».proof.Proof.KI.Plumb
import proofs.«411983_j75668733821211_3_alg».proof.Proof.KI.Agg
import proofs.«411983_j75668733821211_3_alg».proof.Proof.KI.Stage13
import proofs.«411983_j75668733821211_3_alg».proof.Proof.Spec
import proofs.«411983_j75668733821211_3_alg».proof.Proof.LibGraphRows
import Idealize.ShloMosaic.Lib.StableHlo.Run
import Idealize.ShloMosaic.Lib.Pipeline.Value
import Idealize.ShloMosaic.Lib.ValueIdx
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The kernel program's pooled sums, as one function of the argument arrays (at the ideal values)

Stage by stage through the program: the scaled features (first launch), their aggregation over the edges (a gather and
a scatter-add on the host), the hidden rows (second launch), their aggregation, and the pooled sums (third launch) are
the source-scaled arrangement of the two layers, pooled by graph. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The argument arrays, the normalisation factors as the first host stretch leaves them, and the third launch's result
    array, typed as functions on their literal index sets. -/
abbrev a0 (c : Dev nD) : S100000x64.Idx → EReal := m ((c.tc : Thread nD τ).loc main_arg0)
abbrev a1 (c : Dev nD) : S2x1600000.Idx → BitVec 32 := m ((c.tc : Thread nD τ).loc main_arg1)
abbrev a2 (c : Dev nD) : S100000.Idx → BitVec 32 := m ((c.tc : Thread nD τ).loc main_arg2)
abbrev a3 (c : Dev nD) : S64x128.Idx → EReal := m ((c.tc : Thread nD τ).loc main_arg3)
abbrev a4 (c : Dev nD) : S128.Idx → EReal := m ((c.tc : Thread nD τ).loc main_arg4)
abbrev a5 (c : Dev nD) : S128x128.Idx → EReal := m ((c.tc : Thread nD τ).loc main_arg5)
abbrev a6 (c : Dev nD) : S128.Idx → EReal := m ((c.tc : Thread nD τ).loc main_arg6)
abbrev dinvK (c : Dev nD) : S100000.Idx → EReal := W3 m ρ c (Proc.devRef .tc main_v14)
abbrev out43 (c : Dev nD) : S512x128.Idx → EReal := W8 m ρ c (Proc.devRef .tc main_v43)

section Unfoldings

open scoped BigOperators

variable {α : Type*} [AddCommMonoid α] [Mul α] [Max α]
variable {N E K J Fd : Type*} [Fintype E] [Fintype K] [Fintype J] [DecidableEq N]
variable (tgt : E → Option N) (src : E → N)
variable (d : N → α) (x : N → K → α) (w1 : K → J → α) (b1 : J → α) (w2 : J → Fd → α) (b2 : Fd → α)

/-- The hidden rows through the second weights, with the first layer written out. -/
theorem kH2s_eq (i : N) (f : Fd) :
    GcnForms.kH2s tgt src d x w1 b1 w2 i f
      = (∑ j, max ((∑ k, (GcnForms.kAgg1 tgt src d x i k + GcnForms.kXs d x i k) * w1 k j) * d i + b1 j) 0 * w2 j f) * d i := rfl

/-- The second layer's row, written out over its aggregation and hidden row. -/
theorem kVal2_eq (i : N) (f : Fd) :
    GcnForms.kVal2 tgt src d x w1 b1 w2 b2 i f
      = max ((GcnForms.kAgg2 tgt src d x w1 b1 w2 i f + GcnForms.kH2s tgt src d x w1 b1 w2 i f) * d i + b2 f) 0 := rfl

end Unfoldings

/-! ## The composition, over any arrays

The arrays of the program enter here only through what the stages say of their entries; the statements below are
about functions on the literal index sets. -/

section Compose

variable (x : S100000x64.Idx → EReal) (ei : S2x1600000.Idx → BitVec 32) (bt : S100000.Idx → BitVec 32)
  (w1 : S64x128.Idx → EReal) (b1 : S128.Idx → EReal) (w2 : S128x128.Idx → EReal) (b2 : S128.Idx → EReal)
  (dv : S100000.Idx → EReal)

/-- The scaled features: a row times its factor. -/
theorem xs_eq (xs : S100000x64.Idx → EReal) (h1 : ∀ r k, xs (ix2 r k) = x (ix2 r k) * dv (ix1 r))
    (r : Fin 100000) (k : Fin 64) :
    xs (ix2 r k) = GcnForms.kXs (Cert.Spec.dR dv) (Cert.Spec.xR x) r k := h1 r k

/-- An aggregation over the edges: if row `i` of `agg` is the sum, over the edges whose target word names `i`, of the
    row of `arr` at the clamped wrapped source word, and the words are the edge list's two rows, then it is the sum over
    the edges arriving at `i` of the rows at their sources. -/
theorem agg_eq {n : Nat} (arr agg : (⟨2, ![100000, n]⟩ : Shape).Idx → EReal) (tw sw : S1600000.Idx → BitVec 32)
    (rows : Fin 100000 → Fin n → EReal) (h1 : ∀ r k, arr (ix2 r k) = rows r k)
    (ht : ∀ e, tw (ix1 e) = ei (ix2 (1 : Fin 2) e)) (hs : ∀ e, sw (ix1 e) = ei (ix2 (0 : Fin 2) e))
    (h2 : ∀ i k, agg (ix2 i k)
      = ∑ e ∈ Finset.univ.filter (fun e : Fin 1600000 => GraphRows.rowOf 100000 (tw (ix1 e)) = some i),
          arr (ix2 (GraphRows.clampRow 100000 (by decide) (GraphRows.wrapIdx 100000 (sw (ix1 e)))) k))
    (i : Fin 100000) (k : Fin n) :
    agg (ix2 i k) = ∑ e ∈ Finset.univ.filter (fun e => Cert.Spec.tgt ei e = some i), rows (Cert.Spec.src ei e) k := by
  rw [h2 i k]
  simp only [ht, hs, h1]
  rfl

/-- The first aggregation. -/
theorem agg1_eq (xs ag1 : S100000x64.Idx → EReal) (tw sw : S1600000.Idx → BitVec 32)
    (hx : ∀ r k, xs (ix2 r k) = GcnForms.kXs (Cert.Spec.dR dv) (Cert.Spec.xR x) r k)
    (ht : ∀ e, tw (ix1 e) = ei (ix2 (1 : Fin 2) e)) (hs : ∀ e, sw (ix1 e) = ei (ix2 (0 : Fin 2) e))
    (h2 : ∀ i k, ag1 (ix2 i k)
      = ∑ e ∈ Finset.univ.filter (fun e : Fin 1600000 => GraphRows.rowOf 100000 (tw (ix1 e)) = some i),
          xs (ix2 (GraphRows.clampRow 100000 (by decide) (GraphRows.wrapIdx 100000 (sw (ix1 e)))) k))
    (i : Fin 100000) (k : Fin 64) :
    ag1 (ix2 i k) = GcnForms.kAgg1 (Cert.Spec.tgt ei) (Cert.Spec.src ei) (Cert.Spec.dR dv) (Cert.Spec.xR x) i k :=
  agg_eq ei xs ag1 tw sw (GcnForms.kXs (Cert.Spec.dR dv) (Cert.Spec.xR x)) hx ht hs h2 i k

/-- The hidden rows through the second weights, from the aggregated and the scaled features. -/
theorem h2s_eq (xs ag1 : S100000x64.Idx → EReal) (hs : S100000x128.Idx → EReal)
    (hx : ∀ r k, xs (ix2 r k) = GcnForms.kXs (Cert.Spec.dR dv) (Cert.Spec.xR x) r k)
    (ha : ∀ i k, ag1 (ix2 i k) = GcnForms.kAgg1 (Cert.Spec.tgt ei) (Cert.Spec.src ei) (Cert.Spec.dR dv) (Cert.Spec.xR x) i k)
    (h3 : ∀ i f, hs (ix2 i f)
      = (∑ j : Fin 128,
          max ((∑ k : Fin 64, (ag1 (ix2 i k) + xs (ix2 i k)) * w1 (ix2 k j)) * dv (ix1 i) + b1 (ix1 j)) (0 : EReal)
            * w2 (ix2 j f))
        * dv (ix1 i))
    (i : Fin 100000) (f : Fin 128) :
    hs (ix2 i f) = GcnForms.kH2s (Cert.Spec.tgt ei) (Cert.Spec.src ei) (Cert.Spec.dR dv) (Cert.Spec.xR x)
      (Cert.Spec.w1R w1) (Cert.Spec.b1R b1) (Cert.Spec.w2R w2) i f := by
  rw [h3 i f]
  simp only [hx, ha]
  rw [kH2s_eq]
  have e1 : ∀ k j, Cert.Spec.w1R w1 k j = w1 (ix2 k j) := fun _ _ => rfl
  have e2 : ∀ j, Cert.Spec.b1R b1 j = b1 (ix1 j) := fun _ => rfl
  have e3 : ∀ j f, Cert.Spec.w2R w2 j f = w2 (ix2 j f) := fun _ _ => rfl
  have e4 : ∀ r, Cert.Spec.dR dv r = dv (ix1 r) := fun _ => rfl
  simp only [e1, e2, e3, e4]

/-- The second aggregation. -/
theorem agg2_eq (hs ag2 : S100000x128.Idx → EReal) (tw sw : S1600000.Idx → BitVec 32)
    (hh : ∀ i f, hs (ix2 i f) = GcnForms.kH2s (Cert.Spec.tgt ei) (Cert.Spec.src ei) (Cert.Spec.dR dv) (Cert.Spec.xR x)
      (Cert.Spec.w1R w1) (Cert.Spec.b1R b1) (Cert.Spec.w2R w2) i f)
    (ht : ∀ e, tw (ix1 e) = ei (ix2 (1 : Fin 2) e)) (hsw : ∀ e, sw (ix1 e) = ei (ix2 (0 : Fin 2) e))
    (h4 : ∀ i f, ag2 (ix2 i f)
      = ∑ e ∈ Finset.univ.filter (fun e : Fin 1600000 => GraphRows.rowOf 100000 (tw (ix1 e)) = some i),
          hs (ix2 (GraphRows.clampRow 100000 (by decide) (GraphRows.wrapIdx 100000 (sw (ix1 e)))) f))
    (i : Fin 100000) (f : Fin 128) :
    ag2 (ix2 i f) = GcnForms.kAgg2 (Cert.Spec.tgt ei) (Cert.Spec.src ei) (Cert.Spec.dR dv) (Cert.Spec.xR x)
      (Cert.Spec.w1R w1) (Cert.Spec.b1R b1) (Cert.Spec.w2R w2) i f :=
  agg_eq ei hs ag2 tw sw (GcnForms.kH2s (Cert.Spec.tgt ei) (Cert.Spec.src ei) (Cert.Spec.dR dv) (Cert.Spec.xR x)
    (Cert.Spec.w1R w1) (Cert.Spec.b1R b1) (Cert.Spec.w2R w2)) hh ht hsw h4 i f

/-- The pooled sums: a sum over all rows weighted one or zero by whether the row's graph word is `g` is the sum over
    the rows whose graph word names `g`. -/
theorem pooled_eq (ag2 hs hs2 : S100000x128.Idx → EReal) (d40 : S100000x1.Idx → EReal) (b2r : S1x128.Idx → EReal)
    (gw : S100000x1.Idx → BitVec 32) (out : S512x128.Idx → EReal)
    (hh : ∀ i f, hs (ix2 i f) = GcnForms.kH2s (Cert.Spec.tgt ei) (Cert.Spec.src ei) (Cert.Spec.dR dv) (Cert.Spec.xR x)
      (Cert.Spec.w1R w1) (Cert.Spec.b1R b1) (Cert.Spec.w2R w2) i f)
    (ha : ∀ i f, ag2 (ix2 i f) = GcnForms.kAgg2 (Cert.Spec.tgt ei) (Cert.Spec.src ei) (Cert.Spec.dR dv) (Cert.Spec.xR x)
      (Cert.Spec.w1R w1) (Cert.Spec.b1R b1) (Cert.Spec.w2R w2) i f)
    (hhs : hs2 = hs) (hd : ∀ r, d40 (ix2 r (0 : Fin 1)) = dv (ix1 r)) (hb : ∀ f, b2r (ix2 (0 : Fin 1) f) = b2 (ix1 f))
    (hg : ∀ r, gw (ix2 r (0 : Fin 1)) = bt (ix1 r))
    (h5 : ∀ g f, out (ix2 g f)
      = ∑ r : Fin 100000,
          (if gw (ix2 r (0 : Fin 1)) = BitVec.ofNat 32 g.val then (1 : EReal) else 0)
            * max ((ag2 (ix2 r f) + hs2 (ix2 r f)) * d40 (ix2 r (0 : Fin 1)) + b2r (ix2 (0 : Fin 1) f)) (0 : EReal))
    (g : Fin 512) (f : Fin 128) :
    out (ix2 g f) = Cert.Spec.kOut x ei bt w1 b1 w2 b2 dv g f := by
  rw [h5 g f]
  subst hhs
  unfold Cert.Spec.kOut Cert.Spec.pool
  rw [Finset.sum_filter]
  refine Finset.sum_congr rfl fun r _ => ?_
  rw [hg r, hd r, hb f, ha r f, hh r f]
  by_cases h : GraphRows.rowOf 512 (bt (ix1 r)) = some g
  · rw [if_pos h, if_pos ((GraphRows.ofNat_eq_iff_rowOf (by decide) _ g).2 h), one_mul]
    have e0 : Cert.Spec.kRows x ei w1 b1 w2 b2 dv r f
        = GcnForms.kVal2 (Cert.Spec.tgt ei) (Cert.Spec.src ei) (Cert.Spec.dR dv) (Cert.Spec.xR x)
            (Cert.Spec.w1R w1) (Cert.Spec.b1R b1) (Cert.Spec.w2R w2) (Cert.Spec.b2R b2) r f := rfl
    have e4 : ∀ r, Cert.Spec.dR dv r = dv (ix1 r) := fun _ => rfl
    have e5 : ∀ f, Cert.Spec.b2R b2 f = b2 (ix1 f) := fun _ => rfl
    rw [e0, kVal2_eq]
    simp only [e4, e5]
  · rw [if_neg h, if_neg (fun h' => h ((GraphRows.ofNat_eq_iff_rowOf (by decide) _ g).1 h')), zero_mul]

end Compose

/-! ## The program's arrays through the stages -/

/-- The third launch's result array holds the pooled sums of the source-scaled arrangement. -/
theorem kernel_sums (c : Dev nD) (g : Fin 512) (f : Fin 128) :
    out43 m ρ c (ix2 g f)
      = Cert.Spec.kOut (a0 m c) (a1 m c) (a2 m c) (a3 m c) (a4 m c) (a5 m c) (a6 m c) (dinvK m ρ c) g f := by
  -- the first launch's result: the scaled features
  have hx := xs_eq (a0 m c) (dinvK m ρ c) (xsW4 m ρ c) (xs_rows m ρ c)
  -- their aggregation over the edges
  have ha1 := agg1_eq (a0 m c) (a1 m c) (dinvK m ρ c) (xsW4 m ρ c) (aggW5 m ρ c) (tgtW4 m ρ c) (srcW4 m ρ c) hx
    (words4_tgt m ρ c) (words4_src m ρ c) (agg1_rows m ρ c)
  -- the second launch's result: the hidden rows through the second weights, scaled
  have hh := h2s_eq (a0 m c) (a1 m c) (a3 m c) (a4 m c) (a5 m c) (dinvK m ρ c) (xsW4 m ρ c) (aggW5 m ρ c) (hsW6 m ρ c)
    hx ha1 (hs_rows m ρ c)
  -- their aggregation over the edges
  have ha2 := agg2_eq (a0 m c) (a1 m c) (a3 m c) (a4 m c) (a5 m c) (dinvK m ρ c) (hsW6 m ρ c) (aggW7 m ρ c)
    (tgtW6 m ρ c) (srcW6 m ρ c) hh (words6_tgt m ρ c) (words6_src m ρ c) (agg2_rows m ρ c)
  -- the third launch's result: the rows of the second layer, pooled by graph
  have hw : out43 m ρ c = res2 (V7 m ρ) c := W8_arr m ρ c 5
  refine (congrFun hw (ix2 g f)).trans ?_
  exact pooled_eq (a0 m c) (a1 m c) (a2 m c) (a3 m c) (a4 m c) (a5 m c) (a6 m c) (dinvK m ρ c)
    (aggW7 m ρ c) (hsW6 m ρ c) (aH2s (V7 m ρ) c) (aD40 (V7 m ρ) c) (aB2 (V7 m ρ) c) (aGw (V7 m ρ) c) (res2 (V7 m ρ) c)
    hh ha2 (in2_hs m ρ c) (in2_d m ρ c) (in2_b m ρ c) (in2_g m ρ c) (final2 (V7 m ρ) c) g f

end Cert.KernelIdeal.Hand

end
-- ==== Proof.KI.Shared.lean ====
import proofs.«411983_j75668733821211_3_alg».proof.Proof.Gen.KernelIdeal.Launch
import proofs.«411983_j75668733821211_3_alg».proof.Proof.Gen.KernelIdeal.Skeleton
import proofs.«411983_j75668733821211_3_alg».proof.Proof.Gen.KernelIdeal.Points
import proofs.«411983_j75668733821211_3_alg».proof.Proof.KI.Run
import proofs.«411983_j75668733821211_3_alg».proof.Proof.RefReadP
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # What the kernel program shares with its reference on the host

The normalisation factors are computed from the edge list by the reference's own host operations, and the pooled sums are
divided by the reference's own clamped counts: at any float family the two terms are the same. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo
variable (m : (ℓ : Loc nD τ sig) → Buf (Elt F) ℓ) (ρ : Dev nD → PrngReg)

/-- No item of the kernel program up to the third launch writes the graph-word argument. -/
theorem W8_graph_words (c : Dev nD) : W8 m ρ c (Proc.devRef .tc main_arg2) = m ((c.tc : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c.tc : Thread nD τ).loc main_arg2) := rfl

set_option maxHeartbeats 2000000 in
/-- The kernel program computes the normalisation factors by the reference's own host operations. -/
theorem factors_shared (c : Dev nD) :
    W3 m ρ c (Proc.devRef .tc main_v14) = Cert.ReferenceIdeal.ReadP.val_main_v15 (F := F) (m ((c.tc : Thread nD τ).loc main_arg1)) := by
  show StableHlo.after hostOps0_2 (StableHlo.after hostOps0_1 (StableHlo.after hostOps0 (W0 m ρ c))) (Proc.devRef .tc main_v14) = _
  after_results
  simp only [TRef.ofBuf, TRef.toBuf, cast_eq]
  rfl

set_option maxHeartbeats 2000000 in
/-- The kernel program's result is its pooled sums divided by the reference's own clamped counts. -/
theorem result_shared (c : Dev nD) :
    W11 m ρ c (Proc.devRef .tc main_v51)
      = Host.divf (W8 m ρ c (Proc.devRef .tc main_v43)) (Cert.ReferenceIdeal.ReadP.val_main_v101 (F := F) (m ((c.tc : Thread nD τ).loc main_arg2))) := by
  show StableHlo.after hostOps3_2 (StableHlo.after hostOps3_1 (StableHlo.after hostOps3 (W8 m ρ c))) (Proc.devRef .tc main_v51) = _
  after_results_simp
  simp only [TRef.ofBuf, TRef.toBuf, cast_eq]
  rw [W8_graph_words]
  rfl

end Cert.KernelIdeal.Hand

end
-- ==== Proof.RefValue.lean ====
import proofs.«411983_j75668733821211_3_alg».proof.Proof.RefReadP
import proofs.«411983_j75668733821211_3_alg».proof.Proof.Spec
import proofs.«411983_j75668733821211_3_alg».proof.Proof.LibGraphRows

/-! # The reference's pooled sums in closed form

The reference adds a self-loop to every node by joining the 1 600 000 edge words with the node numbers
`0 … 99 999`, and runs each graph-convolution layer over the 1 700 000 joined edges: gather the rows the source words
name, weight edge `e` by the normalisation factors of its two ends, scatter-add into the rows the target words name,
add the bias, clamp at zero. The sum over the joined edges splits into the edges proper and the self-loops; a
self-loop `r` lands on row `i` exactly when `r = i`, so that part is the single term of row `i` itself. That is the
edge-weighted arrangement of the layer. The pooled sum scatter-adds the second layer's rows by their graph words. -/

noncomputable section

open scoped BigOperators

namespace Cert.ReferenceIdeal.Hand

open Cert.ReferenceIdeal Cert.ReferenceIdeal.Gen Cert.ReferenceIdeal.ReadP
open Idealize.ShloMosaic Idealize.ShloMosaic.ValueIdx GraphRows

/-! ## Index words: the wrap and the clamp at a word that names a row -/

/-- A word whose signed value is not negative is left as it is by the wrap. -/
theorem wrap_nonneg {n : Nat} {v : BitVec 32} (h : 0 ≤ v.toInt) : wrapIdx n v = v := by
  unfold wrapIdx Scalar.cmpi IntOp.cmpi
  have hs : v.slt 0#32 = false := by
    rw [Bool.eq_false_iff]
    intro hlt
    have := BitVec.slt_iff_toInt_lt.1 hlt
    simp at this
    omega
  simp only [hs]
  exact select_zero _ _

/-- A word whose signed value is the row number `i` is clamped to `i`. -/
theorem clamp_of_toInt {n : Nat} (hn : 0 < n) {v : BitVec 32} (i : Fin n) (h : v.toInt = (i.val : Int)) :
    clampRow n hn v = i := by
  apply Fin.ext
  show min v.toInt.toNat (n - 1) = i.val
  have := i.isLt
  rw [h]; simp; omega

/-- A word that names row `i`, wrapped and clamped, is `i`. -/
theorem clamp_wrap_of_names {n : Nat} (hn : 0 < n) {v : BitVec 32} {i : Fin n} (h : rowOf n v = some i) :
    clampRow n hn (wrapIdx n v) = i := by
  have hv := (rowOf_eq_some_iff v i).1 h
  rw [wrap_nonneg (by omega)]
  exact clamp_of_toInt hn i hv

/-- The signed value of the word of a number below `2 ^ 31` is the number. -/
theorem toInt_word {r : Nat} (hr : r < 2 ^ 31) : (BitVec.ofNat 32 r).toInt = (r : Int) := by
  rw [BitVec.toInt_eq_toNat_cond]
  simp only [BitVec.toNat_ofNat]
  have : r % 2 ^ 32 = r := Nat.mod_eq_of_lt (by omega)
  rw [this, if_pos (by omega)]

/-- The word of the row number `r` names row `r`. -/
theorem names_word {n : Nat} (hn : n ≤ 2 ^ 31) (r : Fin n) : rowOf n (BitVec.ofNat 32 r.val) = some r :=
  (rowOf_eq_some_iff _ r).2 (toInt_word (by have := r.isLt; omega))

/-- The word of the row number `r`, wrapped and clamped, is `r`. -/
theorem clamp_wrap_word {n : Nat} (hn0 : 0 < n) (hn : n ≤ 2 ^ 31) (r : Fin n) :
    clampRow n hn0 (wrapIdx n (BitVec.ofNat 32 r.val)) = r :=
  clamp_wrap_of_names hn0 (names_word hn r)

/-! ## The joined edges: 1 600 000 edges proper, then 100 000 self-loops -/

/-- Edge `e` among the joined edges. -/
def eL (e : Fin 1600000) : Fin 1700000 := ⟨e.val, by have := e.isLt; omega⟩
/-- The self-loop of node `r` among the joined edges. -/
def eR (r : Fin 100000) : Fin 1700000 := ⟨1600000 + r.val, by have := r.isLt; omega⟩

/-- A sum over the joined edges is the sum over the edges proper plus the sum over the self-loops. -/
theorem sum_joined {M : Type*} [AddCommMonoid M] (f : Fin 1700000 → M) :
    ∑ e', f e' = ∑ e : Fin 1600000, f (eL e) + ∑ r : Fin 100000, f (eR r) :=
  Fin.sum_univ_add (a := 1600000) (b := 100000) f

section Words

variable (x1 : (⟨S2x1600000, .i32⟩ : BufTy).Contents (Elt Ideal))

/-- The joined source words: on an edge proper the edge's source word … -/
theorem v6_left (e : Fin 1600000) : val_main_v6 (F := Ideal) x1 (ix1 (eL e)) = x1 (ix2 (0 : Fin 2) e) := by
  unfold val_main_v6
  rw [concatenate_pair_apply_left (0 : Fin S1700000.rank) (val_main_v1 (F := Ideal) x1) (val_main_v5 (F := Ideal))
    concatenates_S1600000_S100000_S1700000_d0 (ix1 (eL e)) rfl (ix1 e)
    (fun b => by obtain rfl : b = 0 := Subsingleton.elim _ _; rfl)]
  rw [val_main_v1_apply, val_main_v0_apply]
  congr 1
  funext a
  match a with
  | ⟨0, _⟩ => rfl
  | ⟨1, _⟩ => exact Fin.ext (Nat.mod_eq_of_lt e.isLt)
/-- … and on a self-loop the word of the node's number. -/
theorem v6_right (r : Fin 100000) : val_main_v6 (F := Ideal) x1 (ix1 (eR r)) = BitVec.ofNat 32 r.val := by
  unfold val_main_v6
  rw [concatenate_pair_apply_right (0 : Fin S1700000.rank) (val_main_v1 (F := Ideal) x1) (val_main_v5 (F := Ideal))
    concatenates_S1600000_S100000_S1700000_d0 (ix1 (eR r)) rfl rfl (ix1 r)
    (fun b hb => absurd (Subsingleton.elim _ _) hb) (by show r.val + 1600000 = 1600000 + r.val; omega)]
  rfl

/-- The joined target words, the same way. -/
theorem v7_left (e : Fin 1600000) : val_main_v7 (F := Ideal) x1 (ix1 (eL e)) = x1 (ix2 (1 : Fin 2) e) := by
  unfold val_main_v7
  rw [concatenate_pair_apply_left (0 : Fin S1700000.rank) (val_main_v3 (F := Ideal) x1) (val_main_v5 (F := Ideal))
    concatenates_S1600000_S100000_S1700000_d0 (ix1 (eL e)) rfl (ix1 e)
    (fun b => by obtain rfl : b = 0 := Subsingleton.elim _ _; rfl)]
  rw [val_main_v3_apply, val_main_v2_apply]
  congr 1
  funext a
  match a with
  | ⟨0, _⟩ => rfl
  | ⟨1, _⟩ => exact Fin.ext (Nat.mod_eq_of_lt e.isLt)
theorem v7_right (r : Fin 100000) : val_main_v7 (F := Ideal) x1 (ix1 (eR r)) = BitVec.ofNat 32 r.val := by
  unfold val_main_v7
  rw [concatenate_pair_apply_right (0 : Fin S1700000.rank) (val_main_v3 (F := Ideal) x1) (val_main_v5 (F := Ideal))
    concatenates_S1600000_S100000_S1700000_d0 (ix1 (eR r)) rfl rfl (ix1 r)
    (fun b hb => absurd (Subsingleton.elim _ _) hb) (by show r.val + 1600000 = 1600000 + r.val; omega)]
  rfl

/-- The column of joined edge `e'` in a one-column array of words is the word of `e'`. -/
theorem col_idx (e' : Fin 1700000) :
    (fun a : Fin 1 => match a with | ⟨0, _⟩ => (⟨((ix2 e' (0 : Fin 1) : S1700000x1.Idx) 0).val, ((ix2 e' (0 : Fin 1) : S1700000x1.Idx) 0).isLt⟩ : Fin 1700000))
      = (ix1 e' : S1700000.Idx) := funext fun a => match a with | ⟨0, _⟩ => rfl

/-- The scatter's index column is the joined target words. -/
theorem v42_col (e' : Fin 1700000) :
    val_main_v42 (F := Ideal) x1 (ix2 e' (0 : Fin 1)) = val_main_v7 (F := Ideal) x1 (ix1 e') := by
  rw [val_main_v42_apply]; exact congrArg _ (col_idx e')

/-- The row gather's index column is the wrapped joined source words. -/
theorem v36_col (e' : Fin 1700000) :
    val_main_v36 (F := Ideal) x1 (ix2 e' (0 : Fin 1)) = wrapIdx 100000 (val_main_v6 (F := Ideal) x1 (ix1 e')) := by
  rw [val_main_v36_apply, show idx_main_v36 (ix2 e' (0 : Fin 1)) = (ix1 e' : S1700000.Idx) from col_idx e',
    val_main_v35_apply, val_main_v32_apply, val_main_v34_apply, val_main_v31_apply, val_main_c_6_apply, val_main_v33_apply,
    val_main_c_7_apply]
  rfl
/-- The factor gathers' index columns are the wrapped joined source words and the wrapped joined target words. -/
theorem v21_col (e' : Fin 1700000) :
    val_main_v21 (F := Ideal) x1 (ix2 e' (0 : Fin 1)) = wrapIdx 100000 (val_main_v6 (F := Ideal) x1 (ix1 e')) := by
  rw [val_main_v21_apply, show idx_main_v21 (ix2 e' (0 : Fin 1)) = (ix1 e' : S1700000.Idx) from col_idx e',
    val_main_v20_apply, val_main_v17_apply, val_main_v19_apply, val_main_v16_apply, val_main_c_apply, val_main_v18_apply,
    val_main_c_3_apply]
  rfl
theorem v28_col (e' : Fin 1700000) :
    val_main_v28 (F := Ideal) x1 (ix2 e' (0 : Fin 1)) = wrapIdx 100000 (val_main_v7 (F := Ideal) x1 (ix1 e')) := by
  rw [val_main_v28_apply, show idx_main_v28 (ix2 e' (0 : Fin 1)) = (ix1 e' : S1700000.Idx) from col_idx e',
    val_main_v27_apply, val_main_v24_apply, val_main_v26_apply, val_main_v23_apply, val_main_c_4_apply, val_main_v25_apply,
    val_main_c_5_apply]
  rfl

end Words

/-- A per-edge array broadcast along the 128 feature lanes reads, at `(e', j)`, the edge's element. -/
theorem bc2_apply {α : Type} (y : S1700000.Idx → α) (e' : Fin 1700000) (j : Fin 128) :
    broadcastInDim S1700000x128 ![0, 1] bcast_S1700000x1_S1700000x128_0_1
      (broadcastInDim S1700000x1 ![0] bcast_S1700000_S1700000x1_0 y) (ix2 e' j) = y (ix1 e') := by
  rw [broadcastInDim_apply _ bcast_S1700000x1_S1700000x128_0_1 _ (ix2 e' j) (ix2 e' (0 : Fin 1)) (fun a => match a with
      | ⟨0, _⟩ => by show e'.val = if (1700000 : Nat) = 1 then 0 else e'.val; rw [if_neg (by decide)]
      | ⟨1, _⟩ => by show 0 = if (1 : Nat) = 1 then 0 else j.val; rw [if_pos rfl]),
    broadcastInDim_apply _ bcast_S1700000_S1700000x1_0 y (ix2 e' (0 : Fin 1)) (ix1 e') (fun a => match a with
      | ⟨0, _⟩ => by show e'.val = if (1700000 : Nat) = 1 then 0 else e'.val; rw [if_neg (by decide)])]

/-! ## One layer over a generic hidden array

`h` is the array of rows the edges gather (the features through a layer's weights), `dv` the normalisation factor,
`bias` the layer's bias row. Both layers of the reference are this term: at the first `h` is the features through the
first weights, at the second the first layer's rows through the second weights. -/

section Layer

variable (x1 : (⟨S2x1600000, .i32⟩ : BufTy).Contents (Elt Ideal)) (h : FVec Ideal S100000x128 .f32) (dv : FVec Ideal S100000 .f32) (bias : FVec Ideal S128 .f32)

/-- The weight of a joined edge: the factor at its wrapped source word times the factor at its wrapped target word. -/
def edgeW : FVec Ideal S1700000 .f32 :=
  mulf (F := Ideal) (φ := .f32)
    (Host.gather (α := Ideal .f32) gather_S100000_S1700000x1_S1700000_n_0_n_n_0_1_1 dv (val_main_v21 (F := Ideal) x1))
    (Host.gather (α := Ideal .f32) gather_S100000_S1700000x1_S1700000_n_0_n_n_0_1_1 dv (val_main_v28 (F := Ideal) x1))

/-- The rows the joined edges add: the gathered source rows times the edge weights. -/
def updRows : FVec Ideal S1700000x128 .f32 :=
  mulf (F := Ideal) (φ := .f32)
    (Host.gather (α := Ideal .f32) gather_S100000x128_S1700000x1_S1700000x128_1_0_n_n_0_1_1128 h (val_main_v36 (F := Ideal) x1))
    (broadcastInDim S1700000x128 ![0, 1] bcast_S1700000x1_S1700000x128_0_1
      (broadcastInDim S1700000x1 ![0] bcast_S1700000_S1700000x1_0 (edgeW x1 dv)))

/-- The layer: scatter-add of the edge rows into zeros by the joined target words, plus the bias row, clamped at zero. -/
def layer : FVec Ideal S100000x128 .f32 :=
  maximumf (F := Ideal) (φ := .f32)
    (addf (F := Ideal) (φ := .f32)
      (Host.scatterAdd (F := Ideal) (φ := .f32) scatter_S100000x128_S1700000x1_S1700000x128_1_0_0_1 (val_main_v41 (F := Ideal))
        (val_main_v42 (F := Ideal) x1) (updRows x1 h dv))
      (val_main_v45 (F := Ideal) bias))
    (val_main_call1_v0 (F := Ideal))

/-- The weight of joined edge `e'`. -/
theorem edgeW_apply (e' : Fin 1700000) :
    edgeW x1 dv (ix1 e')
      = dv (ix1 (clampRow 100000 (by decide) (wrapIdx 100000 (val_main_v6 (F := Ideal) x1 (ix1 e')))))
        * dv (ix1 (clampRow 100000 (by decide) (wrapIdx 100000 (val_main_v7 (F := Ideal) x1 (ix1 e'))))) := by
  unfold edgeW
  rw [mulf_apply]
  have g1 : Host.gather (α := Ideal .f32) gather_S100000_S1700000x1_S1700000_n_0_n_n_0_1_1 dv (val_main_v21 (F := Ideal) x1) (ix1 e')
      = dv (ix1 (clampRow 100000 (by decide) (val_main_v21 (F := Ideal) x1 (ix2 e' 0)))) :=
    gather_vec_apply (by decide) gather_S100000_S1700000x1_S1700000_n_0_n_n_0_1_1.wf dv (val_main_v21 (F := Ideal) x1) e'
  have g2 : Host.gather (α := Ideal .f32) gather_S100000_S1700000x1_S1700000_n_0_n_n_0_1_1 dv (val_main_v28 (F := Ideal) x1) (ix1 e')
      = dv (ix1 (clampRow 100000 (by decide) (val_main_v28 (F := Ideal) x1 (ix2 e' 0)))) :=
    gather_vec_apply (by decide) gather_S100000_S1700000x1_S1700000_n_0_n_n_0_1_1.wf dv (val_main_v28 (F := Ideal) x1) e'
  rw [g1, g2, v21_col, v28_col]

/-- The row joined edge `e'` adds, at lane `j`. -/
theorem updRows_apply (e' : Fin 1700000) (j : Fin 128) :
    updRows x1 h dv (ix2 e' j)
      = h (ix2 (clampRow 100000 (by decide) (wrapIdx 100000 (val_main_v6 (F := Ideal) x1 (ix1 e')))) j) * edgeW x1 dv (ix1 e') := by
  unfold updRows
  rw [mulf_apply, bc2_apply]
  have g : Host.gather (α := Ideal .f32) gather_S100000x128_S1700000x1_S1700000x128_1_0_n_n_0_1_1128 h (val_main_v36 (F := Ideal) x1) (ix2 e' j)
      = h (ix2 (clampRow 100000 (by decide) (val_main_v36 (F := Ideal) x1 (ix2 e' 0))) j) :=
    gather_rows_apply (by decide) gather_S100000x128_S1700000x1_S1700000x128_1_0_n_n_0_1_1128.wf h (val_main_v36 (F := Ideal) x1) e' j
  rw [g, v36_col]

/-! The rows and the factor enter the layer's value only through their elements by coordinates: `H r j` for the row
array at `(r, j)`, `D r` for the factor at `r`, `B j` for the bias at `j`. -/

/-- The edges proper: those whose target word names row `i` add the row their source word names, weighted by the
    factors of the source row and of row `i`. -/
theorem edges_part {H : Fin 100000 → Fin 128 → EReal} {D : Fin 100000 → EReal} (hH : ∀ r j, h (ix2 r j) = H r j) (hD : ∀ r, dv (ix1 r) = D r) (i : Fin 100000) (j : Fin 128) :
    ∑ e : Fin 1600000, (if rowOf 100000 (val_main_v42 (F := Ideal) x1 (ix2 (eL e) 0)) = some i
        then updRows x1 h dv (ix2 (eL e) j) else 0)
      = ∑ e ∈ Finset.univ.filter (fun e => Cert.Spec.tgt x1 e = some i),
          H (Cert.Spec.src x1 e) j * (D (Cert.Spec.src x1 e) * D i) := by
  unfold Cert.Spec.tgt Cert.Spec.src
  rw [Finset.sum_filter]
  refine Finset.sum_congr rfl fun e _ => ?_
  rw [v42_col, v7_left]
  by_cases ht : rowOf 100000 (x1 (ix2 (1 : Fin 2) e)) = some i
  · rw [if_pos ht, if_pos ht, updRows_apply, edgeW_apply, v6_left, v7_left, clamp_wrap_of_names (by decide) ht, hH, hD, hD]
  · rw [if_neg ht, if_neg ht]

/-- The self-loops: node `r`'s lands on row `i` exactly when `r = i`, so the part is the one term of row `i` itself. -/
theorem loops_part {H : Fin 100000 → Fin 128 → EReal} {D : Fin 100000 → EReal} (hH : ∀ r j, h (ix2 r j) = H r j) (hD : ∀ r, dv (ix1 r) = D r) (i : Fin 100000) (j : Fin 128) :
    ∑ r : Fin 100000, (if rowOf 100000 (val_main_v42 (F := Ideal) x1 (ix2 (eR r) 0)) = some i
        then updRows x1 h dv (ix2 (eR r) j) else 0)
      = H i j * (D i * D i) := by
  have hl : ∀ r : Fin 100000,
      (if rowOf 100000 (val_main_v42 (F := Ideal) x1 (ix2 (eR r) 0)) = some i then updRows x1 h dv (ix2 (eR r) j) else 0)
        = if r = i then H r j * (D r * D r) else 0 := fun r => by
    rw [v42_col, v7_right, names_word (by decide) r]
    by_cases hr : r = i
    · rw [if_pos (by rw [hr]), if_pos hr, updRows_apply, edgeW_apply, v6_right, v7_right,
        clamp_wrap_word (by decide) (by decide) r, hH, hD]
    · rw [if_neg (fun hh => hr (Option.some.inj hh)), if_neg hr]
  rw [Finset.sum_congr rfl fun r _ => hl r, Finset.sum_ite_eq' Finset.univ i, if_pos (Finset.mem_univ i)]

/-- The sum over the joined edges of the rows landing on row `i`: the edges' part plus the self-loops' part. -/
theorem joined_sum {H : Fin 100000 → Fin 128 → EReal} {D : Fin 100000 → EReal} (hH : ∀ r j, h (ix2 r j) = H r j) (hD : ∀ r, dv (ix1 r) = D r) (i : Fin 100000) (j : Fin 128) :
    ∑ e' ∈ Finset.univ.filter (fun e' : Fin 1700000 => rowOf 100000 (val_main_v42 (F := Ideal) x1 (ix2 e' 0)) = some i),
        updRows x1 h dv (ix2 e' j)
      = (∑ e ∈ Finset.univ.filter (fun e => Cert.Spec.tgt x1 e = some i),
          H (Cert.Spec.src x1 e) j * (D (Cert.Spec.src x1 e) * D i))
        + H i j * (D i * D i) :=
  (Finset.sum_filter (fun e' : Fin 1700000 => rowOf 100000 (val_main_v42 (F := Ideal) x1 (ix2 e' 0)) = some i)
      (fun e' => updRows x1 h dv (ix2 e' j))).trans
    ((sum_joined (fun e' : Fin 1700000 => if rowOf 100000 (val_main_v42 (F := Ideal) x1 (ix2 e' 0)) = some i
        then updRows x1 h dv (ix2 e' j) else 0)).trans
      (congrArg₂ (· + ·) (edges_part x1 h dv hH hD i j) (loops_part x1 h dv hH hD i j)))

/-- The printed dimension numbers of the layers' row scatter are the row scatter's. -/
theorem scat_rows_eq : scatter_S100000x128_S1700000x1_S1700000x128_1_0_0_1
    = rowScatter 100000 1700000 128 scatter_S100000x128_S1700000x1_S1700000x128_1_0_0_1.wf := rfl

/-- The layer's scatter-add read at `(i, j)`: the zeros' element plus the rows of the joined edges whose target word
    names row `i`. -/
theorem scat_layer (i : Fin 100000) (j : Fin 128) :
    Host.scatterAdd (F := Ideal) (φ := .f32) scatter_S100000x128_S1700000x1_S1700000x128_1_0_0_1 (val_main_v41 (F := Ideal))
        (val_main_v42 (F := Ideal) x1) (updRows x1 h dv) (ix2 i j)
      = val_main_v41 (F := Ideal) (ix2 i j) + ∑ e' ∈ Finset.univ.filter (fun e' : Fin 1700000 =>
          rowOf 100000 (val_main_v42 (F := Ideal) x1 (ix2 e' 0)) = some i), updRows x1 h dv (ix2 e' j) := by
  rw [scat_rows_eq]
  exact hostScatterAdd_rows_apply _ (val_main_v41 (F := Ideal)) (val_main_v42 (F := Ideal) x1) (updRows x1 h dv) i j

/-- THE LAYER'S ROW `i` AT LANE `j`: the edge-weighted arrangement. The scatter starts from zeros, the sum over the
    joined edges is `joined_sum`, and the bias row is added before the clamp at zero. -/
theorem layer_row {H : Fin 100000 → Fin 128 → EReal} {D : Fin 100000 → EReal} {B : Fin 128 → EReal} (hH : ∀ r j, h (ix2 r j) = H r j) (hD : ∀ r, dv (ix1 r) = D r) (hB : ∀ j, bias (ix1 j) = B j)
    (i : Fin 100000) (j : Fin 128) :
    layer x1 h dv bias (ix2 i j)
      = max ((∑ e ∈ Finset.univ.filter (fun e => Cert.Spec.tgt x1 e = some i),
              H (Cert.Spec.src x1 e) j * (D (Cert.Spec.src x1 e) * D i))
            + H i j * (D i * D i) + B j) 0 := by
  have hz : val_main_call1_v0 (F := Ideal) (ix2 i j) = 0 := by
    rw [val_main_call1_v0_apply, val_main_call1_cst_apply, Ideal.ofBits_def, Ideal.ofBits_zero_f32]
  have hb : val_main_v45 (F := Ideal) bias (ix2 i j) = B j := by
    rw [val_main_v45_apply, val_main_v44_apply, ← hB]
    exact congrArg _ (funext fun a => match a with | ⟨0, _⟩ => rfl)
  have h0 : val_main_v41 (F := Ideal) (ix2 i j) = 0 := by
    rw [val_main_v41_apply, val_main_cst_8_apply, Ideal.ofBits_def, Ideal.ofBits_zero_f32]
  unfold layer
  rw [maximumf_apply, addf_apply, hz, hb, scat_layer, h0, zero_add, joined_sum x1 h dv hH hD]

end Layer

/-! ## The second layer's index stages are second copies of the first layer's -/

theorem v49_eq : val_main_v49 (F := Ideal) = val_main_v5 (F := Ideal) := rfl
theorem v50_eq (x1 : (⟨S2x1600000, .i32⟩ : BufTy).Contents (Elt Ideal)) : val_main_v50 (F := Ideal) x1 = val_main_v6 (F := Ideal) x1 := rfl
theorem v51_eq (x1 : (⟨S2x1600000, .i32⟩ : BufTy).Contents (Elt Ideal)) : val_main_v51 (F := Ideal) x1 = val_main_v7 (F := Ideal) x1 := rfl
theorem v55_eq (x1 : (⟨S2x1600000, .i32⟩ : BufTy).Contents (Elt Ideal)) : val_main_v55 (F := Ideal) x1 = val_main_v11 (F := Ideal) x1 := rfl
theorem v59_eq (x1 : (⟨S2x1600000, .i32⟩ : BufTy).Contents (Elt Ideal)) : val_main_v59 (F := Ideal) x1 = val_main_v15 (F := Ideal) x1 := rfl
theorem v64_eq (x1 : (⟨S2x1600000, .i32⟩ : BufTy).Contents (Elt Ideal)) : val_main_v64 (F := Ideal) x1 = val_main_v20 (F := Ideal) x1 := rfl
theorem v65_eq (x1 : (⟨S2x1600000, .i32⟩ : BufTy).Contents (Elt Ideal)) : val_main_v65 (F := Ideal) x1 = val_main_v21 (F := Ideal) x1 := rfl
theorem v71_eq (x1 : (⟨S2x1600000, .i32⟩ : BufTy).Contents (Elt Ideal)) : val_main_v71 (F := Ideal) x1 = val_main_v27 (F := Ideal) x1 := rfl
theorem v72_eq (x1 : (⟨S2x1600000, .i32⟩ : BufTy).Contents (Elt Ideal)) : val_main_v72 (F := Ideal) x1 = val_main_v28 (F := Ideal) x1 := rfl
theorem v79_eq (x1 : (⟨S2x1600000, .i32⟩ : BufTy).Contents (Elt Ideal)) : val_main_v79 (F := Ideal) x1 = val_main_v35 (F := Ideal) x1 := rfl
theorem v80_eq (x1 : (⟨S2x1600000, .i32⟩ : BufTy).Contents (Elt Ideal)) : val_main_v80 (F := Ideal) x1 = val_main_v36 (F := Ideal) x1 := rfl
theorem v85_eq : val_main_v85 (F := Ideal) = val_main_v41 (F := Ideal) := rfl
theorem v86_eq (x1 : (⟨S2x1600000, .i32⟩ : BufTy).Contents (Elt Ideal)) : val_main_v86 (F := Ideal) x1 = val_main_v42 (F := Ideal) x1 := rfl
theorem call3_v0_eq : val_main_call3_v0 (F := Ideal) = val_main_call1_v0 (F := Ideal) := rfl

/-! ## The two arrangements' definitions, restated

Over any index types the edge-weighted layer is, by definition, this maximum of a sum; stated once here so that the
reference's rows are matched against it term by term. -/

section Forms

variable {N E K J Fd : Type*} [Fintype E] [Fintype K] [Fintype J] [DecidableEq N]
variable (tgt : E → Option N) (src : E → N) (d : N → EReal) (x : N → K → EReal) (w1 : K → J → EReal) (b1 : J → EReal)
  (w2 : J → Fd → EReal) (b2 : Fd → EReal)

theorem rH_eq (r : N) (j : J) : GcnForms.rH x w1 r j = ∑ k, x r k * w1 k j := rfl
theorem rAct1_eq (i : N) (j : J) :
    GcnForms.rAct1 tgt src d x w1 b1 i j
      = max ((∑ e ∈ Finset.univ.filter (fun e => tgt e = some i), GcnForms.rH x w1 (src e) j * (d (src e) * d i))
          + GcnForms.rH x w1 i j * (d i * d i) + b1 j) 0 := rfl
theorem rH2_eq (r : N) (f : Fd) :
    GcnForms.rH2 tgt src d x w1 b1 w2 r f = ∑ j, GcnForms.rAct1 tgt src d x w1 b1 r j * w2 j f := rfl
theorem rAct2_eq (i : N) (f : Fd) :
    GcnForms.rAct2 tgt src d x w1 b1 w2 b2 i f
      = max ((∑ e ∈ Finset.univ.filter (fun e => tgt e = some i),
            GcnForms.rH2 tgt src d x w1 b1 w2 (src e) f * (d (src e) * d i))
          + GcnForms.rH2 tgt src d x w1 b1 w2 i f * (d i * d i) + b2 f) 0 := rfl

end Forms

/-! ## The two layers of the reference -/

section Reference

variable (x0 : (⟨S100000x64, .f32⟩ : BufTy).Contents (Elt Ideal)) (x1 : (⟨S2x1600000, .i32⟩ : BufTy).Contents (Elt Ideal)) (x2 : (⟨S100000, .i32⟩ : BufTy).Contents (Elt Ideal))
  (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))

/-- The first layer of the reference is the layer over the features through the first weights: the stages unfold to
    the same term. -/
theorem v47_eq_layer : val_main_v47 (F := Ideal) x0 x1 x3 x4
    = layer x1 (val_main_v4 (F := Ideal) x0 x3) (val_main_v15 (F := Ideal) x1) x4 := by
  unfold val_main_v47 val_main_v46 val_main_v43 val_main_v40 val_main_v37 val_main_v39 val_main_v38 val_main_v30 val_main_v22
    val_main_v29 layer updRows edgeW
  rfl

/-- The second layer of the reference is the same term over the first layer's rows through the second weights: its
    index stages, its zeros, its normalisation factor are second copies of the first layer's, stage by stage. -/
theorem v91_eq_layer : val_main_v91 (F := Ideal) x0 x1 x3 x4 x5 x6
    = layer x1 (val_main_v48 (F := Ideal) x0 x1 x3 x4 x5) (val_main_v15 (F := Ideal) x1) x6 := by
  unfold val_main_v91 val_main_v90 val_main_v87 val_main_v84 val_main_v81 val_main_v83 val_main_v82 val_main_v74 val_main_v66
    val_main_v73 val_main_v89 val_main_v88 layer updRows edgeW val_main_v45 val_main_v44
  rw [v85_eq, v86_eq, v80_eq, v65_eq, v72_eq, v59_eq, call3_v0_eq]

/-- The features through the first weights, by coordinates. -/
theorem v4_row (r : Fin 100000) (j : Fin 128) :
    val_main_v4 (F := Ideal) x0 x3 (ix2 r j) = GcnForms.rH (Cert.Spec.xR x0) (Cert.Spec.w1R x3) r j := by
  rw [val_main_v4_apply, rH_eq]
  refine Finset.sum_congr rfl fun k _ => ?_
  rw [show lidx_main_v4 (ix2 r j) k = (ix2 r k : S100000x64.Idx) from
      funext fun a => match a with | ⟨0, _⟩ => rfl | ⟨1, _⟩ => rfl,
    show ridx_main_v4 (ix2 r j) k = (ix2 k j : S64x128.Idx) from
      funext fun a => match a with | ⟨0, _⟩ => rfl | ⟨1, _⟩ => rfl]
  rfl

/-- (A) THE FIRST LAYER'S ROWS are the edge-weighted arrangement of the first layer. -/
theorem first_rows (i : Fin 100000) (j : Fin 128) :
    val_main_v47 (F := Ideal) x0 x1 x3 x4 (ix2 i j)
      = GcnForms.rAct1 (Cert.Spec.tgt x1) (Cert.Spec.src x1) (Cert.Spec.dR (val_main_v15 (F := Ideal) x1)) (Cert.Spec.xR x0)
          (Cert.Spec.w1R x3) (Cert.Spec.b1R x4) i j :=
  (congrFun (v47_eq_layer x0 x1 x3 x4) (ix2 i j)).trans
    ((layer_row x1 (val_main_v4 (F := Ideal) x0 x3) (val_main_v15 (F := Ideal) x1) x4
        (H := GcnForms.rH (Cert.Spec.xR x0) (Cert.Spec.w1R x3)) (D := Cert.Spec.dR (val_main_v15 (F := Ideal) x1))
        (B := Cert.Spec.b1R x4) (v4_row x0 x3) (fun _ => rfl) (fun _ => rfl) i j).trans
      (rAct1_eq (Cert.Spec.tgt x1) (Cert.Spec.src x1) (Cert.Spec.dR (val_main_v15 (F := Ideal) x1)) (Cert.Spec.xR x0)
        (Cert.Spec.w1R x3) (Cert.Spec.b1R x4) i j).symm)

/-- The first layer's rows through the second weights, by coordinates. -/
theorem v48_row (r : Fin 100000) (f : Fin 128) :
    val_main_v48 (F := Ideal) x0 x1 x3 x4 x5 (ix2 r f)
      = GcnForms.rH2 (Cert.Spec.tgt x1) (Cert.Spec.src x1) (Cert.Spec.dR (val_main_v15 (F := Ideal) x1)) (Cert.Spec.xR x0)
          (Cert.Spec.w1R x3) (Cert.Spec.b1R x4) (Cert.Spec.w2R x5) r f := by
  rw [val_main_v48_apply, rH2_eq]
  refine Finset.sum_congr rfl fun k _ => ?_
  rw [show lidx_main_v48 (ix2 r f) k = (ix2 r k : S100000x128.Idx) from
      funext fun a => match a with | ⟨0, _⟩ => rfl | ⟨1, _⟩ => rfl,
    show ridx_main_v48 (ix2 r f) k = (ix2 k f : S128x128.Idx) from
      funext fun a => match a with | ⟨0, _⟩ => rfl | ⟨1, _⟩ => rfl,
    first_rows]
  rfl

/-- The second layer's rows of the specification are, by definition, the edge-weighted arrangement of the two layers. -/
theorem rRows_eq (i : Fin 100000) (f : Fin 128) :
    Cert.Spec.rRows x0 x1 x3 x4 x5 x6 (val_main_v15 (F := Ideal) x1) i f
      = GcnForms.rAct2 (Cert.Spec.tgt x1) (Cert.Spec.src x1) (Cert.Spec.dR (val_main_v15 (F := Ideal) x1)) (Cert.Spec.xR x0)
          (Cert.Spec.w1R x3) (Cert.Spec.b1R x4) (Cert.Spec.w2R x5) (Cert.Spec.b2R x6) i f := rfl

/-- (B) THE SECOND LAYER'S ROWS are the edge-weighted arrangement of the two layers. -/
theorem second_rows (i : Fin 100000) (f : Fin 128) :
    val_main_v91 (F := Ideal) x0 x1 x3 x4 x5 x6 (ix2 i f)
      = Cert.Spec.rRows x0 x1 x3 x4 x5 x6 (val_main_v15 (F := Ideal) x1) i f :=
  (congrFun (v91_eq_layer x0 x1 x3 x4 x5 x6) (ix2 i f)).trans
    ((layer_row x1 (val_main_v48 (F := Ideal) x0 x1 x3 x4 x5) (val_main_v15 (F := Ideal) x1) x6
        (H := GcnForms.rH2 (Cert.Spec.tgt x1) (Cert.Spec.src x1) (Cert.Spec.dR (val_main_v15 (F := Ideal) x1)) (Cert.Spec.xR x0)
          (Cert.Spec.w1R x3) (Cert.Spec.b1R x4) (Cert.Spec.w2R x5))
        (D := Cert.Spec.dR (val_main_v15 (F := Ideal) x1)) (B := Cert.Spec.b2R x6)
        (v48_row x0 x1 x3 x4 x5) (fun _ => rfl) (fun _ => rfl) i f).trans
      ((rAct2_eq (Cert.Spec.tgt x1) (Cert.Spec.src x1) (Cert.Spec.dR (val_main_v15 (F := Ideal) x1)) (Cert.Spec.xR x0)
        (Cert.Spec.w1R x3) (Cert.Spec.b1R x4) (Cert.Spec.w2R x5) (Cert.Spec.b2R x6) i f).symm.trans
        (rRows_eq x0 x1 x3 x4 x5 x6 i f).symm))

/-- The printed dimension numbers of the pooling scatter are the row scatter's. -/
theorem scat_pool_eq : scatter_S512x128_S100000x1_S100000x128_1_0_0_1
    = rowScatter 512 100000 128 scatter_S512x128_S100000x1_S100000x128_1_0_0_1.wf := rfl

/-- The pooled sums of the specification are, by definition, the sum over the rows whose graph word names the graph. -/
theorem rOut_eq (g : Fin 512) (f : Fin 128) :
    Cert.Spec.rOut x0 x1 x2 x3 x4 x5 x6 (val_main_v15 (F := Ideal) x1) g f
      = ∑ r ∈ Finset.univ.filter (fun r : Fin 100000 => rowOf 512 (x2 (ix1 r)) = some g),
          Cert.Spec.rRows x0 x1 x3 x4 x5 x6 (val_main_v15 (F := Ideal) x1) r f := rfl

/-- The pooling scatter-add read at `(g, f)`: the zeros' element plus the second layer's rows whose graph word names `g`. -/
theorem scat_pool (g : Fin 512) (f : Fin 128) :
    val_main_v94 (F := Ideal) x0 x1 x2 x3 x4 x5 x6 (ix2 g f)
      = val_main_v92 (F := Ideal) (ix2 g f) + ∑ r ∈ Finset.univ.filter (fun r : Fin 100000 =>
          rowOf 512 (val_main_v93 (F := Ideal) x2 (ix2 r 0)) = some g), val_main_v91 (F := Ideal) x0 x1 x3 x4 x5 x6 (ix2 r f) := by
  unfold val_main_v94
  rw [scat_pool_eq]
  exact hostScatterAdd_rows_apply _ (val_main_v92 (F := Ideal)) (val_main_v93 (F := Ideal) x2)
    (val_main_v91 (F := Ideal) x0 x1 x3 x4 x5 x6) g f

/-- (C) THE POOLED SUMS: graph `g`'s sum of the second layer's rows whose graph word names it. -/
theorem ref_sums (g : Fin 512) (f : Fin 128) :
    Cert.ReferenceIdeal.ReadP.val_main_v94 (F := Ideal) x0 x1 x2 x3 x4 x5 x6 (ValueIdx.ix2 g f)
      = Cert.Spec.rOut x0 x1 x2 x3 x4 x5 x6 (Cert.ReferenceIdeal.ReadP.val_main_v15 (F := Ideal) x1) g f := by
  have h0 : val_main_v92 (F := Ideal) (ix2 g f) = 0 := by
    rw [val_main_v92_apply, val_main_cst_20_apply, Ideal.ofBits_def, Ideal.ofBits_zero_f32]
  have hc : ∀ r : Fin 100000, val_main_v93 (F := Ideal) x2 (ix2 r (0 : Fin 1)) = x2 (ix1 r) := fun r => by
    rw [val_main_v93_apply]
    exact congrArg _ (funext fun a => match a with | ⟨0, _⟩ => rfl)
  rw [scat_pool, h0, zero_add, rOut_eq, Finset.sum_filter, Finset.sum_filter]
  refine Finset.sum_congr rfl fun r _ => ?_
  rw [hc, second_rows]

end Reference

end Cert.ReferenceIdeal.Hand

end
-- ==== Proof.LibRealClosure.lean ====
/-
  Real-valuedness of extended-real arrays: closure of "is a real number" (neither +∞ nor −∞) under the
  operations a network's programs apply, stated both for the plain extended-real operation and for the
  operation as a program spells it at the ideal float values; with it the values of a few bit patterns,
  the power v ^ (-1/2) at v ≥ 1, the exponential, column maxima and minima, and the min–max normalisation.
-/
import Idealize.ShloMosaic.PureOps.Ideal
import Idealize.ShloMosaic.PureOps.Ideal.Laws
import Idealize.ShloMosaic.Lib.ValueIdx
import Mathlib.Data.EReal.Inv
import Mathlib.Analysis.SpecialFunctions.Pow.Real
import Mathlib.Data.Finset.Fold

open scoped BigOperators

namespace RealClosure

open Idealize.ShloMosaic Idealize.ShloMosaic.ValueIdx

/-- An extended real that is a real number. -/
@[reducible] def IsReal (x : EReal) : Prop := ∃ r : ℝ, x = (r : EReal)

/-! ## Basic facts -/

theorem isReal_coe (r : ℝ) : IsReal (r : EReal) := ⟨r, rfl⟩
theorem isReal_zero : IsReal 0 := ⟨0, rfl⟩
theorem isReal_one : IsReal 1 := ⟨1, rfl⟩
theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r
theorem isReal_of_ne {x : EReal} (hb : x ≠ ⊥) (ht : x ≠ ⊤) : IsReal x :=
  ⟨x.toReal, (EReal.coe_toReal ht hb).symm⟩
theorem isReal_iff {x : EReal} : IsReal x ↔ x ≠ ⊥ ∧ x ≠ ⊤ :=
  ⟨fun h => ⟨h.ne_bot, h.ne_top⟩, fun h => isReal_of_ne h.1 h.2⟩
theorem IsReal.coe_toReal {x : EReal} (h : IsReal x) : (x.toReal : EReal) = x :=
  EReal.coe_toReal h.ne_top h.ne_bot
/-- A real-valued family is the coercion of a family of reals. -/
theorem exists_real_fun {ι : Sort*} {f : ι → EReal} (h : ∀ i, IsReal (f i)) : ∃ g : ι → ℝ, f = fun i => (g i : EReal) :=
  ⟨fun i => (f i).toReal, funext fun i => (h i).coe_toReal.symm⟩

/-! ## The plain operations of the extended reals -/

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption
theorem IsReal.ite {p : Prop} [Decidable p] {x y : EReal} (hx : IsReal x) (hy : IsReal y) :
    IsReal (if p then x else y) := by
  split_ifs <;> assumption
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))
theorem isReal_sum_univ {ι : Type*} [Fintype ι] (f : ι → EReal) (h : ∀ i, IsReal (f i)) :
    IsReal (∑ i, f i) := isReal_sum _ f fun i _ => h i
/-- A sum of reals is the real sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]
/-- A sum over a set with an element, of positive reals, is positive. -/
theorem sum_pos_of_isReal {ι : Type*} (s : Finset ι) (f : ι → EReal) (h : ∀ i ∈ s, IsReal (f i))
    (hp : ∀ i ∈ s, 0 < f i) (hne : s.Nonempty) : 0 < ∑ i ∈ s, f i := by
  have e : ∑ i ∈ s, f i = ((∑ i ∈ s, (f i).toReal : ℝ) : EReal) := by
    rw [coe_finset_sum]
    exact Finset.sum_congr rfl fun i hi => (h i hi).coe_toReal.symm
  rw [e]
  exact EReal.coe_pos.2 (Finset.sum_pos (fun i hi => EReal.toReal_pos (hp i hi) (h i hi).ne_top) hne)

/-! ## The same operations as a program spells them at the ideal values -/

section Fields
variable {φ : FTy} {x y : Ideal φ}

theorem isReal_addf (hx : IsReal x) (hy : IsReal y) : IsReal (FloatOps.addf x y) := hx.add hy
theorem isReal_subf (hx : IsReal x) (hy : IsReal y) : IsReal (FloatOps.subf x y) := hx.sub hy
theorem isReal_mulf (hx : IsReal x) (hy : IsReal y) : IsReal (FloatOps.mulf x y) := hx.mul hy
theorem isReal_negf (hx : IsReal x) : IsReal (FloatOps.negf x) := hx.neg
theorem isReal_hostNegf (hx : IsReal x) : IsReal (FloatOps.hostNegf x) := hx.neg
theorem isReal_maximumf (hx : IsReal x) (hy : IsReal y) : IsReal (FloatOps.maximumf x y) := hx.max hy
theorem isReal_minimumf (hx : IsReal x) (hy : IsReal y) : IsReal (FloatOps.minimumf x y) := hx.min hy
theorem isReal_select {x y : EReal} (c : BitVec 1) (hx : IsReal x) (hy : IsReal y) : IsReal (Scalar.select c x y) := by
  unfold Scalar.select; split_ifs <;> assumption
theorem isReal_sitofp {w : Nat} (b : BitVec w) : IsReal (FloatOps.sitofp (F := Ideal) φ b) := ⟨_, rfl⟩
theorem isReal_uitofp {w : Nat} (b : BitVec w) : IsReal (FloatOps.uitofp (F := Ideal) φ b) := ⟨_, rfl⟩
theorem isReal_extf (ψ : FTy) (h : φ.bits < ψ.bits) (hx : IsReal x) : IsReal (FloatOps.extf ψ h x) := hx
theorem isReal_truncf (ψ : FTy) (h : ψ.bits < φ.bits) (hx : IsReal x) : IsReal (FloatOps.truncf ψ h x) := hx

end Fields

/-! ## Division -/

/-- The quotient of two reals, the divisor not zero, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem isReal_div {x y : EReal} (hx : IsReal x) (hy : IsReal y) (h0 : y ≠ 0) : IsReal (Ideal.div x y) := by
  obtain ⟨a, rfl⟩ := hx; obtain ⟨b, rfl⟩ := hy
  exact ⟨a / b, div_coe_coe a (EReal.coe_ne_zero.1 h0)⟩
theorem isReal_divf {φ : FTy} {x y : Ideal φ} (hx : IsReal x) (hy : IsReal y) (h0 : y ≠ 0) :
    IsReal (FloatOps.divf x y) := isReal_div hx hy h0
theorem isReal_hostDivf {φ : FTy} {x y : Ideal φ} (hx : IsReal x) (hy : IsReal y) (h0 : y ≠ 0) :
    IsReal (FloatOps.hostDivf x y) := isReal_div hx hy h0

/-- The value of the min–max normalisation in the reals: for `mn < mx` the quotient `(x - mn) / (mx - mn)`. -/
theorem div_sub_sub_coe (x mn mx : ℝ) (hlt : mn < mx) :
    Ideal.div ((x : EReal) - mn) ((mx : EReal) - mn) = (((x - mn) / (mx - mn) : ℝ) : EReal) := by
  rw [← EReal.coe_sub, ← EReal.coe_sub]
  exact div_coe_coe _ (sub_ne_zero.2 hlt.ne')
/-- The min–max normalisation: for reals with `mn < mx` the quotient `(x - mn) / (mx - mn)` is real. -/
theorem isReal_div_sub_sub {x mn mx : EReal} (hx : IsReal x) (hmn : IsReal mn) (hmx : IsReal mx) (hlt : mn < mx) :
    IsReal (Ideal.div (x - mn) (mx - mn)) := by
  obtain ⟨a, rfl⟩ := hx; obtain ⟨b, rfl⟩ := hmn; obtain ⟨c, rfl⟩ := hmx
  exact ⟨_, div_sub_sub_coe a b c (EReal.coe_lt_coe_iff.1 hlt)⟩

/-! ## Comparisons -/

theorem cmp_ogt_eq_one_iff {a b : EReal} : Ideal.cmp .ogt a b = 1#1 ↔ b < a := by
  show BitVec.ofBool (decide (b < a)) = 1#1 ↔ b < a
  by_cases h : b < a <;> simp [h]
theorem lt_of_cmp_ogt {a b : EReal} (h : Ideal.cmp .ogt a b = 1#1) : b < a := cmp_ogt_eq_one_iff.1 h
theorem lt_of_cmpf_ogt {φ : FTy} {a b : Ideal φ} (h : FloatOps.cmpf .ogt a b = 1#1) : b < a := cmp_ogt_eq_one_iff.1 h
theorem le_of_cmpf_ogt_ne {φ : FTy} {a b : Ideal φ} (h : FloatOps.cmpf .ogt a b ≠ 1#1) : a ≤ b :=
  not_lt.1 fun hlt => h (cmp_ogt_eq_one_iff.2 hlt)

/-! ## Bit patterns -/

theorem ofBits_one_f32 : Ideal.ofBits .f32 0x3F800000#32 = ((1 : ℝ) : EReal) := by
  simp [Ideal.ofBits, Ideal.ieee, -EReal.coe_mul, -EReal.coe_one]; norm_num
theorem ofBits_neg_half_f32 : Ideal.ofBits .f32 0xBF000000#32 = ((-1 / 2 : ℝ) : EReal) := by
  simp [Ideal.ofBits, Ideal.ieee, -EReal.coe_mul, -EReal.coe_neg]; norm_num
theorem ofBits_zero_f32 : Ideal.ofBits .f32 0x00000000#32 = 0 := Ideal.ofBits_zero_f32
theorem ofBits_neg_inf_f32 : Ideal.ofBits .f32 0xFF800000#32 = ⊥ := by simp [Ideal.ofBits, Ideal.ieee]
theorem ofBits_pos_inf_f32 : Ideal.ofBits .f32 0x7F800000#32 = ⊤ := by simp [Ideal.ofBits, Ideal.ieee]
/-- The pattern `0x3C23D70A` (the f32 nearest one hundredth) is a positive real. -/
theorem ofBits_hundredth_f32_pos : ∃ r : ℝ, 0 < r ∧ Ideal.ofBits .f32 0x3C23D70A#32 = (r : EReal) := by
  have h : Ideal.ofBits .f32 0x3C23D70A#32 = (((10737418 : ℝ) * (2 : ℝ) ^ (-30 : ℤ) : ℝ) : EReal) := by
    simp [Ideal.ofBits, Ideal.ieee, -EReal.coe_mul] <;> norm_num
  exact ⟨_, by positivity, h⟩
theorem isReal_ofBits_one_f32 : IsReal (Ideal.ofBits .f32 0x3F800000#32) := ⟨_, ofBits_one_f32⟩
theorem isReal_ofBits_neg_half_f32 : IsReal (Ideal.ofBits .f32 0xBF000000#32) := ⟨_, ofBits_neg_half_f32⟩
theorem isReal_ofBits_zero_f32 : IsReal (Ideal.ofBits .f32 0x00000000#32) := ⟨0, ofBits_zero_f32⟩
theorem isReal_ofBits_hundredth_f32 : IsReal (Ideal.ofBits .f32 0x3C23D70A#32) :=
  let ⟨r, _, h⟩ := ofBits_hundredth_f32_pos; ⟨r, h⟩

/-! ## The power `v ^ (-1/2)` at `v ≥ 1` -/

/-- For a real `v ≥ 1` the power `v ^ (-1/2)` is a positive real. -/
theorem pow_neg_half_coe {v : ℝ} (hv : 1 ≤ v) :
    ∃ r : ℝ, 0 < r ∧ Ideal.pow (v : EReal) ((-1 / 2 : ℝ) : EReal) = (r : EReal) :=
  ⟨Real.rpow v (-1 / 2), Real.rpow_pos_of_pos (lt_of_lt_of_le one_pos hv) _, Ideal.pow_coe_coe v (-1 / 2)⟩
/-- The same for an extended real known to be real and at least one, the exponent the pattern of `-0.5`. -/
theorem pow_neg_half_of_one_le {v : EReal} (hv : IsReal v) (h1 : 1 ≤ v) :
    ∃ r : ℝ, 0 < r ∧ Ideal.pow v (Ideal.ofBits .f32 0xBF000000#32) = (r : EReal) := by
  obtain ⟨r, rfl⟩ := hv
  rw [ofBits_neg_half_f32]
  exact pow_neg_half_coe (EReal.coe_le_coe_iff.1 (by rwa [EReal.coe_one]))
/-- As a program spells it: the host power of `max deg 1` to the pattern of `-0.5`, `deg` real. -/
theorem hostPowf_max_one_neg_half {deg : Ideal .f32} (hd : IsReal deg) :
    ∃ r : ℝ, 0 < r ∧ FloatOps.hostPowf (FloatOps.maximumf deg (Ideal.ofBits .f32 0x3F800000#32))
      (Ideal.ofBits .f32 0xBF000000#32) = (r : EReal) := by
  show ∃ r : ℝ, 0 < r ∧ Ideal.pow (max deg (Ideal.ofBits .f32 0x3F800000#32)) (Ideal.ofBits .f32 0xBF000000#32) = (r : EReal)
  have h1 : (1 : EReal) ≤ Ideal.ofBits .f32 0x3F800000#32 := by rw [ofBits_one_f32, EReal.coe_one]
  exact pow_neg_half_of_one_le (hd.max isReal_ofBits_one_f32) (le_max_of_le_right h1)

/-! ## The exponential -/

theorem exp_pos_of_isReal {x : EReal} (hx : IsReal x) : ∃ r : ℝ, 0 < r ∧ Ideal.exp x = (r : EReal) := by
  obtain ⟨a, rfl⟩ := hx; exact ⟨Real.exp a, Real.exp_pos a, Ideal.exp_coe a⟩
theorem isReal_exp {x : EReal} (hx : IsReal x) : IsReal (Ideal.exp x) :=
  let ⟨r, _, h⟩ := exp_pos_of_isReal hx; ⟨r, h⟩
theorem exp_pos {x : EReal} (hx : IsReal x) : 0 < Ideal.exp x := by
  obtain ⟨r, hr, h⟩ := exp_pos_of_isReal hx; rw [h]; exact EReal.coe_pos.2 hr
theorem isReal_hostExp {φ : FTy} {x : Ideal φ} (hx : IsReal x) : IsReal (FloatOps.hostUnary .exp x) := isReal_exp hx
theorem hostExp_pos {φ : FTy} {x : Ideal φ} (hx : IsReal x) : 0 < FloatOps.hostUnary .exp x := exp_pos hx
theorem isReal_expf {φ : FTy} {x : Ideal φ} (hx : IsReal x) : IsReal (FloatOps.exp x) := isReal_exp hx
theorem expf_pos {φ : FTy} {x : Ideal φ} (hx : IsReal x) : 0 < FloatOps.exp x := exp_pos hx

/-! ## Column reductions by maximum and minimum -/

section Columns
variable {R C : Nat}

/-- Over axis 0 of an `R × C` array the indices that drop to column `j` are those whose column is `j`. -/
theorem drop_eq_iff_col (h : (⟨2, ![R, C]⟩ : Shape).ReducesTo [0] (⟨1, ![C]⟩ : Shape))
    (i : (⟨2, ![R, C]⟩ : Shape).Idx) (j : (⟨1, ![C]⟩ : Shape).Idx) : h.drop i = j ↔ i 1 = j 0 := by
  have hv : (h.drop i 0 : Nat) = i 1 := Shape.ReducesTo.drop_apply_val h i 0
  constructor
  · intro e; apply Fin.ext; rw [← hv, e]
  · intro e; funext b
    obtain rfl : b = 0 := Subsingleton.elim _ _
    exact Fin.ext (hv.trans (congrArg Fin.val e))

/-- Entry `(r, j)` drops to column `j`. -/
theorem ix2_mem_fiber (h : (⟨2, ![R, C]⟩ : Shape).ReducesTo [0] (⟨1, ![C]⟩ : Shape)) (r : Fin R)
    (j : (⟨1, ![C]⟩ : Shape).Idx) :
    (ix2 r (j 0 : Fin C) : (⟨2, ![R, C]⟩ : Shape).Idx) ∈ Finset.univ.filter fun i : (⟨2, ![R, C]⟩ : Shape).Idx => h.drop i = j :=
  by rw [Finset.mem_filter]; exact ⟨Finset.mem_univ _, (drop_eq_iff_col h _ j).2 rfl⟩

/-- The column maximum from `-∞` of a real-valued array with at least one row is real and is at least every entry of the
    column. -/
theorem hostReduce_max_col (hR : 0 < R) (x : FVec Ideal ⟨2, ![R, C]⟩ .f32) (hx : ∀ i, IsReal (x i)) {u : Shape}
    (init : u.Idx → Ideal .f32) (hu : 0 < u.numel) (hinit : init (Shape.Idx.first hu) = ⊥)
    (h : (⟨2, ![R, C]⟩ : Shape).ReducesTo [0] (⟨1, ![C]⟩ : Shape)) (j : (⟨1, ![C]⟩ : Shape).Idx) :
    IsReal (Host.reduce (FloatOps.maximumf (F := Ideal) (φ := .f32)) x init h hu j)
      ∧ ∀ r : Fin R, x (ix2 r (j 0 : Fin C)) ≤ Host.reduce (FloatOps.maximumf (F := Ideal) (φ := .f32)) x init h hu j := by
  have key : Host.reduce (FloatOps.maximumf (F := Ideal) (φ := .f32)) x init h hu j
      = (Finset.univ.filter fun i : (⟨2, ![R, C]⟩ : Shape).Idx => h.drop i = j).fold max ⊥ x := by
    rw [Host.reduce_eq_fold, hinit]; rfl
  rw [key]
  have h0 := ix2_mem_fiber h ⟨0, hR⟩ j
  refine ⟨isReal_of_ne ?_ ?_, fun r => (Finset.le_fold_max _).2 (Or.inr ⟨_, ix2_mem_fiber h r j, le_rfl⟩)⟩
  · exact ((Finset.lt_fold_max _).2 (Or.inr ⟨_, h0, bot_lt_iff_ne_bot.2 (hx _).ne_bot⟩)).ne'
  · exact ((Finset.fold_max_lt _).2 ⟨bot_lt_top, fun i _ => lt_top_iff_ne_top.2 (hx i).ne_top⟩).ne

/-- The column minimum from `+∞` of a real-valued array with at least one row is real and is at most every entry of the
    column. -/
theorem hostReduce_min_col (hR : 0 < R) (x : FVec Ideal ⟨2, ![R, C]⟩ .f32) (hx : ∀ i, IsReal (x i)) {u : Shape}
    (init : u.Idx → Ideal .f32) (hu : 0 < u.numel) (hinit : init (Shape.Idx.first hu) = ⊤)
    (h : (⟨2, ![R, C]⟩ : Shape).ReducesTo [0] (⟨1, ![C]⟩ : Shape)) (j : (⟨1, ![C]⟩ : Shape).Idx) :
    IsReal (Host.reduce (FloatOps.minimumf (F := Ideal) (φ := .f32)) x init h hu j)
      ∧ ∀ r : Fin R, Host.reduce (FloatOps.minimumf (F := Ideal) (φ := .f32)) x init h hu j ≤ x (ix2 r (j 0 : Fin C)) := by
  have key : Host.reduce (FloatOps.minimumf (F := Ideal) (φ := .f32)) x init h hu j
      = (Finset.univ.filter fun i : (⟨2, ![R, C]⟩ : Shape).Idx => h.drop i = j).fold min ⊤ x := by
    rw [Host.reduce_eq_fold, hinit]; rfl
  rw [key]
  have h0 := ix2_mem_fiber h ⟨0, hR⟩ j
  refine ⟨isReal_of_ne ?_ ?_, fun r => (Finset.fold_min_le _).2 (Or.inr ⟨_, ix2_mem_fiber h r j, le_rfl⟩)⟩
  · exact ((Finset.lt_fold_min _).2 ⟨bot_lt_top, fun i _ => bot_lt_iff_ne_bot.2 (hx i).ne_bot⟩).ne'
  · exact ((Finset.fold_min_lt _).2 (Or.inr ⟨_, h0, lt_top_iff_ne_top.2 (hx _).ne_top⟩)).ne

/-- The same with the initial value the constant a program prints, the pattern of `-∞`. -/
theorem hostReduce_max_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.maximumf (F := Ideal) (φ := .f32)) x (constant (F := Ideal) u .f32 0xFF800000#32) h hu j)
      ∧ ∀ r : Fin R, x (ix2 r (j 0 : Fin C)) ≤ Host.reduce (FloatOps.maximumf (F := Ideal) (φ := .f32)) x (constant (F := Ideal) u .f32 0xFF800000#32) h hu j :=
  hostReduce_max_col hR x hx _ hu ofBits_neg_inf_f32 h j

/-- The same with the initial value the constant a program prints, the pattern of `+∞`. -/
theorem hostReduce_min_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.minimumf (F := Ideal) (φ := .f32)) x (constant (F := Ideal) u .f32 0x7F800000#32) h hu j)
      ∧ ∀ r : Fin R, Host.reduce (FloatOps.minimumf (F := Ideal) (φ := .f32)) x (constant (F := Ideal) u .f32 0x7F800000#32) h hu j ≤ x (ix2 r (j 0 : Fin C)) :=
  hostReduce_min_col hR x hx _ hu ofBits_pos_inf_f32 h j

/-- The column minimum is at most the column maximum. -/
theorem hostReduce_min_le_max_col (hR : 0 < R) (x : FVec Ideal ⟨2, ![R, C]⟩ .f32) (hx : ∀ i, IsReal (x i)) {u u' : Shape}
    (init : u.Idx → Ideal .f32) (hu : 0 < u.numel) (hinit : init (Shape.Idx.first hu) = ⊤)
    (init' : u'.Idx → Ideal .f32) (hu' : 0 < u'.numel) (hinit' : init' (Shape.Idx.first hu') = ⊥)
    (h h' : (⟨2, ![R, C]⟩ : Shape).ReducesTo [0] (⟨1, ![C]⟩ : Shape)) (j : (⟨1, ![C]⟩ : Shape).Idx) :
    Host.reduce (FloatOps.minimumf (F := Ideal) (φ := .f32)) x init h hu j
      ≤ Host.reduce (FloatOps.maximumf (F := Ideal) (φ := .f32)) x init' h' hu' j :=
  ((hostReduce_min_col hR x hx init hu hinit h j).2 ⟨0, hR⟩).trans
    ((hostReduce_max_col hR x hx init' hu' hinit' h' j).2 ⟨0, hR⟩)

/-- The column sum from a real initial value of a real-valued array is real; from zero, of positive entries over at least
    one row, it is positive. -/
theorem hostReduceAdd_col_pos (hR : 0 < R) (x : (⟨2, ![R, C]⟩ : Shape).Idx → EReal) (hx : ∀ i, IsReal (x i))
    (hp : ∀ i, 0 < x i) (h : (⟨2, ![R, C]⟩ : Shape).ReducesTo [0] (⟨1, ![C]⟩ : Shape)) (j : (⟨1, ![C]⟩ : Shape).Idx) :
    0 < Ideal.hostReduceAdd h x 0 j := by
  show 0 < (0 : EReal) + ∑ i ∈ Finset.univ.filter (fun i => h.drop i = j), x i
  rw [zero_add]
  exact sum_pos_of_isReal _ x (fun i _ => hx i) (fun i _ => hp i) ⟨_, ix2_mem_fiber h ⟨0, hR⟩ j⟩

/-- The same for the host sum as a program spells it, its initial value zero. -/
theorem reduceAdd_col_pos (hR : 0 < R) {φ : FTy} (x : FVec Ideal ⟨2, ![R, C]⟩ φ) (hx : ∀ i, IsReal (x i))
    (hp : ∀ i, 0 < x i) {u : Shape} (init : u.Idx → Ideal φ) (hu : 0 < u.numel) (hinit : init (Shape.Idx.first hu) = 0)
    (h : (⟨2, ![R, C]⟩ : Shape).ReducesTo [0] (⟨1, ![C]⟩ : Shape)) (j : (⟨1, ![C]⟩ : Shape).Idx) :
    0 < Host.reduceAdd x init h hu j := by
  show 0 < Ideal.hostReduceAdd h x (init (Shape.Idx.first hu)) j
  rw [hinit]
  exact hostReduceAdd_col_pos hR x hx hp h j

end Columns

/-! ## Contractions, scatters and sums -/

section Contract
variable {sl sr so : Shape}

theorem isReal_matmul (d : DotDims sl sr so) (lhs : sl.Idx → EReal) (rhs : sr.Idx → EReal) (acc : so.Idx → EReal)
    (hl : ∀ i, IsReal (lhs i)) (hr : ∀ i, IsReal (rhs i)) (ha : ∀ j, IsReal (acc j)) (j : so.Idx) :
    IsReal (Ideal.matmul d lhs rhs acc j) :=
  (ha j).add (isReal_sum_univ _ fun k => (hl _).mul (hr _))

theorem isReal_matmulf {φ₁ φ₂ : FTy} (d : DotDims sl sr so) (prec : Option ContractPrecision) (lhs : FVec Ideal sl φ₁)
    (rhs : FVec Ideal sr φ₂) (acc : FVec Ideal so .f32) (hl : ∀ i, IsReal (lhs i)) (hr : ∀ i, IsReal (rhs i))
    (ha : ∀ j, IsReal (acc j)) (j : so.Idx) : IsReal (FloatOps.matmul d prec lhs rhs acc j) :=
  isReal_matmul d lhs rhs acc hl hr ha j

theorem isReal_dotGeneral {φ₁ φ₂ : FTy} (d : DotDims sl sr so) (prec : Option ContractPrecision) (sched : HostSchedule)
    (lhs : FVec Ideal sl φ₁) (rhs : FVec Ideal sr φ₂) (hl : ∀ i, IsReal (lhs i)) (hr : ∀ i, IsReal (rhs i)) (j : so.Idx) :
    IsReal (FloatOps.dotGeneral d prec sched lhs rhs j) :=
  isReal_matmul d lhs rhs (fun _ => 0) hl hr (fun _ => isReal_zero) j

theorem isReal_hostDotGeneral {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) (j : so.Idx) :
    IsReal (Host.dotGeneral d prec lhs rhs j) :=
  isReal_dotGeneral d prec .single lhs rhs hl hr j

end Contract

/-- A gather reads the operand: real when the operand is. -/
theorem isReal_gather {s si t : Shape} {w : Nat} (d : GatherDims s si t) (x : s.Idx → EReal) (idx : IVec si w)
    (hx : ∀ i, IsReal (x i)) (j : t.Idx) : IsReal (Host.gather d x idx j) :=
  hx _

theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (isReal_sum _ _ fun j _ => hu j)

theorem isReal_scatterAdd {s si su : Shape} {φ : FTy} (d : ScatterDims s si su) {w : Nat} (x : FVec Ideal s φ)
    (idx : IVec si w) (upd : FVec Ideal su φ) (hx : ∀ i, IsReal (x i)) (hu : ∀ j, IsReal (upd j)) (i : s.Idx) :
    IsReal (Host.scatterAdd d x idx upd i) :=
  isReal_hostScatterAdd d x idx upd hx hu i

theorem isReal_hostReduceAdd {s t : Shape} {axes : List (Fin s.rank)} (h : s.ReducesTo axes t) (x : s.Idx → EReal)
    (init : EReal) (hx : ∀ i, IsReal (x i)) (hi : IsReal init) (j : t.Idx) :
    IsReal (Ideal.hostReduceAdd h x init j) :=
  hi.add (isReal_sum _ _ fun i _ => hx i)

theorem isReal_reduceAdd {s t u : Shape} {φ : FTy} {axes : List (Fin s.rank)} (x : FVec Ideal s φ)
    (init : u.Idx → Ideal φ) (h : s.ReducesTo axes t) (hu : 0 < u.numel) (hx : ∀ i, IsReal (x i))
    (hi : IsReal (init (Shape.Idx.first hu))) (j : t.Idx) : IsReal (Host.reduceAdd x init h hu j) :=
  isReal_hostReduceAdd h x _ hx hi j

end RealClosure
-- ==== Proof.Finite.lean ====
import proofs.«411983_j75668733821211_3_alg».proof.Pre_finite_inputs
import proofs.«411983_j75668733821211_3_alg».proof.Proof.RefReadP
import proofs.«411983_j75668733821211_3_alg».proof.Proof.LibRealClosure
import Idealize.ShloMosaic.Lib.ReduceAll
import Idealize.ShloMosaic.Lib.ValueIdx

/-! # Real-valuedness: of the inputs under the precondition, and of the normalisation factor

The precondition says of each float input that every element's absolute value lies below `+∞`; an extended real with
that property is neither `+∞` nor `-∞`, so it is a real number.

The normalisation factor of a node is `deg ^ (-1/2)` where the degree `deg` is positive and zero elsewhere. The degree
is a finite sum of ones added to zero, hence a real; the reciprocal square root of a positive real is a real. -/

noncomputable section

namespace Cert.Finite

open Idealize.ShloMosaic Idealize.ShloMosaic.ValueIdx RealClosure

/-! ## An element whose absolute value lies below `+∞` -/

/-- Of `x` and `-x` the larger is `+∞` when `x` is `-∞` or `+∞`; below `+∞` it leaves `x` a real number. -/
theorem isReal_of_abs_lt_top {x : EReal} (h : max x (-x) < ⊤) : IsReal x := by
  refine isReal_of_ne ?_ ?_
  · rintro rfl
    rw [EReal.neg_bot, max_eq_right bot_le] at h
    exact lt_irrefl _ h
  · rintro rfl
    rw [max_eq_left le_top] at h
    exact lt_irrefl _ h

/-- The comparison as a program spells it at an index: the absolute value of the array against the splat of the
    pattern of `+∞`, whatever shape the splat is broadcast from. -/
theorem isReal_of_finite_at {s u : Shape} (x : FVec Ideal s .f32) (dims : Fin u.rank → Fin s.rank)
    (hb : u.BroadcastsInDim s dims) (i : s.Idx)
    (h : cmpf .olt (Host.absf x) (broadcastInDim s dims hb (constant (F := Ideal) u .f32 0x7F800000#32)) i = 1#1) :
    ∃ r : ℝ, x i = (r : EReal) := by
  have h' : BitVec.ofBool (decide (max (x i) (-(x i)) < Ideal.ofBits .f32 0x7F800000#32)) = 1#1 := h
  rw [ofBits_pos_inf_f32] at h'
  by_cases hlt : max (x i) (-(x i)) < ⊤
  · exact isReal_of_abs_lt_top hlt
  · rw [decide_eq_false hlt] at h'
    exact absurd h' (by decide)

/-- The conjunction over all indices: where the reduction by `and` into one element is 1, every element is a real. -/
theorem isReal_of_all_finite {s u t v : Shape} {axes : List (Fin s.rank)} [Subsingleton t.Idx] (x : FVec Ideal s .f32)
    (dims : Fin u.rank → Fin s.rank) (hb : u.BroadcastsInDim s dims) (init : v.Idx → BitVec 1) (hr : s.ReducesTo axes t)
    (hv : 0 < v.numel) (j : t.Idx)
    (e : Host.reduce IntOp.andi (cmpf .olt (Host.absf x) (broadcastInDim s dims hb (constant (F := Ideal) u .f32 0x7F800000#32)))
      init hr hv j = 1#1) (i : s.Idx) : ∃ r : ℝ, x i = (r : EReal) :=
  isReal_of_finite_at x dims hb i (Host.reduce_andi_all _ init hr hv j e i)

/-- The result shape of the precondition's reductions has one index. -/
instance : Subsingleton Cert.Pre_finite_inputs.S_.Idx := ⟨fun a b => funext fun d => d.elim0⟩

/-- Under the precondition every element of the five float inputs is a real number: the precondition is the
    conjunction of the five all-elements-finite facts. -/
theorem inputs_real [Cert.Pre_finite_inputs.Facts] (x0 : FVec Ideal Cert.Pre_finite_inputs.S100000x64 .f32)
    (x1 : IVec Cert.Pre_finite_inputs.S2x1600000 32) (x2 : IVec Cert.Pre_finite_inputs.S100000 32)
    (x3 : FVec Ideal Cert.Pre_finite_inputs.S64x128 .f32) (x4 : FVec Ideal Cert.Pre_finite_inputs.S128 .f32)
    (x5 : FVec Ideal Cert.Pre_finite_inputs.S128x128 .f32) (x6 : FVec Ideal Cert.Pre_finite_inputs.S128 .f32)
    (h : Cert.Pre_finite_inputs.fn (F := Ideal) x0 x1 x2 x3 x4 x5 x6 = fun _ => 1#1) :
    (∀ i, ∃ r : ℝ, x0 i = (r : EReal)) ∧ (∀ i, ∃ r : ℝ, x3 i = (r : EReal)) ∧ (∀ i, ∃ r : ℝ, x4 i = (r : EReal))
      ∧ (∀ i, ∃ r : ℝ, x5 i = (r : EReal)) ∧ (∀ i, ∃ r : ℝ, x6 i = (r : EReal)) := by
  have h0 := congrFun h ValueIdx.ix0
  dsimp only [Cert.Pre_finite_inputs.fn, Cert.Pre_finite_inputs.fn_part1, Idealize.ShloMosaic.andi] at h0
  rw [IntOp.andi_eq_one, IntOp.andi_eq_one, IntOp.andi_eq_one, IntOp.andi_eq_one] at h0
  obtain ⟨⟨⟨⟨e0, e3⟩, e4⟩, e5⟩, e6⟩ := h0
  exact ⟨fun i => isReal_of_all_finite x0 _ _ _ _ _ _ e0 i, fun i => isReal_of_all_finite x3 _ _ _ _ _ _ e3 i,
    fun i => isReal_of_all_finite x4 _ _ _ _ _ _ e4 i, fun i => isReal_of_all_finite x5 _ _ _ _ _ _ e5 i,
    fun i => isReal_of_all_finite x6 _ _ _ _ _ _ e6 i⟩

/-! ## The normalisation factor -/

section Factor

open Cert.ReferenceIdeal Cert.ReferenceIdeal.ReadP

variable (x1 : (⟨Cert.ReferenceIdeal.S2x1600000, .i32⟩ : BufTy).Contents (Elt Ideal))

/-- The degree of a node: ones scattered by addition into an array of zeros, a real number. -/
theorem deg_real (i : Cert.ReferenceIdeal.S100000.Idx) : IsReal (val_main_v11 (F := Ideal) x1 i) := by
  unfold val_main_v11
  refine isReal_scatterAdd _ _ _ _ (fun k => ?_) (fun k => ?_) i
  · rw [val_main_v9_apply, val_main_cst_0_apply]; exact isReal_ofBits_zero_f32
  · rw [val_main_v8_apply, val_main_cst_apply]; exact isReal_ofBits_one_f32

/-- The reciprocal square root of a positive real is the real `(√r)⁻¹`. -/
theorem rsqrt_pos_real {r : ℝ} (hr : 0 < r) : Ideal.rsqrt (r : EReal) = (((Real.sqrt r)⁻¹ : ℝ) : EReal) := by
  rw [Ideal.rsqrt_coe, if_neg (not_lt.2 hr.le), if_neg hr.ne']

/-- The normalisation factor of a node is a real number: where the degree is positive it is the reciprocal square
    root of that positive real, elsewhere it is zero. -/
theorem dinv_real (i : Cert.ReferenceIdeal.S100000.Idx) :
    ∃ r : ℝ, Cert.ReferenceIdeal.ReadP.val_main_v15 (F := Ideal) x1 i = (r : EReal) := by
  rw [val_main_v15_apply]
  by_cases hc : val_main_v13 (F := Ideal) x1 i = 1#1
  · rw [hc, select_one, val_main_v14_apply]
    obtain ⟨r, hr⟩ := deg_real x1 i
    have hpos : val_main_v12 (F := Ideal) i < val_main_v11 (F := Ideal) x1 i := by
      rw [val_main_v13_apply] at hc; exact lt_of_cmpf_ogt hc
    rw [val_main_v12_apply, val_main_cst_1_apply, Ideal.ofBits_def, Ideal.ofBits_zero_f32, hr] at hpos
    rw [hr, Ideal.hostUnary_rsqrt_def, rsqrt_pos_real (EReal.coe_pos.1 hpos)]
    exact ⟨_, rfl⟩
  · rw [eq_zero_of_ne_one hc, select_zero, val_main_call0_v1_apply, val_main_call0_v0_apply, val_main_cst_2_apply]
    exact isReal_ofBits_zero_f32

end Factor

end Cert.Finite

end
-- ==== Proof.lean ====
import proofs.«411983_j75668733821211_3_alg».proof.Defs
import proofs.«411983_j75668733821211_3_alg».proof.Proof.Gen.Kernel
import proofs.«411983_j75668733821211_3_alg».proof.Proof.Gen.KernelIdeal
import proofs.«411983_j75668733821211_3_alg».proof.Proof.Gen.ReferenceIdeal
import proofs.«411983_j75668733821211_3_alg».proof.Proof.Gen.Pre_finite_inputs
import proofs.«411983_j75668733821211_3_alg».proof.Proof.K.Run
import proofs.«411983_j75668733821211_3_alg».proof.Proof.KI.Run
import proofs.«411983_j75668733821211_3_alg».proof.Proof.KI.Value
import proofs.«411983_j75668733821211_3_alg».proof.Proof.KI.Shared
import proofs.«411983_j75668733821211_3_alg».proof.Proof.RefRunP
import proofs.«411983_j75668733821211_3_alg».proof.Proof.RefReadP
import proofs.«411983_j75668733821211_3_alg».proof.Proof.RefValue
import proofs.«411983_j75668733821211_3_alg».proof.Proof.Finite
import proofs.«411983_j75668733821211_3_alg».proof.Proof.Spec
import Idealize.ShloMosaic.Lib.StableHlo.Run
import Idealize.ShloMosaic.Lib.ValueIdx
import Idealize.ShloMosaic.Adequacy
import Idealize.ShloMosaic.Init

/-!
# Two graph-convolution layers with mean pooling: the kernel program against its reference

The kernel scales the node features by the normalisation factor on the source side, aggregates in the 64-wide input
space, splits the self-loops out of the edge list and pools with a one-hot contraction accumulated over 100 grid
points; the reference applies the weights first, weights every edge of the list extended by the self-loops with the
product of the two factors, and pools with a scatter-add. Over the extended reals, at finite inputs, both are the same
function: every quantity is a real number (the factor is the inverse square root of a positive count, or zero), and over
the reals the two arrangements differ by distributivity over finite sums (GcnForms). The pooled sums are divided by the
same clamped counts in both programs.
-/

noncomputable section

open Idealize.ShloMosaic Idealize.ShloMosaic.TcCoe Idealize.SL.Sem Idealize.ShloMosaic.ValueIdx

namespace Cert.Proof.Gcn

open Cert.KernelIdeal Cert.KernelIdeal.Gen Cert.KernelIdeal.Hand Idealize.ShloMosaic.StableHlo

variable (m : (ℓ : Loc nD τ sig) → Buf (Elt Ideal) ℓ) (ρ : Dev nD → PrngReg)

/-- The precondition's stated side conditions, as the generated facts module proves them. -/
local instance : Cert.Pre_finite_inputs.Facts := Cert.Pre_finite_inputs.Gen.facts

/-- At finite inputs the kernel program's result is the reference's result term of the same arguments. -/
theorem result_eq (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) :
    W11 m ρ c (Proc.devRef .tc main_v51)
      = Cert.ReferenceIdeal.ReadP.val_main_v102 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  obtain ⟨h0, h3, h4, h5, h6⟩ := Cert.Finite.inputs_real _ _ _ _ _ _ _ hpre
  rw [result_shared (F := Ideal) m ρ c]
  show _ = Host.divf (F := Ideal) (Cert.ReferenceIdeal.ReadP.val_main_v94 (F := Ideal) _ _ _ _ _ _ _) (Cert.ReferenceIdeal.ReadP.val_main_v101 (F := Ideal) _)
  refine congrArg (fun s => Host.divf (F := Ideal) s _) ?_
  funext i
  obtain ⟨g, f, rfl⟩ : ∃ (g : Fin 512) (f : Fin 128), i = ix2 g f := ⟨i 0, i 1, eq_ix2 i⟩
  refine (kernel_sums m ρ c g f).trans ?_
  rw [Cert.ReferenceIdeal.Hand.ref_sums, show dinvK m ρ c = _ from factors_shared (F := Ideal) m ρ c]
  exact Cert.Spec.kOut_eq_rOut _ _ _ _ _ _ _ _ h0 h3 h4 h5 h6 (fun i => Cert.Finite.dinv_real _ i) g f

end Cert.Proof.Gcn

namespace Cert.Proof

theorem frame_k : Cert.frame_Kernel (hKernel := Cert.Kernel.Gen.facts) (hPre_finite_inputs := Cert.Pre_finite_inputs.Gen.facts) :=
  fun m ρ _ => Cert.Kernel.Hand.frame m ρ
theorem frame_ki : Cert.frame_KernelIdeal (hKernelIdeal := Cert.KernelIdeal.Gen.facts) (hPre_finite_inputs := Cert.Pre_finite_inputs.Gen.facts) :=
  fun m ρ _ => Cert.KernelIdeal.Hand.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs run; the reference ends at its result term of its own arguments, which agree with the
    kernel's, and at finite inputs that term is the kernel program's result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W11 m ρ c (Proc.devRef .tc Cert.KernelIdeal.main_v51), Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v102_eq, (hagree c).1, (hagree c).2.1, (hagree c).2.2.1, (hagree c).2.2.2.1,
    (hagree c).2.2.2.2.1, (hagree c).2.2.2.2.2.1, (hagree c).2.2.2.2.2.2]
  exact (Cert.Proof.Gcn.result_eq m ρ c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
